-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S50000x1 : Shape := ⟨2, ![50000, 1]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S50000x1 : S_.BroadcastsInDim S50000x1 (![] : Fin 0 → Fin S50000x1.rank)
  reducesTo_S50000x1_S_d0_1 : S50000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg4 : IVec S800000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S800000 32 := broadcastInDim S800000 ![] bcast_S_S800000 main_c_20
  let main_v55 : IVec S800000 1 := cmpi .sge main_arg4 main_v54
  let main_c_21 : IVec S_ 32 := constantI S_ 32 50000#32
  let main_v56 : IVec S800000 32 := broadcastInDim S800000 ![] bcast_S_S800000 main_c_21
  let main_v57 : IVec S800000 1 := cmpi .slt main_arg4 main_v56
  let main_v58 : IVec S800000 1 := andi main_v55 main_v57
  let main_c_22 : IVec S_ 1 := constantI S_ 1 1#1
  let main_v59 : IVec S_ 1 := (fun x v => Host.reduce IntOp.andi x v reducesTo_S800000_S_d0 h_S_) main_v58 main_c_22
  let main_v60 : IVec S_ 1 := andi main_v53 main_v59
  main_v60

def fn_part2 {F : FTy → Type} [FloatOps F] (main_arg4 : IVec S800000 32) (main_arg9 : FVec F S128 .f32) (main_arg10 : FVec F S256x128 .f32) (main_arg11 : FVec F S128 .f32) (main_arg12 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg4 main_v48 main_v49 main_v50

def fn_part1 {F : FTy → Type} [FloatOps F] (main_arg4 : IVec S800000 32) (main_arg6 : FVec F S128x128 .f32) (main_arg7 : FVec F S128 .f32) (main_arg8 : FVec F S256x128 .f32) (main_arg9 : FVec F S128 .f32) (main_arg10 : FVec F S256x128 .f32) (main_arg11 : FVec F S128 .f32) (main_arg12 : FVec F S128 .f32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg4 main_arg9 main_arg10 main_arg11 main_arg12 main_v33

def fn {F : FTy → Type} [FloatOps F] (main_arg0 : FVec F S50000x128 .f32) (main_arg1 : FVec F S800000x128 .f32) (main_arg2 : FVec F S800000x128 .f32) (main_arg3 : FVec F S50000x1 .f32) (main_arg4 : IVec S800000 32) (main_arg5 : IVec S800000 32) (main_arg6 : FVec F S128x128 .f32) (main_arg7 : FVec F S128 .f32) (main_arg8 : FVec F S256x128 .f32) (main_arg9 : FVec F S128 .f32) (main_arg10 : FVec F S256x128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S800000x128 .f32 := Host.absf main_arg2
  let main_cst_2 : FVec F S_ .f32 := constant S_ .f32 0x7F800000#32
  let main_v10 : FVec F S800000x128 .f32 := broadcastInDim S800000x128 ![] bcast_S_S800000x128 main_cst_2
  let main_v11 : IVec S800000x128 1 := cmpf .olt main_v9 main_v10
  let main_c_3 : IVec S_ 1 := constantI S_ 1 1#1
  let main_v12 : IVec S_ 1 := (fun x v => Host.reduce IntOp.andi x v reducesTo_S800000x128_S_d0_1 h_S_) main_v11 main_c_3
  let main_v13 : IVec S_ 1 := andi main_v8 main_v12
  let main_v14 : FVec F S50000x1 .f32 := Host.absf main_arg3
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg4 main_arg6 main_arg7 main_arg8 main_arg9 main_arg10 main_arg11 main_arg12 main_v13 main_v16
-- ==== Kernel.lean ====
abbrev S50000x128 : Shape := ⟨2, ![50000, 128]⟩
abbrev S800000x128 : Shape := ⟨2, ![800000, 128]⟩
abbrev S50000x1 : Shape := ⟨2, ![50000, 1]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x256 : Shape := ⟨2, ![800000, 256]⟩
abbrev S3200x128 : Shape := ⟨2, ![3200, 128]⟩
abbrev S3200x256 : Shape := ⟨2, ![3200, 256]⟩
abbrev S1x128 : Shape := ⟨2, ![1, 128]⟩
abbrev S50000 : Shape := ⟨1, ![50000]⟩
abbrev S50000x256 : Shape := ⟨2, ![50000, 256]⟩
abbrev S5000x256 : Shape := ⟨2, ![5000, 256]⟩
abbrev S5000x1 : Shape := ⟨2, ![5000, 1]⟩
abbrev S5000x128 : Shape := ⟨2, ![5000, 128]⟩

abbrev nBuf : Space → Nat
  | .hbm => 88
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000x128, .f32⟩
  | .hbm, ⟨3, _⟩ => ⟨S50000x1, .f32⟩
  | .hbm, ⟨4, _⟩ => ⟨S800000, .i32⟩
  | .hbm, ⟨5, _⟩ => ⟨S800000, .i32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S1, .i32⟩
  | .hbm, ⟨22, _⟩ => ⟨S_, .i32⟩
  | .hbm, ⟨23, _⟩ => ⟨S800000x1, .i32⟩
  | .hbm, ⟨24, _⟩ => ⟨S800000x1, .i1⟩
  | .hbm, ⟨25, _⟩ => ⟨S1x1, .i32⟩
  | .hbm, ⟨26, _⟩ => ⟨S800000x1, .i32⟩
  | .hbm, ⟨27, _⟩ => ⟨S800000x1, .i1⟩
  | .hbm, ⟨28, _⟩ => ⟨S800000x1, .i1⟩
  | .hbm, ⟨29, _⟩ => ⟨S_, .i1⟩
  | .hbm, ⟨30, _⟩ => ⟨S800000, .i1⟩
  | .hbm, ⟨31, _⟩ => ⟨S800000x128, .f32⟩
  | .hbm, ⟨32, _⟩ => ⟨S800000x128, .i1⟩
  | .hbm, ⟨33, _⟩ => ⟨S_, .f32⟩
  | .hbm, ⟨34, _⟩ => ⟨S800000x128, .f32⟩
  | .hbm, ⟨35, _⟩ => ⟨S800000x128, .f32⟩
  | .hbm, ⟨36, _⟩ => ⟨S128x128, .bf16⟩
  | .hbm, ⟨37, _⟩ => ⟨S256x128, .bf16⟩
  | .hbm, ⟨38, _⟩ => ⟨S256x128, .bf16⟩
  | .hbm, ⟨39, _⟩ => ⟨S800000x256, .f32⟩
  | .hbm, ⟨40, _⟩ => ⟨S800000x128, .f32⟩
  | .hbm, ⟨41, _⟩ => ⟨S_, .i32⟩
  | .hbm, ⟨42, _⟩ => ⟨S800000, .i32⟩
  | .hbm, ⟨43, _⟩ => ⟨S_, .i32⟩
  | .hbm, ⟨44, _⟩ => ⟨S50000, .i32⟩
  | .hbm, ⟨45, _⟩ => ⟨S800000x1, .i32⟩
  | .hbm, ⟨46, _⟩ => ⟨S50000, .i32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000x1, .f32⟩
  | .hbm, ⟨52, _⟩ => ⟨S_, .f32⟩
  | .hbm, ⟨53, _⟩ => ⟨S50000x1, .f32⟩
  | .hbm, ⟨54, _⟩ => ⟨S50000x1, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S1, .i32⟩
  | .hbm, ⟨69, _⟩ => ⟨S_, .i32⟩
  | .hbm, ⟨70, _⟩ => ⟨S800000x1, .i32⟩
  | .hbm, ⟨71, _⟩ => ⟨S800000x1, .i1⟩
  | .hbm, ⟨72, _⟩ => ⟨S1x1, .i32⟩
  | .hbm, ⟨73, _⟩ => ⟨S800000x1, .i32⟩
  | .hbm, ⟨74, _⟩ => ⟨S800000x1, .i1⟩
  | .hbm, ⟨75, _⟩ => ⟨S800000x1, .i1⟩
  | .hbm, ⟨76, _⟩ => ⟨S_, .i1⟩
  | .hbm, ⟨77, _⟩ => ⟨S800000, .i1⟩
  | .hbm, ⟨78, _⟩ => ⟨S800000x128, .f32⟩
  | .hbm, ⟨79, _⟩ => ⟨S800000x128, .i1⟩
  | .hbm, ⟨80, _⟩ => ⟨S_, .f32⟩
  | .hbm, ⟨81, _⟩ => ⟨S800000x128, .f32⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S50000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x128, .f32⟩
  | .local _ .vmem, ⟨5, _⟩ => ⟨S3200x128, .f32⟩
  | .local _ .vmem, ⟨6, _⟩ => ⟨S128x128, .bf16⟩
  | .local _ .vmem, ⟨7, _⟩ => ⟨S128, .f32⟩
  | .local _ .vmem, ⟨8, _⟩ => ⟨S256x128, .bf16⟩
  | .local _ .vmem, ⟨9, _⟩ => ⟨S128, .f32⟩
  | .local _ .vmem, ⟨10, _⟩ => ⟨S3200x256, .f32⟩
  | .local _ .vmem, ⟨11, _⟩ => ⟨S3200x256, .f32⟩
  | .local _ .vmem, ⟨12, _⟩ => ⟨S3200x128, .f32⟩
  | .local _ .vmem, ⟨13, _⟩ => ⟨S3200x128, .f32⟩
  | .local _ .vmem, ⟨14, _⟩ => ⟨S5000x256, .f32⟩
  | .local _ .vmem, ⟨15, _⟩ => ⟨S5000x256, .f32⟩
  | .local _ .vmem, ⟨16, _⟩ => ⟨S5000x1, .f32⟩
  | .local _ .vmem, ⟨17, _⟩ => ⟨S5000x1, .f32⟩
  | .local _ .vmem, ⟨18, _⟩ => ⟨S256x128, .bf16⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S128, .f32⟩
  | .local _ .vmem, ⟨27, _⟩ => ⟨S5000x128, .f32⟩
  | .local _ .vmem, ⟨28, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4_0 : Ref sig .tc := ⟨.hbm, 39, rfl⟩
abbrev main_v4_1 : Ref sig .tc := ⟨.hbm, 40, rfl⟩
abbrev main_c : Ref sig .tc := ⟨.hbm, 41, rfl⟩
abbrev main_v5 : Ref sig .tc := ⟨.hbm, 42, rfl⟩
abbrev main_c_0 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_cst : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_cst_1 : Ref sig .tc := ⟨.hbm, 52, rfl⟩
abbrev main_v13 : Ref sig .tc := ⟨.hbm, 53, rfl⟩
abbrev main_v14 : Ref sig .tc := ⟨.hbm, 54, rfl⟩
abbrev main_cst_2 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v19 : Ref sig .tc := ⟨.hbm, 82, rfl⟩
abbrev main_cst_3 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem4_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem3_1 : DmaSem sig := 28

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3200x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bitsLt_bf16_f32 : FTy.bits .bf16 < FTy.bits .f32
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S3200x128 : S1x128.Broadcasts S3200x128
  inb_S256x128_S128x128_0_0 : ∀ a, (![0, 0] : Fin 2 → Nat) a + S128x128.size a ≤ S256x128.size a
  inb_S256x128_S128x128_128_0 : ∀ a, (![128, 0] : Fin 2 → Nat) a + S128x128.size a ≤ S256x128.size a
  inb_S3200x256_S3200x128_0_0 : ∀ a, (![0, 0] : Fin 2 → Nat) a + S3200x128.size a ≤ S3200x256.size a
  inb_S3200x256_S3200x128_0_128 : ∀ a, (![0, 128] : Fin 2 → Nat) a + S3200x128.size a ≤ S3200x256.size a
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S50000x256 : S_.BroadcastsInDim S50000x256 (![] : Fin 0 → Fin S50000x256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  broadcasts_S5000x1_S5000x128 : S5000x1.Broadcasts S5000x128
  gather_S50000x128_S800000x1_S800000x128_1_0_n_n_0_1_1128_wf : GatherDims.WF S50000x128 S800000x1 S800000x128 [1] [0] [] [0] [] 1 ![1, 128]
  dot_S3200x128_S128x128_S3200x128_1_0_0_1_n_n_wf : DotDims.WF S3200x128 S128x128 S3200x128 [1] [0] [0] [1] [] []
  scatter_S50000_S800000x1_S800000_n_0_0_1_wf : ScatterDims.WF S50000 S800000x1 S800000 [] [0] [0] 1
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .f32 = 32 ∨ (Rect.block (s := S800000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S800000x128.size a
  hwx0_2 : ∀ i : grid0.Coords, EltTy.bits .f32 = 32 ∨ (Rect.block (s := S800000x128) S3200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x256.size a ≤ S800000x256.size a
  hwx0_7 : ∀ i : grid0.Coords, EltTy.bits .f32 = 32 ∨ (Rect.block (s := S800000x256) S3200x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3200x128.size a ≤ S800000x128.size a
  hwx0_8 : ∀ i : grid0.Coords, EltTy.bits .f32 = 32 ∨ (Rect.block (s := S800000x128) S3200x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg2) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S3200x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S3200x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v17) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v22) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S50000x1 : Shape := ⟨2, ![50000, 1]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S_ : Shape := ⟨0, ![]⟩
abbrev S50000 : Shape := ⟨1, ![50000]⟩
abbrev S800000x1 : Shape := ⟨2, ![800000, 1]⟩
abbrev S50000x256 : Shape := ⟨2, ![50000, 256]⟩
abbrev S800000x256 : Shape := ⟨2, ![800000, 256]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000x128, .f32⟩
  | .hbm, ⟨3, _⟩ => ⟨S50000x1, .f32⟩
  | .hbm, ⟨4, _⟩ => ⟨S800000, .i32⟩
  | .hbm, ⟨5, _⟩ => ⟨S800000, .i32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128, .f32⟩
  | .hbm, ⟨13, _⟩ => ⟨S800000x128, .f32⟩
  | .hbm, ⟨14, _⟩ => ⟨S1x128, .f32⟩
  | .hbm, ⟨15, _⟩ => ⟨S800000x128, .f32⟩
  | .hbm, ⟨16, _⟩ => ⟨S800000x128, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S50000x256, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S800000x256, .f32⟩
  | .hbm, ⟨73, _⟩ => ⟨S800000x128, .f32⟩
  | .hbm, ⟨74, _⟩ => ⟨S1x128, .f32⟩
  | .hbm, ⟨75, _⟩ => ⟨S800000x128, .f32⟩
  | .hbm, ⟨76, _⟩ => ⟨S800000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  concatenates_S800000x128_S800000x128_S800000x256_d1 : Shape.Concatenates [S800000x128, S800000x128] S800000x256 1
  dot_S800000x128_S128x128_S800000x128_1_0_0_1_n_n_wf : DotDims.WF S800000x128 S128x128 S800000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S800000x256_S256x128_S800000x128_1_0_0_1_n_n_wf : DotDims.WF S800000x256 S256x128 S800000x128 [1] [0] [0] [1] [] []

variable [Facts₀]

def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf

class Facts : Prop extends Facts₀ where

variable [Facts]
-- ==== Proof.Spec.lean ====
/-
  The mathematics of the two programs, index by index on the extended reals, over the thirteen argument arrays:
  node features h [50000,128], edge features e_h and sentence features s_h [800000,128], a per-node scale norm [50000,1],
  the edges' source and destination node numbers src, dst [800000] (32-bit words), and three linear layers
  (W_text [128,128] with b_text; W_inv [256,128] with b_inv; W_rel [256,128] with b_rel) and a bias bias_v [128].

  An edge e LANDS at node n when its destination word, read signed, is n: a segment sum over destinations adds the
  rows of the edges that land at n (an edge whose destination is outside [0, 50000) lands nowhere). A row gather at an
  index word reads the row the word names, a negative word counted from the end, the result clamped into [0, 49999].
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A matrix of extended reals. -/
abbrev Mat (r c : Nat) : Type := (⟨2, ![r, c]⟩ : Shape).Idx → EReal
/-- A vector of extended reals. -/
abbrev Row (n : Nat) : Type := (⟨1, ![n]⟩ : Shape).Idx → EReal
/-- A vector of 32-bit index words. -/
abbrev IRow (n : Nat) : Type := (⟨1, ![n]⟩ : Shape).Idx → BitVec 32

/-- A matrix from its entries by coordinates. -/
def arr2 {r c : Nat} (f : Fin r → Fin c → EReal) : Mat r c := fun i => f (i 0) (i 1)

theorem arr2_apply {r c : Nat} (f : Fin r → Fin c → EReal) (a : Fin r) (b : Fin c) : arr2 f (ix2 a b) = f a b := rfl

/-- The float pattern of 1.0 denotes the real 1. -/
theorem ofBits_one : Ideal.ofBits .f32 0x3F800000#32 = 1 := by
  simp [Ideal.ofBits, Ideal.ieee, -EReal.coe_mul]; norm_num

/-- The text projection of edge `e` at feature `j`: row `e` of `s_h` times column `j` of `W_text`, plus the bias. -/
def sLin (s_h : Mat 800000 128) (Wt : Mat 128 128) (bt : Row 128) (e : Fin 800000) (j : Fin 128) : EReal :=
  (∑ k : Fin 128, s_h (ix2 e k) * Wt (ix2 k j)) + bt (ix1 j)

/-- The segment sum at node `n`: the sum of `f e` over the edges `e` whose destination word, read signed, is `n`. -/
def segSum (dst : IRow 800000) (f : Fin 800000 → EReal) (n : Fin 50000) : EReal :=
  ∑ e : Fin 800000, if (dst (ix1 e)).toInt = (n.val : Int) then f e else 0

/-- The in-degree of node `n` as an extended real. -/
def deg (dst : IRow 800000) (n : Fin 50000) : EReal := segSum dst (fun _ => 1) n

/-- The mean's divisor: the in-degree, at least one. -/
def denom (dst : IRow 800000) (n : Fin 50000) : EReal := max (deg dst n) 1

/-- The index word a row gather is given for `w`: a negative word counted from the end (plus 50000). -/
def wrapWord (w : BitVec 32) : BitVec 32 := if w.toInt < 0 then w + 50000#32 else w

/-- The row a gather reads at the index word `w`: the wrapped word read signed and clamped into [0, 49999]. -/
def wrapRow (w : BitVec 32) : Fin 50000 := ⟨min (wrapWord w).toInt.toNat 49999, by omega⟩

/-- Whether the wrapped word names a row, 0 ≤ · ≤ 49999 read signed (what a row take in fill mode tests). -/
def inRows (w : BitVec 32) : Prop := 0 ≤ (wrapWord w).toInt ∧ (wrapWord w).toInt ≤ 49999

instance (w : BitVec 32) : Decidable (inRows w) := inferInstanceAs (Decidable (_ ∧ _))

/-- A take of rows in fill mode: the row the word names, and the quiet-NaN pattern's value where it names none. -/
def takeFill (x : Mat 50000 128) (idx : IRow 800000) (e : Fin 800000) (j : Fin 128) : EReal :=
  if inRows (idx (ix1 e)) then x (ix2 (wrapRow (idx (ix1 e))) j) else Ideal.ofBits .f32 0x7FC00000#32

/-! ## The kernel's three passes, each as a function of the arrays it is given -/

/-- The edge pass's first output [800000,256]: the text projection in columns 0–127, the message
    `hd * e_h` in columns 128–255 (`hd` the gathered destination rows). -/
def fusedK (s_h e_h hd : Mat 800000 128) (Wt : Mat 128 128) (bt : Row 128) (e : Fin 800000) (q : Fin 256) : EReal :=
  if h : q.val < 128 then sLin s_h Wt bt e ⟨q.val, h⟩
  else hd (ix2 e ⟨q.val - 128, by omega⟩) * e_h (ix2 e ⟨q.val - 128, by omega⟩)

/-- The edge pass's second output [800000,128]: `e_h` against the top half of `W_rel` plus the text projection
    against its bottom half, plus the bias. -/
def eNewK (s_h e_h : Mat 800000 128) (Wt : Mat 128 128) (bt : Row 128) (Wr : Mat 256 128) (br : Row 128)
    (e : Fin 800000) (j : Fin 128) : EReal :=
  ((∑ k : Fin 128, e_h (ix2 e k) * Wr (ix2 (⟨k.val, by omega⟩ : Fin 256) j))
    + (∑ k : Fin 128, sLin s_h Wt bt e k * Wr (ix2 (⟨128 + k.val, by omega⟩ : Fin 256) j))) + br (ix1 j)

/-- The first node pass [50000,128]: the row of `fs` scaled by the node's factor `inv`, times `W_inv`, plus the bias. -/
def nodeAK (fs : Mat 50000 256) (inv : Mat 50000 1) (Wi : Mat 256 128) (bi : Row 128) (n : Fin 50000) (j : Fin 128) : EReal :=
  (∑ k : Fin 256, (fs (ix2 n k) * inv (ix2 n (0 : Fin 1))) * Wi (ix2 k j)) + bi (ix1 j)

/-- The second node pass [50000,128]: `hs * norm + bias_v`. -/
def nodeBK (hs : Mat 50000 128) (nm : Mat 50000 1) (bv : Row 128) (n : Fin 50000) (j : Fin 128) : EReal :=
  hs (ix2 n j) * nm (ix2 n (0 : Fin 1)) + bv (ix1 j)

/-- The kernel's first result [50000,128], its passes and the host steps between them composed: destination rows
    taken in fill mode, the edge pass, one segment sum of the 256 fused columns, the factor `1 / denom`, the first node
    pass, source rows taken in fill mode, a segment sum, the second node pass. -/
def hNewK (h : Mat 50000 128) (e_h s_h : Mat 800000 128) (nm : Mat 50000 1) (src dst : IRow 800000)
    (Wt : Mat 128 128) (bt : Row 128) (Wi : Mat 256 128) (bi : Row 128) (bv : Row 128) (n : Fin 50000) (j : Fin 128) : EReal :=
  nodeBK
    (arr2 fun n' j' => segSum dst (fun e =>
      takeFill
        (arr2 (nodeAK
          (arr2 fun n'' q => segSum dst (fun e' => fusedK s_h e_h (arr2 (takeFill h dst)) Wt bt e' q) n'')
          (arr2 fun n'' (_ : Fin 1) => Ideal.div 1 (denom dst n''))
          Wi bi))
        src e j') n')
    nm bv n j

/-! ## The reference, stage by stage -/

/-- The mean over incoming edges of the messages `h[dst] * e_h`. -/
def hOR (h : Mat 50000 128) (e_h : Mat 800000 128) (dst : IRow 800000) (n : Fin 50000) (j : Fin 128) : EReal :=
  Ideal.div (segSum dst (fun e => h (ix2 (wrapRow (dst (ix1 e))) j) * e_h (ix2 e j)) n) (denom dst n)

/-- The mean over incoming edges of the text projections. -/
def hOS (s_h : Mat 800000 128) (Wt : Mat 128 128) (bt : Row 128) (dst : IRow 800000) (n : Fin 50000) (j : Fin 128) : EReal :=
  Ideal.div (segSum dst (fun e => sLin s_h Wt bt e j) n) (denom dst n)

/-- The node update before propagation: the two means side by side, times `W_inv`, plus the bias. -/
def hsroR (h : Mat 50000 128) (e_h s_h : Mat 800000 128) (dst : IRow 800000) (Wt : Mat 128 128) (bt : Row 128)
    (Wi : Mat 256 128) (bi : Row 128) (n : Fin 50000) (j : Fin 128) : EReal :=
  (∑ k : Fin 256, (if hk : k.val < 128 then hOS s_h Wt bt dst n ⟨k.val, hk⟩
      else hOR h e_h dst n ⟨k.val - 128, by omega⟩) * Wi (ix2 k j)) + bi (ix1 j)

/-- The reference's first result [50000,128]: the node updates of the source nodes summed over incoming edges,
    scaled by `norm`, plus `bias_v`. -/
def hNewR (h : Mat 50000 128) (e_h s_h : Mat 800000 128) (nm : Mat 50000 1) (src dst : IRow 800000)
    (Wt : Mat 128 128) (bt : Row 128) (Wi : Mat 256 128) (bi : Row 128) (bv : Row 128) (n : Fin 50000) (j : Fin 128) : EReal :=
  segSum dst (fun e => hsroR h e_h s_h dst Wt bt Wi bi (wrapRow (src (ix1 e))) j) n * nm (ix2 n (0 : Fin 1)) + bv (ix1 j)

/-- The reference's second result [800000,128]: `e_h` and the text projection side by side, times `W_rel`, plus the bias. -/
def eNewR (e_h s_h : Mat 800000 128) (Wt : Mat 128 128) (bt : Row 128) (Wr : Mat 256 128) (br : Row 128)
    (e : Fin 800000) (j : Fin 128) : EReal :=
  (∑ k : Fin 256, (if hk : k.val < 128 then e_h (ix2 e ⟨k.val, hk⟩)
      else sLin s_h Wt bt e ⟨k.val - 128, by omega⟩) * Wr (ix2 k j)) + br (ix1 j)

end Cert.Spec

end
-- ==== Proof.EdgeFused.lean ====
import proofs.«413949_j60988535603571_3_alg».proof.Proof.Gen.KernelIdeal.Frame
import proofs.«413949_j60988535603571_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.EdgeFused

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The message payload at a row and a feature: the gathered destination entry times the edge entry. -/
theorem message_apply (x1 x2 : Vec Ideal S3200x128 .f32) (p : Fin 3200) (q : Fin 128) :
    k0_pay2 (F := Ideal) x1 x2 (ix2 p q) = x2 (ix2 p q) * x1 (ix2 p q) := by
  unfold k0_pay2
  rw [mulf_apply, shapeCast_self]

theorem lhs_text_0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl
theorem lhs_text_1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q
theorem rhs_text_0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q
theorem rhs_text_1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

/-- The block product into the zero accumulator at a row and a feature: the row of the left block against the column of the right. -/
theorem product_apply (a : FVec Ideal S3200x128 .bf16) (b : FVec Ideal S128x128 .bf16) (p : Fin 3200) (q : Fin 128) :
    matmul dot_S3200x128_S128x128_S3200x128_1_0_0_1_n_n none a b (constant (F := Ideal) S3200x128 .f32 0x00000000#32) (ix2 p q)
      = ∑ k : Fin 128, a (ix2 p k) * b (ix2 k q) := by
  simp only [matmul]
  rw [Ideal.matmul_constant_zero_apply, ← Equiv.sum_comp (ValueIdx.contrEquiv1 dot_S3200x128_S128x128_S3200x128_1_0_0_1_n_n 128 rfl rfl).symm]
  refine Finset.sum_congr rfl fun k _ => ?_
  have hk := ValueIdx.contrEquiv1_symm_val dot_S3200x128_S128x128_S3200x128_1_0_0_1_n_n 128 rfl rfl k
  have el : dot_S3200x128_S128x128_S3200x128_1_0_0_1_n_n.lhsIdx (ix2 p q) ((ValueIdx.contrEquiv1 dot_S3200x128_S128x128_S3200x128_1_0_0_1_n_n 128 rfl rfl).symm k) = ix2 p k := funext fun a => Fin.ext (by
    match a with
    | ⟨0, _⟩ => exact lhs_text_0 _ _
    | ⟨1, _⟩ => exact (lhs_text_1 _ _).trans hk)
  have er : dot_S3200x128_S128x128_S3200x128_1_0_0_1_n_n.rhsIdx (ix2 p q) ((ValueIdx.contrEquiv1 dot_S3200x128_S128x128_S3200x128_1_0_0_1_n_n 128 rfl rfl).symm k) = ix2 k q := funext fun a => Fin.ext (by
    match a with
    | ⟨0, _⟩ => exact (rhs_text_0 _ _).trans hk
    | ⟨1, _⟩ => exact rhs_text_1 _ _)
  rw [el, er]

/-- The bias row broadcast down the rows reads the bias at the feature. -/
theorem bias_apply (x4 : Vec Ideal S128 .f32) (p : Fin 3200) (q : Fin 128) :
    broadcastTo S3200x128 (shapeCast S1x128 x4 shapeCasts_S128_S1x128) broadcasts_S1x128_S3200x128 (ix2 p q) = x4 (ix1 q) := by
  refine (broadcastTo_apply _ broadcasts_S1x128_S3200x128 (ix2 p q) (ix2 (0 : Fin 1) q) (fun a => ?_)).trans ?_
  · match a with
    | ⟨0, _⟩ => show 0 = if (1 : Nat) = 1 then 0 else _; rw [if_pos rfl]
    | ⟨1, _⟩ => show q.val = if (128 : Nat) = 1 then 0 else q.val; rw [if_neg (by decide)]
  · refine shapeCast_apply x4 shapeCasts_S128_S1x128 (ix2 (0 : Fin 1) q) (ix1 q) ?_
    rw [Shape.rowMajor_val_one, Shape.rowMajor_val_two]
    show q.val = 0 * 128 + q.val
    omega

/-- The text payload at a row and a feature: the row of the sentence block against the column of the weight, plus the bias. -/
theorem text_apply (x0 : Vec Ideal S3200x128 .f32) (x3 : Vec Ideal S128x128 .bf16) (x4 : Vec Ideal S128 .f32) (p : Fin 3200) (q : Fin 128) :
    k0_pay1 (F := Ideal) x0 x3 x4 (ix2 p q) = (∑ k : Fin 128, x0 (ix2 p k) * x3 (ix2 k q)) + x4 (ix1 q) := by
  unfold k0_pay1
  rw [addf_apply, product_apply, bias_apply, shapeCast_self]
  rfl

/-! ## The staging buffer after the body, at a row and a column -/

theorem zeros2 : (![0, 0] : Fin 2 → Nat) = fun _ => 0 := funext fun a => by fin_cases a <;> rfl
theorem zeros1 : (![0] : Fin 1 → Nat) = fun _ => 0 := funext fun a => by fin_cases a <;> rfl

/-- The two stores side by side: columns below 128 hold the text payload, the columns from 128 on the message payload. -/
theorem out_apply (x0 x1 x2 : Vec Ideal S3200x128 .f32) (x3 : Vec Ideal S128x128 .bf16) (x4 : Vec Ideal S128 .f32)
    (x5 : Vec Ideal S256x128 .bf16) (x6 : Vec Ideal S128 .f32) (p : Fin 3200) (q : Fin 256) :
    out0_7 (F := Ideal) x0 x1 x2 x3 x4 x5 x6 (ix2 p q)
      = if h : q.val < 128 then (∑ k : Fin 128, x0 (ix2 p k) * x3 (ix2 k ⟨q.val, h⟩)) + x4 (ix1 ⟨q.val, h⟩)
        else x2 (ix2 p ⟨q.val - 128, by omega⟩) * x1 (ix2 p ⟨q.val - 128, by omega⟩) := by
  unfold out0_7
  simp only [View.ld_unit_zero (S := S3200x128) zeros2, View.ld_unit_zero (S := S128x128) zeros2, View.ld_unit_zero (S := S128) zeros1]
  by_cases h : q.val < 128
  · rw [dif_pos h]
    have hout : (ix2 p q : S3200x256.Idx) ∉ (r0_6).set := fun hm => by
      have h1 := (Rect.mem_set_unit.mp hm) 1
      have h1' : 128 ≤ q.val := h1.1
      omega
    have he : (ix2 p q : S3200x256.Idx) = (r0_5).emb (ix2 p (⟨q.val, h⟩ : Fin 128)) := funext fun a => Fin.ext (by
      match a with
      | ⟨0, _⟩ => show p.val = 0 + 1 * p.val; omega
      | ⟨1, _⟩ => show q.val = 0 + 1 * q.val; omega)
    rw [View.canon_cons_of_not_mem (⟨r0_6, k0_pay2 x1 x2⟩ : View.Piece (Elt Ideal) S3200x256 .f32) _ hout, he, View.canon_cons_emb, text_apply]
  · rw [dif_neg h]
    have he : (ix2 p q : S3200x256.Idx) = (r0_6).emb (ix2 p (⟨q.val - 128, by omega⟩ : Fin 128)) := funext fun a => Fin.ext (by
      match a with
      | ⟨0, _⟩ => show p.val = 0 + 1 * p.val; omega
      | ⟨1, _⟩ => show q.val = 128 + 1 * (q.val - 128); omega)
    rw [he, View.canon_cons_emb, message_apply]

/-- A block of the edge pass's first output, from blocks that are the rows of the arrays from row `b * 3200` on, is those rows of the fused array. -/
theorem block_value (A2 A1 A0 : S800000x128.Idx → EReal) (Wt : S128x128.Idx → EReal) (bt : S128.Idx → EReal)
    (x0 x1 x2 : Vec Ideal S3200x128 .f32) (x3 : Vec Ideal S128x128 .bf16) (x4 : Vec Ideal S128 .f32)
    (x5 : Vec Ideal S256x128 .bf16) (x6 : Vec Ideal S128 .f32) (b : Nat)
    (h0 : ∀ (p : Fin 3200) (k : Fin 128) (e : Fin 800000), e.val = b * 3200 + p.val → x0 (ix2 p k) = A2 (ix2 e k))
    (h1 : ∀ (p : Fin 3200) (k : Fin 128) (e : Fin 800000), e.val = b * 3200 + p.val → x1 (ix2 p k) = A1 (ix2 e k))
    (h2 : ∀ (p : Fin 3200) (k : Fin 128) (e : Fin 800000), e.val = b * 3200 + p.val → x2 (ix2 p k) = A0 (ix2 e k))
    (h3 : ∀ k q : Fin 128, x3 (ix2 k q) = Wt (ix2 k q)) (h4 : ∀ q : Fin 128, x4 (ix1 q) = bt (ix1 q))
    (p : Fin 3200) (q : Fin 256) (e : Fin 800000) (he : e.val = b * 3200 + p.val) :
    out0_7 (F := Ideal) x0 x1 x2 x3 x4 x5 x6 (ix2 p q) = Cert.Spec.arr2 (Cert.Spec.fusedK A2 A1 A0 Wt bt) (ix2 e q) := by
  rw [out_apply, Cert.Spec.arr2_apply]
  unfold Cert.Spec.fusedK Cert.Spec.sLin
  by_cases h : q.val < 128
  · rw [dif_pos h, dif_pos h, h4]
    refine congrArg (· + bt (ix1 (⟨q.val, h⟩ : Fin 128))) (Finset.sum_congr rfl fun k _ => ?_)
    rw [h0 p k e he, h3]
  · rw [dif_neg h, dif_neg h, h2 _ _ e he, h1 _ _ e he]

/-! ## The blocks the body reads and writes, on the grid -/

/-- The index maps, decided over the grid: the three edge arrays and the output move one block of rows per point, the weight and the bias stay. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_7.index t (0 : Fin 2) = t.val ∧ win0_7.index t (1 : Fin 2) = 0 :=
  (by decide +kernel : ∀ t : Fin grid0.N, _)

variable (V : (c : Dev nD) → (b : Ref sig .tc) → Buf (Elt Ideal) ((c : Thread nD τ).loc b))

/-- The sentence block at point `t` is rows `3200 t …` of the sentence array. -/
theorem sent_block (c : Dev nD) (t : Fin cfg0.N) (p : Fin 3200) (k : Fin 128) (e : Fin 800000) (he : e.val = t.val * 3200 + p.val) :
    (iblk0 V c 0 t : Vec Ideal S3200x128 .f32) (ix2 p k) = (V c main_arg2 : S800000x128.Idx → EReal) (ix2 e k) := by
  obtain ⟨i0, i1, -⟩ := index_facts t
  show V c main_arg2 (((cfg0.win 0).blk t).view.emb (ix2 p k)) = V c main_arg2 (ix2 e k)
  refine congrArg (V c main_arg2) (funext fun a => Fin.ext ?_)
  match a with
  | ⟨0, _⟩ => show win0_0.index t (0 : Fin 2) * 3200 + 1 * p.val = e.val; omega
  | ⟨1, _⟩ => show win0_0.index t (1 : Fin 2) * 128 + 1 * k.val = k.val; omega

/-- The edge block at point `t` is rows `3200 t …` of the edge array. -/
theorem edge_block (c : Dev nD) (t : Fin cfg0.N) (p : Fin 3200) (k : Fin 128) (e : Fin 800000) (he : e.val = t.val * 3200 + p.val) :
    (iblk0 V c 1 t : Vec Ideal S3200x128 .f32) (ix2 p k) = (V c main_arg1 : S800000x128.Idx → EReal) (ix2 e k) := by
  obtain ⟨-, -, i0, i1, -⟩ := index_facts t
  show V c main_arg1 (((cfg0.win 1).blk t).view.emb (ix2 p k)) = V c main_arg1 (ix2 e k)
  refine congrArg (V c main_arg1) (funext fun a => Fin.ext ?_)
  match a with
  | ⟨0, _⟩ => show win0_1.index t (0 : Fin 2) * 3200 + 1 * p.val = e.val; omega
  | ⟨1, _⟩ => show win0_1.index t (1 : Fin 2) * 128 + 1 * k.val = k.val; omega

/-- The block of gathered destination rows at point `t` is rows `3200 t …` of their array. -/
theorem dest_block (c : Dev nD) (t : Fin cfg0.N) (p : Fin 3200) (k : Fin 128) (e : Fin 800000) (he : e.val = t.val * 3200 + p.val) :
    (iblk0 V c 2 t : Vec Ideal S3200x128 .f32) (ix2 p k) = (V c main_v0 : S800000x128.Idx → EReal) (ix2 e k) := by
  obtain ⟨-, -, -, -, i0, i1, -⟩ := index_facts t
  show V c main_v0 (((cfg0.win 2).blk t).view.emb (ix2 p k)) = V c main_v0 (ix2 e k)
  refine congrArg (V c main_v0) (funext fun a => Fin.ext ?_)
  match a with
  | ⟨0, _⟩ => show win0_2.index t (0 : Fin 2) * 3200 + 1 * p.val = e.val; omega
  | ⟨1, _⟩ => show win0_2.index t (1 : Fin 2) * 128 + 1 * k.val = k.val; omega

/-- The weight block is the whole weight at every point. -/
theorem weight_block (c : Dev nD) (t : Fin cfg0.N) (k q : Fin 128) :
    (iblk0 V c 3 t : Vec Ideal S128x128 .bf16) (ix2 k q) = (V c main_v1 : S128x128.Idx → EReal) (ix2 k q) := by
  obtain ⟨-, -, -, -, -, -, i0, i1, -⟩ := index_facts t
  show V c main_v1 (((cfg0.win 3).blk t).view.emb (ix2 k q)) = V c main_v1 (ix2 k q)
  refine congrArg (V c main_v1) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias block is the whole bias at every point. -/
theorem bias_block (c : Dev nD) (t : Fin cfg0.N) (q : Fin 128) :
    (iblk0 V c 4 t : Vec Ideal S128 .f32) (ix1 q) = (V c main_arg7 : S128.Idx → EReal) (ix1 q) := by
  obtain ⟨-, -, -, -, -, -, -, -, i0, -⟩ := index_facts t
  show V c main_arg7 (((cfg0.win 4).blk t).view.emb (ix1 q)) = V c main_arg7 (ix1 q)
  refine congrArg (V c main_arg7) (funext fun a => Fin.ext ?_)
  match a with
  | ⟨0, _⟩ => show win0_4.index t (0 : Fin 1) * 128 + 1 * q.val = q.val; omega

/-- What point `t` writes back is block `t` of the fused array of the arrays the pass was entered with. -/
theorem flushed_eq (c : Dev nD) (t : Fin cfg0.N) :
    (dat0 V c).flushed 7 t = ((cfg0.win 7).blk t).view.read (Elt Ideal)
      (Cert.Spec.arr2 (Cert.Spec.fusedK (V c main_arg2) (V c main_arg1) (V c main_v0) (V c main_v1) (V c main_arg7))) := by
  show (cfg0.win 7).cut (grid0.coords t) ((dat0 V c).after 7 t) = _
  rw [after0_7]
  funext j
  have ht : t.val < 250 := t.isLt
  obtain ⟨p, hp⟩ : ∃ p : Fin 3200, p.val = (j 0).val := ⟨⟨(j 0).val, (j 0).isLt⟩, rfl⟩
  obtain ⟨q, hq⟩ : ∃ q : Fin 256, q.val = (j 1).val := ⟨⟨(j 1).val, (j 1).isLt⟩, rfl⟩
  obtain ⟨e, he⟩ : ∃ e : Fin 800000, e.val = t.val * 3200 + p.val := ⟨⟨t.val * 3200 + p.val, by have := p.isLt; omega⟩, rfl⟩
  obtain ⟨-, -, -, -, -, -, -, -, -, i0, i1⟩ := index_facts t
  have hj : ((cfg0.win 7).xinj (grid0.coords t) j : S3200x256.Idx) = ix2 p q := funext fun a => Fin.ext (by
    match a with
    | ⟨0, _⟩ => exact hp.symm
    | ⟨1, _⟩ => exact hq.symm)
  have hemb : (((cfg0.win 7).blk t).view.emb j : S800000x256.Idx) = ix2 e q := funext fun a => Fin.ext (by
    match a with
    | ⟨0, _⟩ => show win0_7.index t (0 : Fin 2) * 3200 + 1 * (j 0).val = e.val; omega
    | ⟨1, _⟩ => show win0_7.index t (1 : Fin 2) * 256 + 1 * (j 1).val = q.val; omega)
  show out0_7 (iblk0 V c 0 t) (iblk0 V c 1 t) (iblk0 V c 2 t) (iblk0 V c 3 t) (iblk0 V c 4 t) (iblk0 V c 5 t) (iblk0 V c 6 t) ((cfg0.win 7).xinj (grid0.coords t) j)
    = Cert.Spec.arr2 (Cert.Spec.fusedK (V c main_arg2) (V c main_arg1) (V c main_v0) (V c main_v1) (V c main_arg7)) (((cfg0.win 7).blk t).view.emb j)
  rw [hj, hemb]
  exact block_value (V c main_arg2) (V c main_arg1) (V c main_v0) (V c main_v1) (V c main_arg7) _ _ _ _ _ _ _ t.val
    (fun p k e he => sent_block V c t p k e he) (fun p k e he => edge_block V c t p k e he) (fun p k e he => dest_block V c t p k e he)
    (fun k q => weight_block V c t k q) (fun q => bias_block V c t q) p q e he

/-- An index of the output array is in point `t`'s block iff each coordinate is in the block's range on its axis. -/
theorem mem_blk (t : Fin cfg0.N) (i : S800000x256.Idx) :
    i ∈ ((cfg0.win 7).blk t).view.set ↔ ∀ a : Fin 2, win0_7.index t a * S3200x256.size a ≤ (i a).val ∧ (i a).val < win0_7.index t a * S3200x256.size a + S3200x256.size a := by
  show i ∈ ((View.whole main_v4_0).slice (win0_7.rect t)).set ↔ _
  rw [View.set_slice_whole, Rect.mem_set_unit]
  exact Iff.rfl

/-- Every row of the output lies in the block of the point numbered by the row's quotient by 3200. -/
theorem covered (i : S800000x256.Idx) :
    ∃ t : Fin cfg0.N, (cfg0.win 7).flush t = true ∧ i ∈ ((cfg0.win 7).blk t).view.set := by
  have hi0 : (i 0).val < 800000 := (i 0).isLt
  have hi1 : (i 1).val < 256 := (i 1).isLt
  obtain ⟨t, ht⟩ : ∃ t : Fin cfg0.N, t.val = (i 0).val / 3200 := ⟨⟨(i 0).val / 3200, by show (i 0).val / 3200 < 250; omega⟩, rfl⟩
  obtain ⟨-, -, -, -, -, -, -, -, -, i0, i1⟩ := index_facts t
  refine ⟨t, flush0_7 t, ?_⟩
  rw [mem_blk]
  intro a
  match a with
  | ⟨0, _⟩ => show win0_7.index t (0 : Fin 2) * 3200 ≤ (i 0).val ∧ (i 0).val < win0_7.index t (0 : Fin 2) * 3200 + 3200; omega
  | ⟨1, _⟩ => show win0_7.index t (1 : Fin 2) * 256 ≤ (i 1).val ∧ (i 1).val < win0_7.index t (1 : Fin 2) * 256 + 256; omega

/-- After the edge pass its first output array holds the text projection beside the message, of the arrays the pass was entered with. -/
theorem final (c : Dev nD) :
    (dat0 V c).arrAt 7 cfg0.N
      = Cert.Spec.arr2 (Cert.Spec.fusedK (V c main_arg2) (V c main_arg1) (V c main_v0) (V c main_v1) (V c main_arg7)) :=
  (dat0 V c).arrAt_eq_of_cover 7 _ (fun t _ => flushed_eq V c t) covered

end Cert.KernelIdeal.EdgeFused

end
-- ==== Proof.EdgeNew.lean ====
import proofs.«413949_j60988535603571_3_alg».proof.Proof.Gen.KernelIdeal.Frame
import proofs.«413949_j60988535603571_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.EdgeNew

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product at an index

The edge pass contracts a [3200,128] block with a [128,128] matrix over the block's second axis and the matrix's first. -/

/-- The left operand of the block product is read at the output's row … -/
theorem lhs_blockDot_0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl
/-- … and at the contracted coordinate; -/
theorem lhs_blockDot_1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q
/-- the right operand at the contracted coordinate … -/
theorem rhs_blockDot_0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q
/-- … and at the output's column. -/
theorem rhs_blockDot_1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

/-- The block product into a zero accumulator, at row `r` and column `j`: the sum over `k` of the block at
    `(r, k)` times the matrix at `(k, j)`. -/
theorem blockDot_apply (A : FVec Ideal S3200x128 .bf16) (B : FVec Ideal S128x128 .bf16) (r : Fin 3200) (j : Fin 128) :
    matmul dot_S3200x128_S128x128_S3200x128_1_0_0_1_n_n none A B (constant (F := Ideal) S3200x128 .f32 0x00000000#32) (ix2 r j)
      = ∑ k : Fin 128, A (ix2 r k) * B (ix2 k j) := by
  refine (Ideal.matmul_constant_zero_apply dot_S3200x128_S128x128_S3200x128_1_0_0_1_n_n none A B (ix2 r j)).trans ?_
  rw [← Equiv.sum_comp (ValueIdx.contrEquiv1 dot_S3200x128_S128x128_S3200x128_1_0_0_1_n_n 128 rfl rfl).symm]
  refine Finset.sum_congr rfl fun k _ => ?_
  have hk := ValueIdx.contrEquiv1_symm_val dot_S3200x128_S128x128_S3200x128_1_0_0_1_n_n 128 rfl rfl k
  have el : dot_S3200x128_S128x128_S3200x128_1_0_0_1_n_n.lhsIdx (ix2 r j) ((ValueIdx.contrEquiv1 dot_S3200x128_S128x128_S3200x128_1_0_0_1_n_n 128 rfl rfl).symm k) = ix2 r k := funext fun a => Fin.ext (by
    match a with
    | ⟨0, _⟩ => exact lhs_blockDot_0 _ _
    | ⟨1, _⟩ => exact (lhs_blockDot_1 _ _).trans hk)
  have er : dot_S3200x128_S128x128_S3200x128_1_0_0_1_n_n.rhsIdx (ix2 r j) ((ValueIdx.contrEquiv1 dot_S3200x128_S128x128_S3200x128_1_0_0_1_n_n 128 rfl rfl).symm k) = ix2 k j := funext fun a => Fin.ext (by
    match a with
    | ⟨0, _⟩ => exact (rhs_blockDot_0 _ _).trans hk
    | ⟨1, _⟩ => exact rhs_blockDot_1 _ _)
  rw [el, er]

/-! ## The body's values at an index -/

/-- The text projection of a block: row `r` of the sentence block times column `j` of the text matrix, plus the bias. -/
theorem textProj_apply (x0 : Vec Ideal S3200x128 .f32) (w : Vec Ideal S128x128 .bf16) (b : Vec Ideal S128 .f32)
    (r : Fin 3200) (j : Fin 128) :
    k0_pay1 x0 w b (ix2 r j) = (∑ k : Fin 128, x0 (ix2 r k) * w (ix2 k j)) + b (ix1 j) := by
  unfold k0_pay1
  show matmul dot_S3200x128_S128x128_S3200x128_1_0_0_1_n_n none (truncf .bf16 x0 bitsLt_bf16_f32)
        (shapeCast S128x128 w shapeCasts_S128x128_S128x128) (constant (F := Ideal) S3200x128 .f32 0x00000000#32) (ix2 r j)
      + broadcastTo S3200x128 (shapeCast S1x128 b shapeCasts_S128_S1x128) broadcasts_S1x128_S3200x128 (ix2 r j) = _
  rw [blockDot_apply, shapeCast_self, broadcastTo_1b_ab_apply, shapeCast_a_1a_apply]
  rfl

/-- The new edge features of a block: the edge block against the first matrix, plus the text projection against the
    second, plus the bias. -/
theorem newEdge_apply (x0 x1 : Vec Ideal S3200x128 .f32) (w : Vec Ideal S128x128 .bf16) (b : Vec Ideal S128 .f32)
    (wa wb : Vec Ideal S128x128 .bf16) (b' : Vec Ideal S128 .f32) (r : Fin 3200) (j : Fin 128) :
    k0_pay3 x0 x1 w b wa wb b' (ix2 r j)
      = ((∑ k : Fin 128, x1 (ix2 r k) * wa (ix2 k j))
          + (∑ k : Fin 128, ((∑ l : Fin 128, x0 (ix2 r l) * w (ix2 l k)) + b (ix1 k)) * wb (ix2 k j))) + b' (ix1 j) := by
  unfold k0_pay3
  show (matmul dot_S3200x128_S128x128_S3200x128_1_0_0_1_n_n none (truncf .bf16 x1 bitsLt_bf16_f32)
          (shapeCast S128x128 wa shapeCasts_S128x128_S128x128) (constant (F := Ideal) S3200x128 .f32 0x00000000#32) (ix2 r j)
        + matmul dot_S3200x128_S128x128_S3200x128_1_0_0_1_n_n none (truncf .bf16 (k0_pay1 x0 w b) bitsLt_bf16_f32)
          (shapeCast S128x128 wb shapeCasts_S128x128_S128x128) (constant (F := Ideal) S3200x128 .f32 0x00000000#32) (ix2 r j))
      + broadcastTo S3200x128 (shapeCast S1x128 b' shapeCasts_S128_S1x128) broadcasts_S1x128_S3200x128 (ix2 r j) = _
  rw [blockDot_apply, blockDot_apply, shapeCast_self, shapeCast_self, broadcastTo_1b_ab_apply, shapeCast_a_1a_apply]
  refine congrArg (· + b' (ix1 j)) (congrArg ((∑ k : Fin 128, x1 (ix2 r k) * wa (ix2 k j)) + ·) ?_)
  exact Finset.sum_congr rfl fun k _ => congrArg (· * wb (ix2 k j)) (textProj_apply x0 w b r k)

/-! ## The two halves of the second matrix, as the body loads them -/

/-- The load of the leading 128 rows reads row `k`; -/
theorem ld_top (x5 : Vec Ideal S256x128 .bf16) (k j : Fin 128) :
    View.ld x5 r0_3 (ix2 k j) = x5 (ix2 (⟨k.val, by omega⟩ : Fin 256) j) := by
  show x5 (r0_3.idx (ix2 k j)) = _
  refine congrArg x5 (funext fun a => Fin.ext ?_)
  match a with
  | ⟨0, _⟩ => show 0 + 1 * k.val = k.val; omega
  | ⟨1, _⟩ => show 0 + 1 * j.val = j.val; omega

/-- the load at row offset 128 reads row `128 + k`. -/
theorem ld_bot (x5 : Vec Ideal S256x128 .bf16) (k j : Fin 128) :
    View.ld x5 r0_4 (ix2 k j) = x5 (ix2 (⟨128 + k.val, by omega⟩ : Fin 256) j) := by
  show x5 (r0_4.idx (ix2 k j)) = _
  refine congrArg x5 (funext fun a => Fin.ext ?_)
  match a with
  | ⟨0, _⟩ => show 128 + 1 * k.val = 128 + k.val; omega
  | ⟨1, _⟩ => show 0 + 1 * j.val = j.val; omega

/-! ## One block of the result

A block whose rows are rows `3200 n …` of the edge and sentence arrays, with the parameter arrays beside it, the
second matrix as its two halves. -/

/-- The body's stored value at row `r` of block `n` is the new edge feature of edge `3200 n + r`. -/
theorem block_newEdge (s_h e_h : Cert.Spec.Mat 800000 128) (Wt : Cert.Spec.Mat 128 128) (bt : Cert.Spec.Row 128)
    (Wr : Cert.Spec.Mat 256 128) (br : Cert.Spec.Row 128)
    (x0 x1 : Vec Ideal S3200x128 .f32) (x3 : Vec Ideal S128x128 .bf16) (x4 : Vec Ideal S128 .f32)
    (wa wb : Vec Ideal S128x128 .bf16) (x6 : Vec Ideal S128 .f32) (n : Nat) (hn : n < 250)
    (h0 : ∀ (r : Fin 3200) (k : Fin 128), x0 (ix2 r k) = s_h (ix2 (⟨n * 3200 + r.val, by omega⟩ : Fin 800000) k))
    (h1 : ∀ (r : Fin 3200) (k : Fin 128), x1 (ix2 r k) = e_h (ix2 (⟨n * 3200 + r.val, by omega⟩ : Fin 800000) k))
    (h3 : ∀ (k j : Fin 128), x3 (ix2 k j) = Wt (ix2 k j))
    (h4 : ∀ j : Fin 128, x4 (ix1 j) = bt (ix1 j))
    (ha : ∀ (k j : Fin 128), wa (ix2 k j) = Wr (ix2 (⟨k.val, by omega⟩ : Fin 256) j))
    (hb : ∀ (k j : Fin 128), wb (ix2 k j) = Wr (ix2 (⟨128 + k.val, by omega⟩ : Fin 256) j))
    (h6 : ∀ j : Fin 128, x6 (ix1 j) = br (ix1 j))
    (r : Fin 3200) (j : Fin 128) :
    k0_pay3 x0 x1 x3 x4 wa wb x6 (ix2 r j)
      = Cert.Spec.eNewK s_h e_h Wt bt Wr br (⟨n * 3200 + r.val, by omega⟩ : Fin 800000) j := by
  rw [newEdge_apply]
  unfold Cert.Spec.eNewK Cert.Spec.sLin
  simp only [h0, h1, h3, h4, h6, ha, hb]

/-! ## From blocks to the array -/

theorem zeros2 : (![0, 0] : Fin 2 → Nat) = fun _ => 0 := funext fun a => by fin_cases a <;> rfl
theorem zeros1 : (![0] : Fin 1 → Nat) = fun _ => 0 := funext fun a => by fin_cases a <;> rfl

/-- A matrix given by coordinates, read at an index whose coordinates are known. -/
theorem arr2_eq {R C : Nat} (f : Fin R → Fin C → EReal) (i : (⟨2, ![R, C]⟩ : Shape).Idx) (e : Fin R) (j : Fin C)
    (h0 : (i 0).val = e.val) (h1 : (i 1).val = j.val) : Cert.Spec.arr2 f i = f e j := by
  have hi : i = ix2 e j := funext fun a => Fin.ext (by
    match a with
    | ⟨0, _⟩ => exact h0
    | ⟨1, _⟩ => exact h1)
  rw [hi]; rfl

/-- The block indices over the grid: at point `t` the edge, sentence and output windows are at row block `t`, the
    parameter windows at block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_8.index t (0 : Fin 2) = t.val ∧ win0_8.index t (1 : Fin 2) = 0 :=
  (by decide +kernel : ∀ t : Fin grid0.N, _)

theorem point_lt (t : Fin cfg0.N) : t.val < 250 := by
  have h := t.isLt
  have hN : cfg0.N = 250 := N_0
  omega

/-- The sentence window's block at point `t` is rows `3200 t …` of the sentence array. -/
theorem sentence_block (c : Dev nD) (t : Fin cfg0.N) (ht : t.val < 250) (r : Fin 3200) (k : Fin 128) :
    (iblk0 V c 0 t : Vec Ideal S3200x128 .f32) (ix2 r k)
      = (V c main_arg2 : Cert.Spec.Mat 800000 128) (ix2 (⟨t.val * 3200 + r.val, by omega⟩ : Fin 800000) k) := by
  obtain ⟨e0, e1, -⟩ := block_indices t
  unfold iblk0
  rw [View.read_apply]
  show V c main_arg2 _ = V c main_arg2 _
  refine congrArg (V c main_arg2) (funext fun a => Fin.ext ?_)
  match a with
  | ⟨0, _⟩ => show win0_0.index t (0 : Fin 2) * 3200 + 1 * r.val = t.val * 3200 + r.val; rw [e0]; omega
  | ⟨1, _⟩ => show win0_0.index t (1 : Fin 2) * 128 + 1 * k.val = k.val; rw [e1]; omega

/-- The edge window's block at point `t` is rows `3200 t …` of the edge array. -/
theorem edge_block (c : Dev nD) (t : Fin cfg0.N) (ht : t.val < 250) (r : Fin 3200) (k : Fin 128) :
    (iblk0 V c 1 t : Vec Ideal S3200x128 .f32) (ix2 r k)
      = (V c main_arg1 : Cert.Spec.Mat 800000 128) (ix2 (⟨t.val * 3200 + r.val, by omega⟩ : Fin 800000) k) := by
  obtain ⟨-, -, e0, e1, -⟩ := block_indices t
  unfold iblk0
  rw [View.read_apply]
  show V c main_arg1 _ = V c main_arg1 _
  refine congrArg (V c main_arg1) (funext fun a => Fin.ext ?_)
  match a with
  | ⟨0, _⟩ => show win0_1.index t (0 : Fin 2) * 3200 + 1 * r.val = t.val * 3200 + r.val; rw [e0]; omega
  | ⟨1, _⟩ => show win0_1.index t (1 : Fin 2) * 128 + 1 * k.val = k.val; rw [e1]; omega

/-- The text matrix's window holds the whole matrix at every point. -/
theorem textMat_block (c : Dev nD) (t : Fin cfg0.N) (k j : Fin 128) :
    (iblk0 V c 3 t : Vec Ideal S128x128 .bf16) (ix2 k j) = (V c main_v1 : Cert.Spec.Mat 128 128) (ix2 k j) := by
  obtain ⟨-, -, -, -, e0, e1, -⟩ := block_indices t
  unfold iblk0
  rw [View.read_apply]
  show V c main_v1 _ = V c main_v1 _
  refine congrArg (V c main_v1) (funext fun a => Fin.ext ?_)
  match a with
  | ⟨0, _⟩ => show win0_3.index t (0 : Fin 2) * 128 + 1 * k.val = k.val; rw [e0]; omega
  | ⟨1, _⟩ => show win0_3.index t (1 : Fin 2) * 128 + 1 * j.val = j.val; rw [e1]; omega

/-- The text bias's window holds the whole vector. -/
theorem textBias_block (c : Dev nD) (t : Fin cfg0.N) (j : Fin 128) :
    (iblk0 V c 4 t : Vec Ideal S128 .f32) (ix1 j) = (V c main_arg7 : Cert.Spec.Row 128) (ix1 j) := by
  obtain ⟨-, -, -, -, -, -, e0, -⟩ := block_indices t
  unfold iblk0
  rw [View.read_apply]
  show V c main_arg7 _ = V c main_arg7 _
  refine congrArg (V c main_arg7) (funext fun a => Fin.ext ?_)
  match a with
  | ⟨0, _⟩ => show win0_4.index t (0 : Fin 1) * 128 + 1 * j.val = j.val; rw [e0]; omega

/-- The second matrix's window holds the whole [256,128] matrix. -/
theorem relMat_block (c : Dev nD) (t : Fin cfg0.N) (k : Fin 256) (j : Fin 128) :
    (iblk0 V c 5 t : Vec Ideal S256x128 .bf16) (ix2 k j) = (V c main_v2 : Cert.Spec.Mat 256 128) (ix2 k j) := by
  obtain ⟨-, -, -, -, -, -, -, e0, e1, -⟩ := block_indices t
  unfold iblk0
  rw [View.read_apply]
  show V c main_v2 _ = V c main_v2 _
  refine congrArg (V c main_v2) (funext fun a => Fin.ext ?_)
  match a with
  | ⟨0, _⟩ => show win0_5.index t (0 : Fin 2) * 256 + 1 * k.val = k.val; rw [e0]; omega
  | ⟨1, _⟩ => show win0_5.index t (1 : Fin 2) * 128 + 1 * j.val = j.val; rw [e1]; omega

/-- The second bias's window holds the whole vector. -/
theorem relBias_block (c : Dev nD) (t : Fin cfg0.N) (j : Fin 128) :
    (iblk0 V c 6 t : Vec Ideal S128 .f32) (ix1 j) = (V c main_arg11 : Cert.Spec.Row 128) (ix1 j) := by
  obtain ⟨-, -, -, -, -, -, -, -, -, e0, -⟩ := block_indices t
  unfold iblk0
  rw [View.read_apply]
  show V c main_arg11 _ = V c main_arg11 _
  refine congrArg (V c main_arg11) (funext fun a => Fin.ext ?_)
  match a with
  | ⟨0, _⟩ => show win0_6.index t (0 : Fin 1) * 128 + 1 * j.val = j.val; rw [e0]; omega

/-- What point `t` writes back is block `t` of the new edge features of the arrays the pass was entered with. -/
theorem flushed_eq (c : Dev nD) (t : Fin cfg0.N) :
    (dat0 V c).flushed 8 t = ((cfg0.win 8).blk t).view.read (Elt Ideal)
      (Cert.Spec.arr2 (Cert.Spec.eNewK (V c main_arg2) (V c main_arg1) (V c main_v1) (V c main_arg7) (V c main_v2) (V c main_arg11))) := by
  have ht : t.val < 250 := point_lt t
  obtain ⟨-, -, -, -, -, -, -, -, -, -, e0, e1⟩ := block_indices t
  show (cfg0.win 8).cut (grid0.coords t) ((dat0 V c).after 8 t) = _
  rw [after0_8]
  unfold out0_8
  rw [View.canon_unit_zero zeros2]
  simp only [View.ld_unit_zero (S := S3200x128) zeros2, View.ld_unit_zero (S := S128x128) zeros2, View.ld_unit_zero (S := S128) zeros1]
  funext y
  obtain ⟨r, j, rfl⟩ : ∃ (r : Fin 3200) (j : Fin 128), y = ix2 r j := ⟨y 0, y 1, eq_ix2 y⟩
  refine (block_newEdge (V c main_arg2) (V c main_arg1) (V c main_v1) (V c main_arg7) (V c main_v2) (V c main_arg11)
    (iblk0 V c 0 t) (iblk0 V c 1 t) (iblk0 V c 3 t) (iblk0 V c 4 t)
    (View.ld (iblk0 V c 5 t) r0_3) (View.ld (iblk0 V c 5 t) r0_4) (iblk0 V c 6 t)
    t.val ht (sentence_block V c t ht) (edge_block V c t ht) (textMat_block V c t) (textBias_block V c t)
    (fun k j => (ld_top (iblk0 V c 5 t) k j).trans (relMat_block V c t _ j))
    (fun k j => (ld_bot (iblk0 V c 5 t) k j).trans (relMat_block V c t _ j))
    (relBias_block V c t) r j).trans ?_
  rw [View.read_apply]
  refine Eq.symm (arr2_eq
    (Cert.Spec.eNewK (V c main_arg2) (V c main_arg1) (V c main_v1) (V c main_arg7) (V c main_v2) (V c main_arg11))
    (((cfg0.win 8).blk t).view.emb (ix2 r j)) (⟨t.val * 3200 + r.val, by omega⟩ : Fin 800000) j ?_ ?_)
  · show win0_8.index t (0 : Fin 2) * 3200 + 1 * r.val = t.val * 3200 + r.val; rw [e0]; omega
  · show win0_8.index t (1 : Fin 2) * 128 + 1 * j.val = j.val; rw [e1]; omega

/-- An index of the output array is in point `t`'s block iff each coordinate is in the block's range on its axis. -/
theorem mem_block (t : Fin cfg0.N) (i : S800000x128.Idx) :
    i ∈ ((cfg0.win 8).blk t).view.set ↔ ∀ a : Fin 2, win0_8.index t a * S3200x128.size a ≤ (i a).val ∧ (i a).val < win0_8.index t a * S3200x128.size a + S3200x128.size a := by
  show i ∈ ((View.whole main_v4_1).slice (win0_8.rect t)).set ↔ _
  rw [View.set_slice_whole, Rect.mem_set_unit]
  exact Iff.rfl

/-- Every row `e` of the output array lies in the block of point `e / 3200`, which is written back. -/
theorem covered (i : S800000x128.Idx) :
    ∃ t : Fin cfg0.N, (cfg0.win 8).flush t = true ∧ i ∈ ((cfg0.win 8).blk t).view.set := by
  have hi0 : (i 0).val < 800000 := (i 0).isLt
  have hi1 : (i 1).val < 128 := (i 1).isLt
  have hN : cfg0.N = 250 := N_0
  obtain ⟨t, htv⟩ : ∃ t : Fin cfg0.N, t.val = (i 0).val / 3200 := ⟨⟨(i 0).val / 3200, by rw [hN]; omega⟩, rfl⟩
  obtain ⟨-, -, -, -, -, -, -, -, -, -, e0, e1⟩ := block_indices t
  refine ⟨t, flush0_8 t, ?_⟩
  rw [mem_block]
  intro a
  match a with
  | ⟨0, _⟩ =>
    show win0_8.index t (0 : Fin 2) * 3200 ≤ (i 0).val ∧ (i 0).val < win0_8.index t (0 : Fin 2) * 3200 + 3200
    rw [e0, htv]; omega
  | ⟨1, _⟩ =>
    show win0_8.index t (1 : Fin 2) * 128 ≤ (i 1).val ∧ (i 1).val < win0_8.index t (1 : Fin 2) * 128 + 128
    rw [e1]; omega

/-- After the edge pass its second output array holds the new edge features, of the arrays the pass was entered with. -/
theorem final (c : Dev nD) :
    (dat0 V c).arrAt 8 cfg0.N
      = Cert.Spec.arr2 (Cert.Spec.eNewK (V c main_arg2) (V c main_arg1) (V c main_v1) (V c main_arg7) (V c main_v2) (V c main_arg11)) := by
  exact (dat0 V c).arrAt_eq_of_cover 8 _ (fun t _ => flushed_eq V c t) covered

end Cert.KernelIdeal.EdgeNew

end
-- ==== Proof.NodeA.lean ====
import proofs.«413949_j60988535603571_3_alg».proof.Proof.Gen.KernelIdeal.Frame
import proofs.«413949_j60988535603571_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.NodeA

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The matrix product read at an entry -/

theorem lhs_axis0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_axis1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_axis0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_axis1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product of a [5000,256] block and the [256,128] matrix, into a zero accumulator, at entry (p, q):
    the sum over the 256 contracted columns. -/
theorem matmul_at (l : FVec Ideal S5000x256 .bf16) (r : FVec Ideal S256x128 .bf16) (p : Fin 5000) (q : Fin 128) :
    matmul dot_S5000x256_S256x128_S5000x128_1_0_0_1_n_n none l r (constant (F := Ideal) S5000x128 .f32 0x00000000#32) (ix2 p q)
      = ∑ k : Fin 256, l (ix2 p k) * r (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## A column spread over the columns -/

/-- An [a, 1] array broadcast to [a, b] reads, at (p, c), the operand's one column at row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an entry -/

/-- The block the body stores, at (p, q): the block's row p scaled by the row's factor, times column q of the
    matrix, plus the bias at q. -/
theorem payload_apply (fs : FVec Ideal S5000x256 .f32) (inv : FVec Ideal S5000x1 .f32) (W : FVec Ideal S256x128 .bf16) (b : FVec Ideal S128 .f32)
    (p : Fin 5000) (q : Fin 128) :
    k1_pay1 (F := Ideal) fs inv W b (ix2 p q)
      = (∑ k : Fin 256, (fs (ix2 p k) * inv (ix2 p (0 : Fin 1))) * W (ix2 k q)) + b (ix1 q) := by
  unfold k1_pay1
  rw [addf_apply, matmul_at]
  simp only [shapeCast_self]
  rw [broadcastTo_1b_ab_apply, shapeCast_a_1a_apply]
  refine congrArg (· + b (ix1 q)) (Finset.sum_congr rfl fun k _ => ?_)
  rw [truncf_apply, mulf_apply, broadcastTo_a1_ab_apply]

/-! ## The stored block is the block of the whole-array function -/

/-- The body's block at (p, q), from where its four inputs sit in the arrays: row n of the scaled features and of the
    factors, the whole matrix and the whole bias. -/
theorem block_at (A0 : Cert.Spec.Mat 50000 256) (A1 : Cert.Spec.Mat 50000 1) (A2 : Cert.Spec.Mat 256 128) (A3 : Cert.Spec.Row 128)
    (x0 : FVec Ideal S5000x256 .f32) (x1 : FVec Ideal S5000x1 .f32) (x2 : FVec Ideal S256x128 .bf16) (x3 : FVec Ideal S128 .f32)
    (n : Fin 50000) (p : Fin 5000) (q : Fin 128)
    (h0 : ∀ k : Fin 256, x0 (ix2 p k) = A0 (ix2 n k))
    (h1 : x1 (ix2 p (0 : Fin 1)) = A1 (ix2 n (0 : Fin 1)))
    (h2 : ∀ k : Fin 256, x2 (ix2 k q) = A2 (ix2 k q))
    (h3 : x3 (ix1 q) = A3 (ix1 q)) :
    k1_pay1 (F := Ideal) x0 x1 x2 x3 (ix2 p q) = Cert.Spec.nodeAK A0 A1 A2 A3 n q := by
  rw [payload_apply]
  unfold Cert.Spec.nodeAK
  rw [h1, h3]
  refine congrArg (· + A3 (ix1 q)) (Finset.sum_congr rfl fun k _ => ?_)
  rw [h0, h2]

theorem zero_offsets2 : (![0, 0] : Fin 2 → Nat) = fun _ => 0 := funext fun a => by fin_cases a <;> rfl
theorem zero_offsets1 : (![0] : Fin 1 → Nat) = fun _ => 0 := funext fun a => by fin_cases a; rfl

/-- The index maps over the ten grid points: the two row-blocked inputs and the output sit at block row t, column
    block 0; the matrix and the bias at their one block. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Input block 0 at point t is rows 5000 t … 5000 t + 4999 of the scaled features. -/
theorem features_block_apply (c : Dev nD) (t : Fin cfg1.N) (p : Fin 5000) (k : Fin 256) (n : Fin 50000) (hn : n.val = t.val * 5000 + p.val) :
    (iblk1 V c 0 t : Vec Ideal S5000x256 .f32) (ix2 p k) = (V c main_v17 : S50000x256.Idx → EReal) (ix2 n k) := by
  obtain ⟨e0, e1, -⟩ := block_indices t
  unfold iblk1
  rw [View.read_apply]
  show V c main_v17 _ = V c main_v17 _
  refine congrArg (V c main_v17) ?_
  funext a
  apply Fin.ext
  match a with
  | ⟨0, _⟩ => show win1_0.index t (0 : Fin 2) * 5000 + 1 * p.val = n.val; rw [e0, hn]; omega
  | ⟨1, _⟩ => show win1_0.index t (1 : Fin 2) * 256 + 1 * k.val = k.val; rw [e1]; omega

/-- Input block 1 at point t is the same rows of the factors. -/
theorem factors_block_apply (c : Dev nD) (t : Fin cfg1.N) (p : Fin 5000) (n : Fin 50000) (hn : n.val = t.val * 5000 + p.val) :
    (iblk1 V c 1 t : Vec Ideal S5000x1 .f32) (ix2 p (0 : Fin 1)) = (V c main_v14 : S50000x1.Idx → EReal) (ix2 n (0 : Fin 1)) := by
  obtain ⟨-, -, e2, e3, -⟩ := block_indices t
  unfold iblk1
  rw [View.read_apply]
  show V c main_v14 _ = V c main_v14 _
  refine congrArg (V c main_v14) ?_
  funext a
  apply Fin.ext
  match a with
  | ⟨0, _⟩ => show win1_1.index t (0 : Fin 2) * 5000 + 1 * p.val = n.val; rw [e2, hn]; omega
  | ⟨1, _⟩ => show win1_1.index t (1 : Fin 2) * 1 + 1 * 0 = 0; rw [e3]

/-- Input block 2 at every point is the whole matrix. -/
theorem matrix_block_apply (c : Dev nD) (t : Fin cfg1.N) (k : Fin 256) (q : Fin 128) :
    (iblk1 V c 2 t : Vec Ideal S256x128 .bf16) (ix2 k q) = (V c main_v3 : S256x128.Idx → EReal) (ix2 k q) := by
  obtain ⟨-, -, -, -, e4, e5, -⟩ := block_indices t
  unfold iblk1
  rw [View.read_apply]
  show V c main_v3 _ = V c main_v3 _
  refine congrArg (V c main_v3) ?_
  funext a
  apply Fin.ext
  match a with
  | ⟨0, _⟩ => show win1_2.index t (0 : Fin 2) * 256 + 1 * k.val = k.val; rw [e4]; omega
  | ⟨1, _⟩ => show win1_2.index t (1 : Fin 2) * 128 + 1 * q.val = q.val; rw [e5]; omega

/-- Input block 3 at every point is the whole bias. -/
theorem bias_block_apply (c : Dev nD) (t : Fin cfg1.N) (q : Fin 128) :
    (iblk1 V c 3 t : Vec Ideal S128 .f32) (ix1 q) = (V c main_arg9 : S128.Idx → EReal) (ix1 q) := by
  obtain ⟨-, -, -, -, -, -, e6, -⟩ := block_indices t
  unfold iblk1
  rw [View.read_apply]
  show V c main_arg9 _ = V c main_arg9 _
  refine congrArg (V c main_arg9) ?_
  funext a
  apply Fin.ext
  match a with
  | ⟨0, _⟩ => show win1_3.index t (0 : Fin 1) * 128 + 1 * q.val = q.val; rw [e6]; omega

/-- What point t writes back is block t of the first node pass of the arrays the pass was entered with. -/
theorem written_back_eq (c : Dev nD) (t : Fin cfg1.N) :
    (dat1 V c).flushed 4 t = ((cfg1.win 4).blk t).view.read (Elt Ideal)
      (Cert.Spec.arr2 (Cert.Spec.nodeAK (V c main_v17) (V c main_v14) (V c main_v3) (V c main_arg9))) := by
  show (cfg1.win 4).cut (grid1.coords t) ((dat1 V c).after 4 t) = _
  rw [after1_4]
  unfold out1_4
  rw [View.canon_unit_zero zero_offsets2]
  simp only [View.ld_unit_zero (S := S5000x256) zero_offsets2, View.ld_unit_zero (S := S5000x1) zero_offsets2, View.ld_unit_zero (S := S256x128) zero_offsets2, View.ld_unit_zero (S := S128) zero_offsets1]
  obtain ⟨-, -, -, -, -, -, -, e7, e8⟩ := block_indices t
  have ht : t.val < 10 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  show k1_pay1 (F := Ideal) (iblk1 V c 0 t) (iblk1 V c 1 t) (iblk1 V c 2 t) (iblk1 V c 3 t) (ix2 p q)
    = Cert.Spec.arr2 (Cert.Spec.nodeAK (V c main_v17) (V c main_v14) (V c main_v3) (V c main_arg9)) (((cfg1.win 4).blk t).view.emb (ix2 p q))
  have hemb : ((cfg1.win 4).blk t).view.emb (ix2 p q) = ix2 (⟨t.val * 5000 + p.val, by omega⟩ : Fin 50000) q := by
    funext a
    apply Fin.ext
    match a with
    | ⟨0, _⟩ => show win1_4.index t (0 : Fin 2) * 5000 + 1 * p.val = t.val * 5000 + p.val; rw [e7]; omega
    | ⟨1, _⟩ => show win1_4.index t (1 : Fin 2) * 128 + 1 * q.val = q.val; rw [e8]; omega
  rw [hemb, Cert.Spec.arr2_apply]
  exact block_at _ _ _ _ _ _ _ _ _ p q (fun k => features_block_apply V c t p k _ rfl) (factors_block_apply V c t p _ rfl)
    (fun k => matrix_block_apply V c t k q) (bias_block_apply V c t q)

/-- An index of the array is in point t's block iff each coordinate is in the block's range on its axis. -/
theorem mem_out_block (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v18).slice (win1_4.rect t)).set ↔ _
  rw [View.set_slice_whole, Rect.mem_set_unit]
  exact Iff.rfl

/-- Every row r lies in the block of point r / 5000. -/
theorem rows_covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have ht : (i 0).val / 5000 < grid1.N := by rw [N_1]; omega
  refine ⟨⟨(i 0).val / 5000, ht⟩, flush1_4 _, ?_⟩
  rw [mem_out_block]
  obtain ⟨-, -, -, -, -, -, -, e7, e8⟩ := block_indices ⟨(i 0).val / 5000, ht⟩
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e7]
    show (i 0).val / 5000 * 5000 ≤ (i 0).val ∧ (i 0).val < (i 0).val / 5000 * 5000 + 5000
    omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e8]
    omega

/-- After the first node pass its output array is the scaled rows times `W_inv` plus the bias, of the arrays the pass was entered with. -/
theorem final (c : Dev nD) :
    (dat1 V c).arrAt 4 cfg1.N
      = Cert.Spec.arr2 (Cert.Spec.nodeAK (V c main_v17) (V c main_v14) (V c main_v3) (V c main_arg9)) :=
  (dat1 V c).arrAt_eq_of_cover 4 _ (fun t _ => written_back_eq V c t) rows_covered

end Cert.KernelIdeal.NodeA

end
-- ==== Proof.NodeB.lean ====
import proofs.«413949_j60988535603571_3_alg».proof.Proof.Gen.KernelIdeal.Frame
import proofs.«413949_j60988535603571_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.NodeB

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Small facts about the buffers' offsets and the grid -/

/-- The zero offsets of a two-axis buffer are the constant zero. -/
theorem zeros2 : (![0, 0] : Fin 2 → Nat) = fun _ => 0 := funext fun a => by fin_cases a <;> rfl

/-- The zero offset of a one-axis buffer is the constant zero. -/
theorem zeros1 : (![0] : Fin 1 → Nat) = fun _ => 0 := funext fun a => by fin_cases a; rfl

/-- The pass runs over ten points. -/
theorem point_lt (t : Fin cfg2.N) : t.val < 10 := t.isLt

/-- The array row that row `p` of the block of point `t` is: blocks are 5000 consecutive rows. -/
def row (t : Fin cfg2.N) (p : Fin 5000) : Fin 50000 := ⟨t.val * 5000 + p.val, by have := point_lt t; omega⟩

/-! ## The payload at an index -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The value the pass stores at row `p`, feature `q` of a block: the feature times the row's scale, plus the bias. -/
theorem pay_apply (x0 : Vec Ideal S5000x128 .f32) (x1 : Vec Ideal S5000x1 .f32) (x2 : Vec Ideal S128 .f32)
    (p : Fin 5000) (q : Fin 128) :
    k2_pay1 x0 x1 x2 (ix2 p q) = x0 (ix2 p q) * x1 (ix2 p (0 : Fin 1)) + x2 (ix1 q) := by
  unfold k2_pay1
  rw [addf_apply, mulf_apply, shapeCast_self, broadcastTo_a1_ab_apply, broadcastTo_1b_ab_apply, shapeCast_a_1a_apply]

/-! ## Where each window's block sits at a point -/

/-- The block indices over the grid: the three row-blocked windows move together, one block per point, and the
    bias is read whole. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Entry `(p, q)` of the feature block of point `t` is the array's entry `(row t p, q)`. -/
theorem emb0 (t : Fin cfg2.N) (p : Fin 5000) (q : Fin 128) :
    ((cfg2.win 0).blk t).view.emb (ix2 p q) = (ix2 (row t p) q : S50000x128.Idx) := by
  obtain ⟨e0, e1, e2, e3, e4, e5, e6⟩ := idx_facts t
  funext a; apply Fin.ext
  match a with
  | ⟨0, _⟩ => show win2_0.index t (0 : Fin 2) * 5000 + 1 * p.val = t.val * 5000 + p.val; omega
  | ⟨1, _⟩ => show win2_0.index t (1 : Fin 2) * 128 + 1 * q.val = q.val; omega

/-- Entry `(p, 0)` of the scale block of point `t` is the array's entry `(row t p, 0)`. -/
theorem emb1 (t : Fin cfg2.N) (p : Fin 5000) :
    ((cfg2.win 1).blk t).view.emb (ix2 p (0 : Fin 1)) = (ix2 (row t p) (0 : Fin 1) : S50000x1.Idx) := by
  obtain ⟨e0, e1, e2, e3, e4, e5, e6⟩ := idx_facts t
  funext a; apply Fin.ext
  match a with
  | ⟨0, _⟩ => show win2_1.index t (0 : Fin 2) * 5000 + 1 * p.val = t.val * 5000 + p.val; omega
  | ⟨1, _⟩ => show win2_1.index t (1 : Fin 2) * 1 + 1 * 0 = 0; omega

/-- The bias block is the whole bias at every point. -/
theorem emb2 (t : Fin cfg2.N) (q : Fin 128) :
    ((cfg2.win 2).blk t).view.emb (ix1 q) = (ix1 q : S128.Idx) := by
  obtain ⟨e0, e1, e2, e3, e4, e5, e6⟩ := idx_facts t
  funext a; apply Fin.ext
  match a with
  | ⟨0, _⟩ => show win2_2.index t (0 : Fin 1) * 128 + 1 * q.val = q.val; omega

/-- Entry `(p, q)` of the output block of point `t` is the array's entry `(row t p, q)`. -/
theorem emb3 (t : Fin cfg2.N) (p : Fin 5000) (q : Fin 128) :
    ((cfg2.win 3).blk t).view.emb (ix2 p q) = (ix2 (row t p) q : S50000x128.Idx) := by
  obtain ⟨e0, e1, e2, e3, e4, e5, e6⟩ := idx_facts t
  funext a; apply Fin.ext
  match a with
  | ⟨0, _⟩ => show win2_3.index t (0 : Fin 2) * 5000 + 1 * p.val = t.val * 5000 + p.val; omega
  | ⟨1, _⟩ => show win2_3.index t (1 : Fin 2) * 128 + 1 * q.val = q.val; omega

/-! ## What a point writes back -/

/-- Read at the entries `(n, q)`, `(n, 0)` and `q` of three arrays, the feature times the scale plus the bias is the
    second node pass's entry `(n, q)`. -/
theorem nodeB_at (A : Cert.Spec.Mat 50000 128) (B : Cert.Spec.Mat 50000 1) (C : Cert.Spec.Row 128)
    (i0 i3 : S50000x128.Idx) (i1 : S50000x1.Idx) (i2 : S128.Idx) (n : Fin 50000) (q : Fin 128)
    (h0 : i0 = ix2 n q) (h1 : i1 = ix2 n (0 : Fin 1)) (h2 : i2 = ix1 q) (h3 : i3 = ix2 n q) :
    A i0 * B i1 + C i2 = Cert.Spec.arr2 (Cert.Spec.nodeBK A B C) i3 := by
  subst h0 h1 h2 h3; rfl

/-- What point `t` writes back is block `t` of `hs * norm + bias_v` of the arrays the pass was entered with. -/
theorem flushed_eq (c : Dev nD) (t : Fin cfg2.N) :
    (dat2 V c).flushed 3 t = ((cfg2.win 3).blk t).view.read (Elt Ideal)
      (Cert.Spec.arr2 (Cert.Spec.nodeBK (V c main_v22) (V c main_arg3) (V c main_arg12))) := by
  show (cfg2.win 3).cut (grid2.coords t) ((dat2 V c).after 3 t) = _
  rw [after2_3]
  unfold out2_3
  rw [View.canon_unit_zero zeros2]
  simp only [View.ld_unit_zero (S := S5000x128) zeros2, View.ld_unit_zero (S := S5000x1) zeros2,
    View.ld_unit_zero (S := S128) zeros1]
  funext j
  obtain ⟨p, q, rfl⟩ : ∃ (p : Fin 5000) (q : Fin 128), j = ix2 p q := ⟨j 0, j 1, eq_ix2 (n0 := 5000) (n1 := 128) j⟩
  show k2_pay1 (iblk2 V c 0 t) (iblk2 V c 1 t) (iblk2 V c 2 t) (ix2 p q)
    = Cert.Spec.arr2 (Cert.Spec.nodeBK (V c main_v22) (V c main_arg3) (V c main_arg12)) (((cfg2.win 3).blk t).view.emb (ix2 p q))
  refine (pay_apply (iblk2 V c 0 t) (iblk2 V c 1 t) (iblk2 V c 2 t) p q).trans ?_
  exact nodeB_at (V c main_v22) (V c main_arg3) (V c main_arg12)
    (((cfg2.win 0).blk t).view.emb (ix2 p q)) (((cfg2.win 3).blk t).view.emb (ix2 p q))
    (((cfg2.win 1).blk t).view.emb (ix2 p (0 : Fin 1))) (((cfg2.win 2).blk t).view.emb (ix1 q))
    (row t p) q (emb0 t p q) (emb1 t p) (emb2 t q) (emb3 t p q)

/-! ## The blocks cover the array -/

/-- An index of the array is in point `t`'s block iff each coordinate is in the block's range on its axis. -/
theorem mem_blk (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v23).slice (win2_3.rect t)).set ↔ _
  rw [View.set_slice_whole, Rect.mem_set_unit]
  exact Iff.rfl

/-- Every entry of the array lies in the block of the point its row names: row `r` in block `r / 5000`. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by show (i 0).val / 5000 < 10; omega⟩, rfl⟩
  obtain ⟨e0, e1, e2, e3, e4, e5, e6⟩ := idx_facts t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-! ## The array after the pass -/

/-- After the second node pass its output array is `hs * norm + bias_v` of the arrays the pass was entered with. -/
theorem final (c : Dev nD) :
    (dat2 V c).arrAt 3 cfg2.N
      = Cert.Spec.arr2 (Cert.Spec.nodeBK (V c main_v22) (V c main_arg3) (V c main_arg12)) :=
  (dat2 V c).arrAt_eq_of_cover 3 _ (fun t _ => flushed_eq V c t) cover

end Cert.KernelIdeal.NodeB

end
-- ==== Proof.LibRowGather.lean ====
/-
  A gather of whole rows, read at an index.

  What `x[idx]` of a matrix `x : [N, C]` at a vector of row numbers lowers to: a gather with offset axis 1, the
  collapsed slice axis 0, start index map `[0]`, slice sizes `[1, C]`, over the indices as a column `[R, 1]`.
  Result element `(r, q)` is `x` at row `idx[r, 0]` (read signed, clamped into `[0, N − 1]`) and column `q`: the
  gather selects whole rows, so any function applied row by row commutes with it.
-/
import Idealize.ShloMosaic.Lib.ValueIdx

noncomputable section

namespace Idealize.ShloMosaic.ValueIdx

section RowGather
variable {α : Type}

/-- Those dimension numbers for an operand `[N, C]`, start indices `[R, 1]` and result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row `r` reads: its start index, read signed and clamped into `[0, N − 1]`. -/
def gatherRow {N R w : Nat} (hN : 0 < N) (idx : IVec ⟨2, ![R, 1]⟩ w) (r : Fin R) : Fin N :=
  ⟨min (idx (ix2 r (0 : Fin 1))).toInt.toNat (N - 1), by omega⟩

/-- THE ROW GATHER READ AT `(r, q)`: the operand at the row `r` reads and the same column. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowGatherDims N R C wf) x idx (ix2 r q) = x (ix2 (gatherRow hN idx r) q) := by
  unfold Host.gather
  congr 1
  funext a
  refine Fin.ext ?_
  match a with
  | ⟨0, _⟩ =>
    show (rowGatherDims N R C wf).start (ix2 r q) idx 0 + (rowGatherDims N R C wf).batchCoord (ix2 r q) 0
      + (rowGatherDims N R C wf).offCoord (ix2 r q) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r q) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r q) idx 1 + (rowGatherDims N R C wf).batchCoord (ix2 r q) 1
      + (rowGatherDims N R C wf).offCoord (ix2 r q) 1 = q.val
    have hmem : (1 : Fin 2) ∈ (rowGatherDims N R C wf).sKept :=
      (GatherDims.mem_sKept _ _).mpr ⟨show (1 : Fin 2) ∉ [(0 : Fin 2)] by decide, List.not_mem_nil⟩
    have hnot : (1 : Fin 2) ∉ (rowGatherDims N R C wf).startIndexMap := show (1 : Fin 2) ∉ [(0 : Fin 2)] by decide
    rw [GatherDims.batchCoord_eq_zero _ _ _ List.not_mem_nil]
    unfold GatherDims.start GatherDims.offCoord
    rw [dif_neg hnot, dif_pos hmem]
    simp only [Nat.zero_add]
    rfl

end RowGather

end Idealize.ShloMosaic.ValueIdx

end
-- ==== Proof.HostA.lean ====
import proofs.«413949_j60988535603571_3_alg».proof.Proof.Gen.KernelIdeal.Frame
import proofs.«413949_j60988535603571_3_alg».proof.Proof.Spec
import proofs.«413949_j60988535603571_3_alg».proof.Proof.LibRowGather
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

open scoped BigOperators

namespace Cert.KernelIdeal.HostA

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- A stretch of host operations none of which writes the buffer leaves it as it was. -/
local macro "unwritten" ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! What the edge pass is entered with: the arguments it reads as launched, the destination rows taken in fill mode,
    and the two weight matrices it reads in the narrower format (the same extended reals). -/

theorem V2_arg2 (c : Dev nD) : V2 m ρ c main_arg2 = m ((c : Thread nD τ).loc main_arg2) :=
  calc V2 m ρ c main_arg2
    _ = W1 m ρ c (Proc.devRef .tc main_arg2) := by unwritten hostOps0_1
    _ = W0 m ρ c (Proc.devRef .tc main_arg2) := by unwritten hostOps0
    _ = m ((c : Thread nD τ).loc main_arg2) := rfl
theorem V2_arg1 (c : Dev nD) : V2 m ρ c main_arg1 = m ((c : Thread nD τ).loc main_arg1) :=
  calc V2 m ρ c main_arg1
    _ = W1 m ρ c (Proc.devRef .tc main_arg1) := by unwritten hostOps0_1
    _ = W0 m ρ c (Proc.devRef .tc main_arg1) := by unwritten hostOps0
    _ = m ((c : Thread nD τ).loc main_arg1) := rfl
theorem V2_arg7 (c : Dev nD) : V2 m ρ c main_arg7 = m ((c : Thread nD τ).loc main_arg7) :=
  calc V2 m ρ c main_arg7
    _ = W1 m ρ c (Proc.devRef .tc main_arg7) := by unwritten hostOps0_1
    _ = W0 m ρ c (Proc.devRef .tc main_arg7) := by unwritten hostOps0
    _ = m ((c : Thread nD τ).loc main_arg7) := rfl
theorem V2_arg11 (c : Dev nD) : V2 m ρ c main_arg11 = m ((c : Thread nD τ).loc main_arg11) :=
  calc V2 m ρ c main_arg11
    _ = W1 m ρ c (Proc.devRef .tc main_arg11) := by unwritten hostOps0_1
    _ = W0 m ρ c (Proc.devRef .tc main_arg11) := by unwritten hostOps0
    _ = m ((c : Thread nD τ).loc main_arg11) := rfl

theorem V2_v1 (c : Dev nD) : V2 m ρ c main_v1 = m ((c : Thread nD τ).loc main_arg6) := by
  have e : W1 m ρ c (Proc.devRef .tc main_arg6) = m ((c : Thread nD τ).loc main_arg6) :=
    (by unwritten hostOps0 : StableHlo.after hostOps0 (W0 m ρ c) (Proc.devRef .tc main_arg6) = W0 m ρ c (Proc.devRef .tc main_arg6))
  rw [← e]
  show StableHlo.after hostOps0_1 (W1 m ρ c) (Proc.devRef .tc main_v1) = _
  generalize W1 m ρ c = X
  rw [hostOps0_1]
  after_results
  rfl
theorem V2_v2 (c : Dev nD) : V2 m ρ c main_v2 = m ((c : Thread nD τ).loc main_arg10) := by
  have e : W1 m ρ c (Proc.devRef .tc main_arg10) = m ((c : Thread nD τ).loc main_arg10) :=
    (by unwritten hostOps0 : StableHlo.after hostOps0 (W0 m ρ c) (Proc.devRef .tc main_arg10) = W0 m ρ c (Proc.devRef .tc main_arg10))
  rw [← e]
  show StableHlo.after hostOps0_1 (W1 m ρ c) (Proc.devRef .tc main_v2) = _
  generalize W1 m ρ c = X
  rw [hostOps0_1]
  after_results
  rfl

/-! ## The take's operations over plain references

The stretch before the edge pass is one inlined function (the take in fill mode), its operations stated over references
that carry their tensor types. Each is the plain operation at the same buffers with the same function: stated once for
each arity, for any function. -/

section Plain
variable {F : FTy → Type} [FloatOps F]

theorem tnullary_eq {y : Ref sig .tc} {Ty : BufTy} {hy : y.ty = Ty} {hd : y.space ≠ .host} {hu : y.isScoped = false}
    {v : Ty.Contents (Elt F)} {v' : y.ty.Contents (Elt F)} (hv : HEq v v') :
    (StableHlo.TRef.nullary (StableHlo.TRef.of y hy hd hu) v : HloOp τ sig (Elt F)) = StableHlo.nullary y v' ⟨hd, hu⟩ := by
  subst hy; cases hv; rfl

theorem tunary_eq {x y : Ref sig .tc} {Tx Ty : BufTy} {hx : x.ty = Tx} {hy : y.ty = Ty}
    {hdx : x.space ≠ .host} {hux : x.isScoped = false} {hdy : y.space ≠ .host} {huy : y.isScoped = false}
    {f : Tx.Contents (Elt F) → Ty.Contents (Elt F)} {f' : x.ty.Contents (Elt F) → y.ty.Contents (Elt F)} (hf : HEq f f') :
    (StableHlo.TRef.unary (StableHlo.TRef.of x hx hdx hux) (StableHlo.TRef.of y hy hdy huy) f : HloOp τ sig (Elt F))
      = StableHlo.unary x y f' ⟨hdx, hux⟩ ⟨hdy, huy⟩ := by
  subst hx; subst hy; cases hf; rfl

theorem tbinary_eq {a b y : Ref sig .tc} {Ta Tb Ty : BufTy} {ha : a.ty = Ta} {hb : b.ty = Tb} {hy : y.ty = Ty}
    {hda : a.space ≠ .host} {hua : a.isScoped = false} {hdb : b.space ≠ .host} {hub : b.isScoped = false}
    {hdy : y.space ≠ .host} {huy : y.isScoped = false}
    {f : Ta.Contents (Elt F) → Tb.Contents (Elt F) → Ty.Contents (Elt F)}
    {f' : a.ty.Contents (Elt F) → b.ty.Contents (Elt F) → y.ty.Contents (Elt F)} (hf : HEq f f') :
    (StableHlo.TRef.binary (StableHlo.TRef.of a ha hda hua) (StableHlo.TRef.of b hb hdb hub) (StableHlo.TRef.of y hy hdy huy) f
        : HloOp τ sig (Elt F))
      = StableHlo.binary a b y f' ⟨hda, hua⟩ ⟨hdb, hub⟩ ⟨hdy, huy⟩ := by
  subst ha; subst hb; subst hy; cases hf; rfl

theorem tternary_eq {c a b y : Ref sig .tc} {Tc Ta Tb Ty : BufTy} {hc : c.ty = Tc} {ha : a.ty = Ta} {hb : b.ty = Tb}
    {hy : y.ty = Ty} {hdc : c.space ≠ .host} {huc : c.isScoped = false}
    {hda : a.space ≠ .host} {hua : a.isScoped = false} {hdb : b.space ≠ .host} {hub : b.isScoped = false}
    {hdy : y.space ≠ .host} {huy : y.isScoped = false}
    {f : Tc.Contents (Elt F) → Ta.Contents (Elt F) → Tb.Contents (Elt F) → Ty.Contents (Elt F)}
    {f' : c.ty.Contents (Elt F) → a.ty.Contents (Elt F) → b.ty.Contents (Elt F) → y.ty.Contents (Elt F)} (hf : HEq f f') :
    (StableHlo.TRef.ternary (StableHlo.TRef.of c hc hdc huc) (StableHlo.TRef.of a ha hda hua) (StableHlo.TRef.of b hb hdb hub)
        (StableHlo.TRef.of y hy hdy huy) f : HloOp τ sig (Elt F))
      = StableHlo.ternary c a b y f' ⟨hdc, huc⟩ ⟨hda, hua⟩ ⟨hdb, hub⟩ ⟨hdy, huy⟩ := by
  subst hc; subst ha; subst hb; subst hy; cases hf; rfl

/-- The take's 23 operations, in order, over the buffers themselves. -/
abbrev takeOps : List (HloOp τ sig (Elt F)) :=
  [ StableHlo.nullary main_call0_c (constantI S_ 32 0#32),
    StableHlo.unary main_call0_c main_call0_v0 (broadcastInDim S800000 ![] bcast_S_S800000 : (⟨S_, .i32⟩ : BufTy).Contents (Elt F) → (⟨S800000, .i32⟩ : BufTy).Contents (Elt F)),
    StableHlo.binary main_arg5 main_call0_v0 main_call0_v1 (cmpi .slt : (⟨S800000, .i32⟩ : BufTy).Contents (Elt F) → (⟨S800000, .i32⟩ : BufTy).Contents (Elt F) → (⟨S800000, .i1⟩ : BufTy).Contents (Elt F)),
    StableHlo.nullary main_call0_c_0 (constantI S_ 32 50000#32),
    StableHlo.unary main_call0_c_0 main_call0_v2 (broadcastInDim S800000 ![] bcast_S_S800000 : (⟨S_, .i32⟩ : BufTy).Contents (Elt F) → (⟨S800000, .i32⟩ : BufTy).Contents (Elt F)),
    StableHlo.binary main_arg5 main_call0_v2 main_call0_v3 (addi : (⟨S800000, .i32⟩ : BufTy).Contents (Elt F) → (⟨S800000, .i32⟩ : BufTy).Contents (Elt F) → (⟨S800000, .i32⟩ : BufTy).Contents (Elt F)),
    StableHlo.ternary main_call0_v1 main_call0_v3 main_arg5 main_call0_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_call0_v4 main_call0_v5 (broadcastInDim S800000x1 ![0] bcast_S800000_S800000x1_0 : (⟨S800000, .i32⟩ : BufTy).Contents (Elt F) → (⟨S800000x1, .i32⟩ : BufTy).Contents (Elt F)),
    StableHlo.nullary main_call0_c_1 (constantI S1 32 49999#32),
    StableHlo.nullary main_call0_c_2 (constantI S_ 32 0#32),
    StableHlo.unary main_call0_c_2 main_call0_v6 (broadcastInDim S800000x1 ![] bcast_S_S800000x1 : (⟨S_, .i32⟩ : BufTy).Contents (Elt F) → (⟨S800000x1, .i32⟩ : BufTy).Contents (Elt F)),
    StableHlo.binary main_call0_v5 main_call0_v6 main_call0_v7 (cmpi .sge : (⟨S800000x1, .i32⟩ : BufTy).Contents (Elt F) → (⟨S800000x1, .i32⟩ : BufTy).Contents (Elt F) → (⟨S800000x1, .i1⟩ : BufTy).Contents (Elt F)),
    StableHlo.unary main_call0_c_1 main_call0_v8 (broadcastInDim S1x1 ![1] bcast_S1_S1x1_1 : (⟨S1, .i32⟩ : BufTy).Contents (Elt F) → (⟨S1x1, .i32⟩ : BufTy).Contents (Elt F)),
    StableHlo.unary main_call0_v8 main_call0_v9 (broadcastInDim S800000x1 ![0, 1] bcast_S1x1_S800000x1_0_1 : (⟨S1x1, .i32⟩ : BufTy).Contents (Elt F) → (⟨S800000x1, .i32⟩ : BufTy).Contents (Elt F)),
    StableHlo.binary main_call0_v5 main_call0_v9 main_call0_v10 (cmpi .sle : (⟨S800000x1, .i32⟩ : BufTy).Contents (Elt F) → (⟨S800000x1, .i32⟩ : BufTy).Contents (Elt F) → (⟨S800000x1, .i1⟩ : BufTy).Contents (Elt F)),
    StableHlo.binary main_call0_v7 main_call0_v10 main_call0_v11 (andi : (⟨S800000x1, .i1⟩ : BufTy).Contents (Elt F) → (⟨S800000x1, .i1⟩ : BufTy).Contents (Elt F) → (⟨S800000x1, .i1⟩ : BufTy).Contents (Elt F)),
    StableHlo.nullary main_call0_c_3 (constantI S_ 1 1#1),
    StableHlo.binary main_call0_v11 main_call0_c_3 main_call0_v12 ((fun x v => Host.reduce IntOp.andi x v reducesTo_S800000x1_S800000_d1 h_S_) : (⟨S800000x1, .i1⟩ : BufTy).Contents (Elt F) → (⟨S_, .i1⟩ : BufTy).Contents (Elt F) → (⟨S800000, .i1⟩ : BufTy).Contents (Elt F)),
    StableHlo.binary main_arg0 main_call0_v5 main_call0_v13 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_call0_v12 main_call0_v14 (broadcastInDim S800000x128 ![0] bcast_S800000_S800000x128_0 : (⟨S800000, .i1⟩ : BufTy).Contents (Elt F) → (⟨S800000x128, .i1⟩ : BufTy).Contents (Elt F)),
    StableHlo.nullary main_call0_cst (constant S_ .f32 0x7FC00000#32),
    StableHlo.unary main_call0_cst main_call0_v15 (broadcastInDim S800000x128 ![] bcast_S_S800000x128 : (⟨S_, .f32⟩ : BufTy).Contents (Elt F) → (⟨S800000x128, .f32⟩ : BufTy).Contents (Elt F)),
    StableHlo.ternary main_call0_v14 main_call0_v13 main_call0_v15 main_v0 (select : (⟨S800000x128, .i1⟩ : BufTy).Contents (Elt F) → (⟨S800000x128, .f32⟩ : BufTy).Contents (Elt F) → (⟨S800000x128, .f32⟩ : BufTy).Contents (Elt F) → (⟨S800000x128, .f32⟩ : BufTy).Contents (Elt F)) ]

/-- They are the stretch's operations, one by one. -/
theorem hostOps0_eq_takeOps : (hostOps0 : List (HloOp τ sig (Elt F))) = takeOps :=
  congrArg₂ List.cons (tnullary_eq HEq.rfl)
    (congrArg₂ List.cons (tunary_eq HEq.rfl)
    (congrArg₂ List.cons (tbinary_eq HEq.rfl)
    (congrArg₂ List.cons (tnullary_eq HEq.rfl)
    (congrArg₂ List.cons (tunary_eq HEq.rfl)
    (congrArg₂ List.cons (tbinary_eq HEq.rfl)
    (congrArg₂ List.cons (tternary_eq HEq.rfl)
    (congrArg₂ List.cons (tunary_eq HEq.rfl)
    (congrArg₂ List.cons (tnullary_eq HEq.rfl)
    (congrArg₂ List.cons (tnullary_eq HEq.rfl)
    (congrArg₂ List.cons (tunary_eq HEq.rfl)
    (congrArg₂ List.cons (tbinary_eq HEq.rfl)
    (congrArg₂ List.cons (tunary_eq HEq.rfl)
    (congrArg₂ List.cons (tunary_eq HEq.rfl)
    (congrArg₂ List.cons (tbinary_eq HEq.rfl)
    (congrArg₂ List.cons (tbinary_eq HEq.rfl)
    (congrArg₂ List.cons (tnullary_eq HEq.rfl)
    (congrArg₂ List.cons (tbinary_eq HEq.rfl)
    (congrArg₂ List.cons (tbinary_eq HEq.rfl)
    (congrArg₂ List.cons (tunary_eq HEq.rfl)
    (congrArg₂ List.cons (tnullary_eq HEq.rfl)
    (congrArg₂ List.cons (tunary_eq HEq.rfl)
    (congrArg₂ List.cons (tternary_eq HEq.rfl)
    (rfl)))))))))))))))))))))))

end Plain

/-! ## Reading the take's operations at an index -/

section Reads

/-- A vector laid along the first axis of an [n × m] rectangle reads, at (p, q), the vector at `p`. -/
theorem bcast_rows_apply {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- The conjunction of one-bit words is commutative and associative: the order of a reduction by it is immaterial. -/
local instance andiComm : Std.Commutative (IntOp.andi (w := 1)) := ⟨BitVec.and_comm⟩
local instance andiAssoc : Std.Associative (IntOp.andi (w := 1)) := ⟨BitVec.and_assoc⟩

/-- A reduction by conjunction, from the bit 1, of an [n × 1] column along its axis of size one reads, at `e`,
    the column's entry (e, 0): the one index that reduces into `e`. -/
theorem reduce_andi_col {n : Nat} {u : Shape} (x : IVec ⟨2, ![n, 1]⟩ 1) (init : u.Idx → BitVec 1)
    (h : (⟨2, ![n, 1]⟩ : Shape).ReducesTo [1] ⟨1, ![n]⟩) (hu : 0 < u.numel)
    (hinit : init (Shape.Idx.first hu) = 1#1) (e : Fin n) :
    Host.reduce IntOp.andi x init h hu (ix1 e) = x (ix2 e (0 : Fin 1)) := by
  classical
  rw [Host.reduce_eq_fold]
  have hset : (Finset.univ.filter fun i : (⟨2, ![n, 1]⟩ : Shape).Idx => h.drop i = ix1 e) = {ix2 e (0 : Fin 1)} := by
    ext i
    simp only [Finset.mem_filter, Finset.mem_univ, true_and, Finset.mem_singleton]
    have hv : (h.drop i 0 : Nat) = i 0 := Shape.ReducesTo.drop_apply_val h i 0
    constructor
    · intro hd
      rw [hd] at hv
      funext b
      match b with
      | ⟨0, _⟩ => exact Fin.ext hv.symm
      | ⟨1, _⟩ => exact Subsingleton.elim (α := Fin 1) _ _
    · intro hi
      subst hi
      funext b
      have hb : b = 0 := Subsingleton.elim _ _
      subst hb
      exact Fin.ext hv
  rw [hset, Finset.fold_singleton, hinit]
  rcases BitVec.eq_zero_or_eq_one (x (ix2 e (0 : Fin 1))) with h0 | h1
  · rw [h0]; rfl
  · rw [h1]; rfl

/-- A one-bit conjunction is 1 exactly when both bits are. -/
theorem andi_one_iff (c d : BitVec 1) : IntOp.andi c d = 1#1 ↔ c = 1#1 ∧ d = 1#1 := by revert c d; decide

/-- The take's wrap of an index word: 50000 added to a negative word. -/
theorem wrap_select (w : BitVec 32) :
    Scalar.select (IntOp.cmpi .slt w 0#32) (IntOp.addi w 50000#32) w = Cert.Spec.wrapWord w := by
  have h0 : (0#32 : BitVec 32).toInt = 0 := by decide
  unfold Cert.Spec.wrapWord
  by_cases h : w.toInt < 0
  · have hc : IntOp.cmpi .slt w 0#32 = 1#1 := by
      show BitVec.ofBool (w.slt 0#32) = 1#1
      rw [StableHlo.Predicate.ofBool_eq_one_iff]
      simp only [BitVec.slt, h0, decide_eq_true_eq]; exact h
    rw [hc, select_one, if_pos h]; rfl
  · have hc : IntOp.cmpi .slt w 0#32 = 0#1 := by
      apply eq_zero_of_ne_one
      show ¬ BitVec.ofBool (w.slt 0#32) = 1#1
      rw [StableHlo.Predicate.ofBool_eq_one_iff]
      simp only [BitVec.slt, h0, decide_eq_true_eq]; exact h
    rw [hc, select_zero, if_neg h]

/-- The take's mask on a wrapped word: it names a row, 0 ≤ · ≤ 49999 read signed. -/
theorem mask_iff (v : BitVec 32) :
    IntOp.andi (IntOp.cmpi .sge v 0#32) (IntOp.cmpi .sle v 49999#32) = 1#1 ↔ (0 ≤ v.toInt ∧ v.toInt ≤ 49999) := by
  have h0 : (0#32 : BitVec 32).toInt = 0 := by decide
  have h1 : (49999#32 : BitVec 32).toInt = 49999 := by decide
  rw [andi_one_iff]
  show BitVec.ofBool ((0#32 : BitVec 32).sle v) = 1#1 ∧ BitVec.ofBool (v.sle 49999#32) = 1#1 ↔ _
  simp only [StableHlo.Predicate.ofBool_eq_one_iff, BitVec.sle, h0, h1, decide_eq_true_eq]

/-- The wrapped destination words as the column the gather and the mask read. -/
abbrev wrapCol (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The column at (e, 0) is the wrapped word of edge `e`. -/
theorem wrapCol_apply (idx : IVec S800000 32) (e : Fin 800000) :
    wrapCol idx (ix2 e (0 : Fin 1)) = Cert.Spec.wrapWord (idx (ix1 e)) := by
  unfold wrapCol
  rw [bcast_rows_apply]
  exact wrap_select (idx (ix1 e))

/-- The take in fill mode, read index by index: the row the wrapped word names where it names one, the fill elsewhere. -/
theorem take_read (x : FVec Ideal S50000x128 .f32) (idx : IVec S800000 32) :
    select
      (broadcastInDim S800000x128 ![0] bcast_S800000_S800000x128_0
        (Host.reduce IntOp.andi
          (andi (cmpi .sge (wrapCol idx) (broadcastInDim S800000x1 ![] bcast_S_S800000x1 (constantI S_ 32 0#32)))
            (cmpi .sle (wrapCol idx) (broadcastInDim S800000x1 ![0, 1] bcast_S1x1_S800000x1_0_1
              (broadcastInDim S1x1 ![1] bcast_S1_S1x1_1 (constantI S1 32 49999#32)))))
          (constantI S_ 1 1#1) reducesTo_S800000x1_S800000_d1 h_S_))
      (Host.gather gather_S50000x128_S800000x1_S800000x128_1_0_n_n_0_1_1128 x (wrapCol idx))
      (broadcastInDim S800000x128 ![] bcast_S_S800000x128 (constant (F := Ideal) S_ .f32 0x7FC00000#32))
    = Cert.Spec.arr2 (Cert.Spec.takeFill x idx) := by
  funext i
  obtain ⟨e, j, rfl⟩ : ∃ (e : Fin 800000) (j : Fin 128), i = ix2 e j := ⟨i 0, i 1, eq_ix2 i⟩
  have hM : broadcastInDim S800000x128 ![0] bcast_S800000_S800000x128_0
        (Host.reduce IntOp.andi
          (andi (cmpi .sge (wrapCol idx) (broadcastInDim S800000x1 ![] bcast_S_S800000x1 (constantI S_ 32 0#32)))
            (cmpi .sle (wrapCol idx) (broadcastInDim S800000x1 ![0, 1] bcast_S1x1_S800000x1_0_1
              (broadcastInDim S1x1 ![1] bcast_S1_S1x1_1 (constantI S1 32 49999#32)))))
          (constantI S_ 1 1#1) reducesTo_S800000x1_S800000_d1 h_S_) (ix2 e j)
      = IntOp.andi (IntOp.cmpi .sge (Cert.Spec.wrapWord (idx (ix1 e))) 0#32)
          (IntOp.cmpi .sle (Cert.Spec.wrapWord (idx (ix1 e))) 49999#32) := by
    rw [bcast_rows_apply, reduce_andi_col _ _ _ _ rfl e, ← wrapCol_apply idx e]
    rfl
  have hG : Host.gather gather_S50000x128_S800000x1_S800000x128_1_0_n_n_0_1_1128 x (wrapCol idx) (ix2 e j)
      = x (ix2 (Cert.Spec.wrapRow (idx (ix1 e))) j) := by
    have hd : gather_S50000x128_S800000x1_S800000x128_1_0_n_n_0_1_1128
        = rowGatherDims 50000 800000 128 gather_S50000x128_S800000x1_S800000x128_1_0_n_n_0_1_1128_wf := rfl
    have hr : gatherRow (N := 50000) (by decide) (wrapCol idx) e = Cert.Spec.wrapRow (idx (ix1 e)) := by
      apply Fin.ext
      show min (wrapCol idx (ix2 e (0 : Fin 1))).toInt.toNat (50000 - 1) = min (Cert.Spec.wrapWord (idx (ix1 e))).toInt.toNat 49999
      rw [wrapCol_apply]
    rw [hd, rowGather_apply (by decide : 0 < 50000), hr]
  have hF : broadcastInDim S800000x128 ![] bcast_S_S800000x128 (constant (F := Ideal) S_ .f32 0x7FC00000#32) (ix2 e j)
      = Ideal.ofBits .f32 0x7FC00000#32 := rfl
  rw [select_apply, hM, hG, hF]
  show _ = if Cert.Spec.inRows (idx (ix1 e)) then x (ix2 (Cert.Spec.wrapRow (idx (ix1 e))) j) else Ideal.ofBits .f32 0x7FC00000#32
  by_cases hin : Cert.Spec.inRows (idx (ix1 e))
  · rw [(mask_iff _).mpr hin, select_one, if_pos hin]
  · rw [eq_zero_of_ne_one (fun hm => hin ((mask_iff _).mp hm)), select_zero, if_neg hin]

end Reads

set_option maxHeartbeats 400000 in
/-- The destination rows' buffer after the take's operations, over any contents the stretch is entered with. -/
theorem take_term (X : Valuation τ sig (Elt Ideal)) :
    StableHlo.after hostOps0 X (Proc.devRef .tc main_v0)
      = Cert.Spec.arr2 (Cert.Spec.takeFill (X (Proc.devRef .tc main_arg0)) (X (Proc.devRef .tc main_arg5))) := by
  rw [hostOps0_eq_takeOps, takeOps]
  after_results_simp
  exact take_read (X (Proc.devRef .tc main_arg0)) (X (Proc.devRef .tc main_arg5))

theorem V2_v0 (c : Dev nD) :
    V2 m ρ c main_v0 = Cert.Spec.arr2 (Cert.Spec.takeFill (m ((c : Thread nD τ).loc main_arg0)) (m ((c : Thread nD τ).loc main_arg5))) :=
  calc V2 m ρ c main_v0
    _ = W1 m ρ c (Proc.devRef .tc main_v0) := by unwritten hostOps0_1
    _ = _ := take_term (W0 m ρ c)

end Cert.KernelIdeal.HostA

end
-- ==== Proof.LibRowScatterAdd.lean ====
/-
  An accumulating scatter of whole rows, read at an index on the extended reals.

  `segment_sum(upd, idx)` of rows `upd : [R, C]` into `[N, C]` lowers to a scatter with an `add` body, update window
  axis 1, inserted window axis 0, the scatter index naming operand axis 0, over the indices as a column `[R, 1]`.
  Update element `(r, q')` lands on operand element `(idx[r, 0], q')` (the index read signed, NOT clamped; outside
  `[0, N)` the update is dropped). So element `(n, q)` of the result is the operand's plus the sum over the rows `r`
  whose index is `n` of `upd (r, q)`: columns never mix, which is why scattering rows laid side by side is scattering
  each part on its own.
-/
import Idealize.ShloMosaic.Lib.ValueIdx
import Idealize.ShloMosaic.PureOps.Ideal.Laws

noncomputable section

namespace Idealize.ShloMosaic.ValueIdx

section RowScatterAdd

/-- Those dimension numbers for an operand `[N, C]`, scatter indices `[R, 1]` and updates `[R, C]`. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Operand axis 1 is not an inserted window axis: it is the one axis the update window runs over. -/
theorem rs_mem_sKept {N R C : Nat}
    (wf : ScatterDims.WF ⟨2, ![N, C]⟩ ⟨2, ![R, 1]⟩ ⟨2, ![R, C]⟩ [1] [0] [0] 1) :
    (1 : Fin 2) ∈ (rowScatterDims N R C wf).sKept := by
  show (1 : Fin 2) ∈ (List.finRange 2).filter (fun a => a ∉ [(0 : Fin 2)])
  decide

/-- Operand axis 0 is the inserted window axis. -/
theorem rs_not_mem_sKept {N R C : Nat}
    (wf : ScatterDims.WF ⟨2, ![N, C]⟩ ⟨2, ![R, 1]⟩ ⟨2, ![R, C]⟩ [1] [0] [0] 1) :
    (0 : Fin 2) ∉ (rowScatterDims N R C wf).sKept := by
  show (0 : Fin 2) ∉ (List.finRange 2).filter (fun a => a ∉ [(0 : Fin 2)])
  decide

/-- On operand axis 0 the window coordinate is `0`. -/
theorem rs_window0 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 0 = 0 := by
  unfold ScatterDims.window
  rw [dif_neg (rs_not_mem_sKept wf)]

/-- On operand axis 1 the window coordinate is the update's column `q'`. -/
theorem rs_window1 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 1 = q'.val := by
  unfold ScatterDims.window
  rw [dif_pos (rs_mem_sKept wf)]
  rfl

/-- On operand axis 1, which the scatter index does not name, the window starts at `0`. -/
theorem rs_start1 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 1 = 0 := by
  unfold ScatterDims.start
  rw [dif_neg (show (1 : Fin 2) ∉ [(0 : Fin 2)] by decide)]

/-- On operand axis 0 the window starts at row `r`'s index `idx[r, 0]`, read signed. -/
theorem rs_start0 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 0 = (idx (ix2 r (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 r q') ⟨List.idxOf (0 : Fin 2) (rowScatterDims N R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update element `(r, q')` lands on `(n, q)` iff row `r`'s index, read signed, is `n`, and the columns agree. -/
theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) (n : Fin N) (q : Fin C) :
    (rowScatterDims N R C wf).resultIdx? (ix2 r q') idx = some (ix2 n q)
      ↔ (idx (ix2 r (0 : Fin 1))).toInt = (n.val : Int) ∧ q' = q := by
  unfold ScatterDims.resultIdx?
  have hN : (![N, C] 0 : Nat) = N := rfl
  have hC : (![N, C] 1 : Nat) = C := rfl
  have hn := n.isLt
  have hq' := q'.isLt
  simp only [Fin.forall_fin_two, rs_start0, rs_start1, rs_window0, rs_window1]
  split
  · rw [Option.some.injEq]
    constructor
    · intro he
      have e0 : ((rowScatterDims N R C wf).start (ix2 r q') idx 0
          + ((rowScatterDims N R C wf).window (ix2 r q') 0 : Nat)).toNat = n.val :=
        congrArg (fun f => (f 0).val) he
      have e1 : ((rowScatterDims N R C wf).start (ix2 r q') idx 1
          + ((rowScatterDims N R C wf).window (ix2 r q') 1 : Nat)).toNat = q.val :=
        congrArg (fun f => (f 1).val) he
      rw [rs_start0, rs_window0] at e0
      rw [rs_start1, rs_window1] at e1
      exact ⟨by omega, Fin.ext (by omega)⟩
    · rintro ⟨e0, e1⟩
      funext a
      refine Fin.ext ?_
      match a with
      | ⟨0, _⟩ =>
        show ((rowScatterDims N R C wf).start (ix2 r q') idx 0
          + ((rowScatterDims N R C wf).window (ix2 r q') 0 : Nat)).toNat = n.val
        rw [rs_start0, rs_window0]; omega
      | ⟨1, _⟩ =>
        show ((rowScatterDims N R C wf).start (ix2 r q') idx 1
          + ((rowScatterDims N R C wf).window (ix2 r q') 1 : Nat)).toNat = q.val
        rw [rs_start1, rs_window1, e1]; omega
  · rename_i h
    constructor
    · intro he; cases he
    · rintro ⟨e0, e1⟩
      exact absurd ⟨⟨by omega, by omega⟩, by omega, by omega⟩ h

/-- THE ROW SCATTER-ADD READ AT `(n, q)` on the extended reals: the operand's element plus the sum, over the rows whose
    index is `n`, of the update's element in column `q`. -/
theorem rowScatterAdd_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowScatterDims N R C wf) x idx upd (ix2 n q)
      = x (ix2 n q) + ∑ r : Fin R, if (idx (ix2 r (0 : Fin 1))).toInt = (n.val : Int) then upd (ix2 r q) else 0 := by
  show x (ix2 n q) + ∑ j ∈ Finset.univ.filter
      (fun j => (rowScatterDims N R C wf).resultIdx? j idx = some (ix2 n q)), upd j = _
  congr 1
  rw [Finset.sum_filter, sum_idx2]
  refine Finset.sum_congr rfl (fun r _ => ?_)
  simp only [rowScatter_resultIdx_iff]
  by_cases h : (idx (ix2 r (0 : Fin 1))).toInt = (n.val : Int)
  · simp only [h, true_and, if_true]
    rw [Finset.sum_ite_eq' Finset.univ q (fun q' => upd (ix2 r q')), if_pos (Finset.mem_univ q)]
  · simp only [h, false_and, if_false, Finset.sum_const_zero]

end RowScatterAdd

end Idealize.ShloMosaic.ValueIdx

end
-- ==== Proof.HostB.lean ====
import proofs.«413949_j60988535603571_3_alg».proof.Proof.Gen.KernelIdeal.Frame
import proofs.«413949_j60988535603571_3_alg».proof.Proof.Spec
import proofs.«413949_j60988535603571_3_alg».proof.Proof.LibRowScatterAdd
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HostB

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! What the first node pass is entered with: the segment sum of the edge pass's fused output, `W_inv` in the
    narrower format, and `b_inv`. -/

/-- A buffer that no operation of a stretch writes holds after the stretch what it held before. -/
macro "untouched_by " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The row scatter into zeros, read at an index -/

/-- The destination words laid as a column, read at `(e, 0)`: word `e`. -/
theorem dstCol_apply (dst : IVec S800000 32) (e : Fin 800000) :
    broadcastInDim S800000x1 ![0] bcast_S800000_S800000x1_0 dst (ix2 e (0 : Fin 1)) = dst (ix1 e) := by
  refine broadcastInDim_apply _ _ dst _ (ix1 e) (fun a => ?_)
  match a with
  | ⟨0, _⟩ =>
    show e.val = if (800000 : Nat) = 1 then 0 else e.val
    rw [if_neg (by decide)]

/-- The zero pattern spread over `[50000, 256]`, read anywhere: the real zero. -/
theorem zeros_apply (n : Fin 50000) (q : Fin 256) :
    broadcastInDim S50000x256 ![] bcast_S_S50000x256 (constant (F := Ideal) S_ .f32 0x00000000#32) (ix2 n q) = 0 :=
  Ideal.ofBits_zero_f32

/-- At the ideal values the host's accumulating float scatter is the exact sum. -/
theorem scatterAdd_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- The program's dimension numbers for its 256-column row scatter are the row scatter's. -/
theorem rowDims_eq : scatter_S50000x256_S800000x1_S800000x256_1_0_0_1
    = rowScatterDims 50000 800000 256 scatter_S50000x256_S800000x1_S800000x256_1_0_0_1_wf := rfl

/-- A row scatter-add into zeros along the destination words, read at `(n, q)`: the segment sum of column `q`. -/
theorem segRows_at (dst : IVec S800000 32) (z : FVec Ideal S50000x256 .f32) (idx : IVec S800000x1 32)
    (U : FVec Ideal S800000x256 .f32) (hz : ∀ n q, z (ix2 n q) = 0)
    (hidx : ∀ r : Fin 800000, idx (ix2 r (0 : Fin 1)) = dst (ix1 r)) (n : Fin 50000) (q : Fin 256) :
    Host.scatterAdd (F := Ideal) (φ := .f32) scatter_S50000x256_S800000x1_S800000x256_1_0_0_1 z idx U (ix2 n q)
      = Cert.Spec.segSum dst (fun e => U (ix2 e q)) n := by
  rw [rowDims_eq, scatterAdd_ideal, rowScatterAdd_apply, hz, zero_add]
  unfold Cert.Spec.segSum
  simp only [hidx]

/-! ## Buffers walked back to the launch -/

/-- The destination words are as launched when the edge pass ends. -/
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := by untouched_by hostOps0_1
    _ = W0 m ρ c (Proc.devRef .tc main_arg5) := by untouched_by hostOps0
    _ = m ((c : Thread nD τ).loc main_arg5) := rfl

/-- `W_inv` is as launched when the narrowing stretch begins. -/
theorem W1_arg8 (c : Dev nD) : W1 m ρ c (Proc.devRef .tc main_arg8) = m ((c : Thread nD τ).loc main_arg8) :=
  calc W1 m ρ c (Proc.devRef .tc main_arg8)
    _ = W0 m ρ c (Proc.devRef .tc main_arg8) := by untouched_by hostOps0
    _ = m ((c : Thread nD τ).loc main_arg8) := rfl

/-! ## The first node pass's entry contents -/

theorem V4_v17 (c : Dev nD) :
    V4 m ρ c main_v17 = Cert.Spec.arr2 fun n q => Cert.Spec.segSum (m ((c : Thread nD τ).loc main_arg5))
      (fun e => W3 m ρ c (Proc.devRef .tc main_v4_0) (ix2 e q)) n := by
  rw [← W3_arg5 m ρ c]
  show StableHlo.after hostOps1 (W3 m ρ c) (Proc.devRef .tc main_v17) = _
  generalize W3 m ρ c = X
  after_results
  funext i
  obtain ⟨n, q, rfl⟩ : ∃ (n : Fin 50000) (q : Fin 256), i = ix2 n q := ⟨i 0, i 1, eq_ix2 i⟩
  rw [Cert.Spec.arr2_apply]
  exact segRows_at (X (Proc.devRef .tc main_arg5)) _ _ (X (Proc.devRef .tc main_v4_0)) zeros_apply
    (dstCol_apply (X (Proc.devRef .tc main_arg5))) n q
theorem V4_v3 (c : Dev nD) : V4 m ρ c main_v3 = m ((c : Thread nD τ).loc main_arg8) := by
  have h1 : V4 m ρ c main_v3 = W3 m ρ c (Proc.devRef .tc main_v3) := by untouched_by hostOps1
  have h2 : W3 m ρ c (Proc.devRef .tc main_v3) = W2 m ρ c (Proc.devRef .tc main_v3) := W3_of_ne m ρ c main_v3 (by decide)
  have h3 : W2 m ρ c (Proc.devRef .tc main_v3) = W1 m ρ c (Proc.devRef .tc main_arg8) := by
    show StableHlo.after hostOps0_1 (W1 m ρ c) (Proc.devRef .tc main_v3) = _
    generalize W1 m ρ c = X
    after_results
    rfl
  rw [h1, h2, h3, W1_arg8]
theorem V4_arg9 (c : Dev nD) : V4 m ρ c main_arg9 = m ((c : Thread nD τ).loc main_arg9) := by
  calc V4 m ρ c main_arg9
    _ = W3 m ρ c (Proc.devRef .tc main_arg9) := by untouched_by hostOps1
    _ = W2 m ρ c (Proc.devRef .tc main_arg9) := W3_of_ne m ρ c main_arg9 (by decide)
    _ = W1 m ρ c (Proc.devRef .tc main_arg9) := by untouched_by hostOps0_1
    _ = W0 m ρ c (Proc.devRef .tc main_arg9) := by untouched_by hostOps0
    _ = m ((c : Thread nD τ).loc main_arg9) := rfl

end Cert.KernelIdeal.HostB

end
-- ==== Proof.LibCount.lean ====
/-
  An integer accumulating scatter counts. The host's `scatter` with an integer `add` body is a left fold over the
  updates in row-major order; because word addition is commutative and associative, the fold's value at an operand index
  is the operand's word plus the sum of the updates whose result index is that index. With every update the word 1 into a
  zero operand that sum is the NUMBER of updates landing there; while that number is below 2^31 the word read signed is
  the number, and converting it to a float gives, on the extended reals, exactly what the accumulating float scatter of
  ones into zeros gives: the two ways of counting in-degrees agree.
-/
import Idealize.ShloMosaic.PureOps.Ideal
import Idealize.ShloMosaic.PureOps.Ideal.Laws
import Idealize.ShloMosaic.Lib.WordSum

noncomputable section

namespace Idealize.ShloMosaic.LibCount

open Idealize.ShloMosaic

/-- One pass of the scatter's fold over ANY list of update positions, read at one operand index: the accumulator's word
    there plus, over the list, each update whose result index is that operand index (the others add the word zero).
    A step whose update lands at the index adds that update to the entry; a step that lands elsewhere, or outside the
    operand, leaves the entry as it was; associativity of word addition collects the additions on the right. -/
private theorem foldl_step_apply {s si u : Shape} {w w' : Nat} (d : ScatterDims s si u) (idx : IVec si w')
    (upd : u.Idx → BitVec w) (i : s.Idx) (l : List (Fin u.numel)) (r : s.Idx → BitVec w) :
    (l.foldl (fun r n =>
        match d.resultIdx? (u.rowMajor.symm n) idx with
        | some i => fun i' => if i' = i then IntOp.addi (r i) (upd (u.rowMajor.symm n)) else r i'
        | none => r) r) i
      = r i + (l.map (fun n =>
          if d.resultIdx? (u.rowMajor.symm n) idx = some i then upd (u.rowMajor.symm n) else 0)).sum := by
  induction l generalizing r with
  | nil => simp
  | cons n l ih =>
    rw [List.foldl_cons, ih, List.map_cons, List.sum_cons]
    cases hk : d.resultIdx? (u.rowMajor.symm n) idx with
    | none => simp
    | some k =>
      by_cases hki : k = i
      · subst hki
        simp [IntOp.addi, add_assoc]
      · have hik : ¬ i = k := fun h => hki h.symm
        simp [hki, hik]

/-- The integer accumulating scatter at an operand index: the operand's word plus the sum of the updates that land there. -/
theorem scatter_addi_apply {s si u : Shape} {w w' : Nat} (d : ScatterDims s si u) (x : s.Idx → BitVec w) (idx : IVec si w')
    (upd : u.Idx → BitVec w) (i : s.Idx) :
    Host.scatter d IntOp.addi x idx upd i
      = x i + ∑ j ∈ Finset.univ.filter (fun j => d.resultIdx? j idx = some i), upd j := by
  -- the fold over all positions in order, then: a list sum over every position is the sum over the positions' finite
  -- type; the row-major numbering is a bijection with the update indices; and a sum of "the update or zero" is the sum
  -- over the indices that pass the test
  refine (foldl_step_apply d idx upd i (List.finRange u.numel) x).trans ?_
  rw [← Fin.sum_univ_def, Finset.sum_filter,
    ← Equiv.sum_comp u.rowMajor.symm (fun j => if d.resultIdx? j idx = some i then upd j else 0)]

/-- Counting with words and counting with reals agree: the signed reading of the integer scatter of ones into zeros,
    as a float, is the float accumulating scatter of ones into zeros (fewer than 2^31 updates in all). -/
theorem sitofp_scatter_ones {s si u : Shape} {w' : Nat} (d : ScatterDims s si u) (idx : IVec si w') (hu : u.numel < 2 ^ 31)
    (i : s.Idx) :
    FloatOps.sitofp (F := Ideal) .f32 (Host.scatter d IntOp.addi (fun _ => 0#32) idx (fun _ => 1#32) i)
      = Ideal.hostScatterAdd d (fun _ => (0 : EReal)) idx (fun _ => (1 : EReal)) i := by
  -- the set of updates that land at the index, and its size: at most the number of update indices, so below 2^31
  set S := Finset.univ.filter (fun j : u.Idx => d.resultIdx? j idx = some i) with hS
  have hcard : S.card < 2 ^ 31 :=
    lt_of_le_of_lt ((Finset.card_le_univ S).trans_eq u.card_idx) hu
  -- the word: zero plus a sum of ones that stays inside the word, so its value is the size of the set
  have hnat : (∑ _j ∈ S, (1#32 : BitVec 32)).toNat = S.card := by
    have h1 : ∑ _j ∈ S, ((1#32 : BitVec 32)).toNat = S.card := by simp
    rw [WordSum.toNat_sum S (fun _ => (1#32 : BitVec 32)) (by rw [h1]; omega), h1]
  -- below 2^31 the signed reading is the value
  have hint : (∑ _j ∈ S, (1#32 : BitVec 32)).toInt = (S.card : ℤ) := by
    rw [BitVec.toInt_eq_toNat_of_lt (by rw [hnat]; omega), hnat]
  rw [scatter_addi_apply]
  show ((((0#32 : BitVec 32) + ∑ _j ∈ S, (1#32 : BitVec 32)).toInt : ℝ) : EReal) = (0 : EReal) + ∑ _j ∈ S, (1 : EReal)
  rw [show (0#32 : BitVec 32) = 0 from rfl, zero_add, zero_add, hint, Finset.sum_const, nsmul_one,
    Int.cast_natCast, EReal.coe_natCast]

end Idealize.ShloMosaic.LibCount

end
-- ==== Proof.LibHostRead.lean ====
/-
  Two readings at the ideal values that the library's index vocabulary does not have: the host's float quotient at an
  index, and a 32-bit index word read signed that lands in a range [0, K).
-/
import Idealize.ShloMosaic.PureOps.Ideal
import Idealize.ShloMosaic.Lib.ValueIdx

namespace Idealize.ShloMosaic.ValueIdx

open Idealize.ShloMosaic

/-- The host's float quotient (`stablehlo.divide`) read at an index, at the ideal values: the extended reals' quotient
    of the operands' entries (the host's twin of `divf_apply`). -/
theorem hostDivf_apply {s : Shape} {φ : FTy} (a b : FVec Ideal s φ) (i : s.Idx) :
    Host.divf a b i = Ideal.div (a i) (b i) := rfl

/-- A 32-bit word read SIGNED lies in [0, K) at the natural number `k < K` (with K ≤ 2³¹) exactly when the word read
    UNSIGNED is `k`: what a scatter's or a gather's start index, which is read signed and dropped outside the operand,
    says of an index word when the target position is inside the operand. -/
theorem toInt_lands_iff (w : BitVec 32) {K : ℤ} {k : ℕ} (hK : K ≤ 2 ^ 31) (hk : (k : ℤ) < K) :
    (0 ≤ w.toInt ∧ w.toInt < K ∧ w.toInt.toNat = k) ↔ w.toNat = k := by
  have h := w.isLt
  rw [BitVec.toInt_eq_toNat_cond]
  split <;> omega

end Idealize.ShloMosaic.ValueIdx
-- ==== Proof.HostB14.lean ====
import proofs.«413949_j60988535603571_3_alg».proof.Proof.Gen.KernelIdeal.Frame
import proofs.«413949_j60988535603571_3_alg».proof.Proof.Spec
import proofs.«413949_j60988535603571_3_alg».proof.Proof.LibCount
import proofs.«413949_j60988535603571_3_alg».proof.Proof.LibHostRead
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HostB14

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## A scatter of single words into a vector: where update `e` lands -/

section Rank1Scatter

/-- The dimension numbers of a scatter into a vector `[N]` of single elements `[R]` at the indices `[R, 1]`: no update
    window axis, operand axis 0 inserted, the index naming operand axis 0. -/
abbrev r1Dims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Operand axis 0 is the inserted window axis: no operand axis is kept. -/
theorem r1_not_mem_sKept {N R : Nat} (wf : ScatterDims.WF ⟨1, ![N]⟩ ⟨2, ![R, 1]⟩ ⟨1, ![R]⟩ [] [0] [0] 1) :
    (0 : Fin 1) ∉ (r1Dims N R wf).sKept := by
  show (0 : Fin 1) ∉ (List.finRange 1).filter (fun a => a ∉ [(0 : Fin 1)])
  decide

/-- The window coordinate on operand axis 0 is `0`. -/
theorem r1_window0 {N R : Nat} (wf : ScatterDims.WF ⟨1, ![N]⟩ ⟨2, ![R, 1]⟩ ⟨1, ![R]⟩ [] [0] [0] 1) (e : Fin R) :
    (r1Dims N R wf).window (ix1 e) 0 = 0 := by
  unfold ScatterDims.window
  rw [dif_neg (r1_not_mem_sKept wf)]

/-- On operand axis 0 the window starts at update `e`'s index word `idx[e, 0]`, read signed. -/
theorem r1_start0 {N R w : Nat} (wf : ScatterDims.WF ⟨1, ![N]⟩ ⟨2, ![R, 1]⟩ ⟨1, ![R]⟩ [] [0] [0] 1)
    (idx : IVec ⟨2, ![R, 1]⟩ w) (e : Fin R) :
    (r1Dims N R wf).start (ix1 e) idx 0 = (idx (ix2 e (0 : Fin 1))).toInt := by
  unfold ScatterDims.start
  rw [dif_pos (show (0 : Fin 1) ∈ (r1Dims N R wf).scatterDimsToOperandDims from List.mem_singleton.mpr rfl)]
  have hsi : (r1Dims N R wf).siIdx (ix1 e) ⟨List.idxOf (0 : Fin 1) (r1Dims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Update `e` lands on operand element `n` exactly when its index word, read signed, is `n`. -/
theorem r1_resultIdx_iff {N R w : Nat} (wf : ScatterDims.WF ⟨1, ![N]⟩ ⟨2, ![R, 1]⟩ ⟨1, ![R]⟩ [] [0] [0] 1)
    (idx : IVec ⟨2, ![R, 1]⟩ w) (e : Fin R) (n : Fin N) :
    (r1Dims N R wf).resultIdx? (ix1 e) idx = some (ix1 n) ↔ (idx (ix2 e (0 : Fin 1))).toInt = (n.val : Int) := by
  unfold ScatterDims.resultIdx?
  have hN : (![N] 0 : Nat) = N := rfl
  have hn := n.isLt
  simp only [Fin.forall_fin_one, r1_start0, r1_window0]
  split
  · rw [Option.some.injEq]
    constructor
    · intro he
      have e0 : ((r1Dims N R wf).start (ix1 e) idx 0 + ((r1Dims N R wf).window (ix1 e) 0 : Nat)).toNat = n.val :=
        congrArg (fun f => (f 0).val) he
      rw [r1_start0, r1_window0] at e0
      omega
    · intro e0
      funext a
      refine Fin.ext ?_
      match a with
      | ⟨0, _⟩ =>
        show ((r1Dims N R wf).start (ix1 e) idx 0 + ((r1Dims N R wf).window (ix1 e) 0 : Nat)).toNat = n.val
        rw [r1_start0, r1_window0]; omega
  · rename_i h
    constructor
    · intro he; cases he
    · intro e0
      exact absurd ⟨by omega, by omega⟩ h

/-- The accumulating scatter of ones into a zero vector, read at `n`: the number of updates whose index word is `n`,
    as a sum of ones over them. -/
theorem r1_scatterAdd_ones {N R w : Nat} (wf : ScatterDims.WF ⟨1, ![N]⟩ ⟨2, ![R, 1]⟩ ⟨1, ![R]⟩ [] [0] [0] 1)
    (idx : IVec ⟨2, ![R, 1]⟩ w) (n : Fin N) :
    Ideal.hostScatterAdd (r1Dims N R wf) (fun _ => (0 : EReal)) idx (fun _ => (1 : EReal)) (ix1 n)
      = ∑ e : Fin R, if (idx (ix2 e (0 : Fin 1))).toInt = (n.val : Int) then (1 : EReal) else 0 := by
  show (0 : EReal) + ∑ j ∈ Finset.univ.filter
      (fun j => (r1Dims N R wf).resultIdx? j idx = some (ix1 n)), (1 : EReal) = _
  rw [zero_add, Finset.sum_filter]
  refine (Equiv.sum_comp idxEquiv1.symm _).symm.trans ?_
  refine Finset.sum_congr rfl (fun e _ => ?_)
  show (if (r1Dims N R wf).resultIdx? (ix1 e) idx = some (ix1 n) then (1 : EReal) else 0) = _
  simp only [r1_resultIdx_iff]

end Rank1Scatter

/-! ## Broadcasts read at an index -/

/-- A vector laid out as a one-column matrix reads, at `(p, u)`, the vector at `p`. -/
theorem bcast_col_apply {α : Type} {n : Nat} (h : (⟨1, ![n]⟩ : Shape).BroadcastsInDim ⟨2, ![n, 1]⟩ ![0])
    (x : (⟨1, ![n]⟩ : Shape).Idx → α) (p : Fin n) (u : Fin 1) :
    broadcastInDim ⟨2, ![n, 1]⟩ ![0] h x (ix2 p u) = x (ix1 p) := by
  refine broadcastInDim_apply ![0] h x (ix2 p u) (ix1 p) ?_
  intro a
  match a with
  | ⟨0, _⟩ =>
    show p.val = if n = 1 then 0 else p.val
    split
    · have := p.isLt; omega
    · rfl

/-- A scalar broadcast to any shape reads the scalar everywhere. -/
theorem bcast_scalar_apply {α : Type} {T : Shape} (h : (⟨0, ![]⟩ : Shape).BroadcastsInDim T ![])
    (x : (⟨0, ![]⟩ : Shape).Idx → α) (j : T.Idx) : broadcastInDim T ![] h x j = x ix0 :=
  broadcastInDim_apply ![] h x j ix0 (fun a => a.elim0)

/-- The in-degree count, in words and then as a real: the signed reading of the word scatter of ones into zeros at the
    destination words is the number of edges landing at the node, as a sum of ones. -/
theorem count_as_deg {N R : Nat} (wf : ScatterDims.WF ⟨1, ![N]⟩ ⟨2, ![R, 1]⟩ ⟨1, ![R]⟩ [] [0] [0] 1)
    (hR : R < 2 ^ 31) (hb : (⟨1, ![R]⟩ : Shape).BroadcastsInDim ⟨2, ![R, 1]⟩ ![0])
    (dst : (⟨1, ![R]⟩ : Shape).Idx → BitVec 32) (n : Fin N) :
    FloatOps.sitofp (F := Ideal) .f32
        (Host.scatter (r1Dims N R wf) IntOp.addi (fun _ => 0#32) (broadcastInDim ⟨2, ![R, 1]⟩ ![0] hb dst) (fun _ => 1#32) (ix1 n))
      = ∑ e : Fin R, if (dst (ix1 e)).toInt = (n.val : Int) then (1 : EReal) else 0 := by
  rw [LibCount.sitofp_scatter_ones (r1Dims N R wf) _ (by rw [Shape.numel_rank1]; exact hR) (ix1 n), r1_scatterAdd_ones]
  refine Finset.sum_congr rfl (fun e _ => ?_)
  rw [bcast_col_apply]

/-- The program's count scatter has those dimension numbers. -/
theorem countDims_eq : scatter_S50000_S800000x1_S800000_n_0_0_1
    = r1Dims 50000 800000 scatter_S50000_S800000x1_S800000_n_0_0_1_wf := rfl

/-- The first node pass is entered with the factor `1 / max(in-degree, 1)`: the in-degree counted in integer words and
    read as a real is the sum of ones over the edges that land at the node. -/
theorem V4_v14 (c : Dev nD) :
    V4 m ρ c main_v14 = Cert.Spec.arr2 fun n (_ : Fin 1) => Ideal.div 1 (Cert.Spec.denom (m ((c : Thread nD τ).loc main_arg5)) n) := by
  -- the destination words are as launched: no host operation and no pass before this one writes them
  have harg : W3 m ρ c (Proc.devRef .tc main_arg5) = m ((c : Thread nD τ).loc main_arg5) :=
    calc W3 m ρ c (Proc.devRef .tc main_arg5)
      _ = W2 m ρ c (Proc.devRef .tc main_arg5) := W3_of_ne m ρ c main_arg5 (by decide)
      _ = W1 m ρ c (Proc.devRef .tc main_arg5) := StableHlo.after_of_forall_not_mem (b := Proc.devRef .tc main_arg5) _ _ (List.forall_iff_forall_mem.mp (by
            simp only [hostOps0_1, List.flatten_cons, List.flatten_nil, List.append_nil, List.cons_append,
              List.nil_append, List.Forall, StableHlo.nullary_writes, StableHlo.unary_writes, StableHlo.binary_writes, StableHlo.ternary_writes, StableHlo.quaternary_writes, StableHlo.reshape_writes, StableHlo.binaryIndexed_writes, Finset.mem_singleton]
            repeat' apply And.intro
            all_goals exact StableHlo.devRef_ne_of_ne (by decide)))
      _ = W0 m ρ c (Proc.devRef .tc main_arg5) := StableHlo.after_of_forall_not_mem (b := Proc.devRef .tc main_arg5) _ _ (List.forall_iff_forall_mem.mp (by
            simp only [hostOps0, List.flatten_cons, List.flatten_nil, List.append_nil, List.cons_append,
              List.nil_append, List.Forall, StableHlo.nullary_writes, StableHlo.unary_writes, StableHlo.binary_writes, StableHlo.ternary_writes, StableHlo.quaternary_writes, StableHlo.reshape_writes, StableHlo.binaryIndexed_writes, Finset.mem_singleton]
            repeat' apply And.intro
            all_goals exact StableHlo.devRef_ne_of_ne (by decide)))
      _ = m ((c : Thread nD τ).loc main_arg5) := rfl
  show StableHlo.after hostOps1 (W3 m ρ c) (Proc.devRef .tc main_v14) = _
  after_results
  rw [harg]
  funext i
  obtain ⟨n, u, rfl⟩ : ∃ n u, i = ix2 n u := ⟨i 0, i 1, eq_ix2 i⟩
  rw [Cert.Spec.arr2_apply, hostDivf_apply, bcast_col_apply, maximumf_apply, sitofp_apply, bcast_scalar_apply,
    bcast_scalar_apply, constant_apply, Cert.Spec.ofBits_one, countDims_eq]
  have hz : (broadcastInDim S50000 ![] bcast_S_S50000 (constantI S_ 32 0#32) : S50000.Idx → BitVec 32) = fun _ => 0#32 :=
    funext fun j => bcast_scalar_apply _ _ j
  have ho : (broadcastInDim S800000 ![] bcast_S_S800000 (constantI S_ 32 1#32) : S800000.Idx → BitVec 32) = fun _ => 1#32 :=
    funext fun j => bcast_scalar_apply _ _ j
  rw [hz, ho, count_as_deg _ (by norm_num)]
  unfold Cert.Spec.denom Cert.Spec.deg Cert.Spec.segSum
  rfl

end Cert.KernelIdeal.HostB14

end
-- ==== Proof.HostBCW.lean ====
import proofs.«413949_j60988535603571_3_alg».proof.Proof.Gen.KernelIdeal.Frame
import proofs.«413949_j60988535603571_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HostBCW

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! The second node pass is entered with `norm` and `bias_v` as launched, and the second result buffer is untouched
    after the edge pass. -/

/-- A stretch of host operations leaves a buffer none of them writes as it was: the buffer differs from each
    operation's result buffer. -/
local macro "stretch_keeps " ops:ident b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

theorem V7_arg3 (c : Dev nD) : V7 m ρ c main_arg3 = m ((c : Thread nD τ).loc main_arg3) := by
  calc V7 m ρ c main_arg3
    _ = W6 m ρ c (Proc.devRef .tc main_arg3) := by stretch_keeps hostOps2_1 main_arg3
    _ = W5 m ρ c (Proc.devRef .tc main_arg3) := by stretch_keeps hostOps2 main_arg3
    _ = W4 m ρ c (Proc.devRef .tc main_arg3) := W5_of_ne m ρ c main_arg3 (by decide)
    _ = W3 m ρ c (Proc.devRef .tc main_arg3) := by stretch_keeps hostOps1 main_arg3
    _ = W2 m ρ c (Proc.devRef .tc main_arg3) := W3_of_ne m ρ c main_arg3 (by decide)
    _ = W1 m ρ c (Proc.devRef .tc main_arg3) := by stretch_keeps hostOps0_1 main_arg3
    _ = W0 m ρ c (Proc.devRef .tc main_arg3) := by stretch_keeps hostOps0 main_arg3
    _ = m ((c : Thread nD τ).loc main_arg3) := rfl
theorem V7_arg12 (c : Dev nD) : V7 m ρ c main_arg12 = m ((c : Thread nD τ).loc main_arg12) := by
  calc V7 m ρ c main_arg12
    _ = W6 m ρ c (Proc.devRef .tc main_arg12) := by stretch_keeps hostOps2_1 main_arg12
    _ = W5 m ρ c (Proc.devRef .tc main_arg12) := by stretch_keeps hostOps2 main_arg12
    _ = W4 m ρ c (Proc.devRef .tc main_arg12) := W5_of_ne m ρ c main_arg12 (by decide)
    _ = W3 m ρ c (Proc.devRef .tc main_arg12) := by stretch_keeps hostOps1 main_arg12
    _ = W2 m ρ c (Proc.devRef .tc main_arg12) := W3_of_ne m ρ c main_arg12 (by decide)
    _ = W1 m ρ c (Proc.devRef .tc main_arg12) := by stretch_keeps hostOps0_1 main_arg12
    _ = W0 m ρ c (Proc.devRef .tc main_arg12) := by stretch_keeps hostOps0 main_arg12
    _ = m ((c : Thread nD τ).loc main_arg12) := rfl
theorem W8_v4_1 (c : Dev nD) : W8 m ρ c (Proc.devRef .tc main_v4_1) = W3 m ρ c (Proc.devRef .tc main_v4_1) := by
  calc W8 m ρ c (Proc.devRef .tc main_v4_1)
    _ = W7 m ρ c (Proc.devRef .tc main_v4_1) := W8_of_ne m ρ c main_v4_1 (by decide)
    _ = W6 m ρ c (Proc.devRef .tc main_v4_1) := by stretch_keeps hostOps2_1 main_v4_1
    _ = W5 m ρ c (Proc.devRef .tc main_v4_1) := by stretch_keeps hostOps2 main_v4_1
    _ = W4 m ρ c (Proc.devRef .tc main_v4_1) := W5_of_ne m ρ c main_v4_1 (by decide)
    _ = W3 m ρ c (Proc.devRef .tc main_v4_1) := by stretch_keeps hostOps1 main_v4_1

end Cert.KernelIdeal.HostBCW

end
-- ==== Proof.HostC.lean ====
import proofs.«413949_j60988535603571_3_alg».proof.Proof.Gen.KernelIdeal.Frame
import proofs.«413949_j60988535603571_3_alg».proof.Proof.Spec
import proofs.«413949_j60988535603571_3_alg».proof.Proof.LibRowScatterAdd
import proofs.«413949_j60988535603571_3_alg».proof.Proof.LibRowGather
import Idealize.ShloMosaic.Lib.ValueIdx
import Idealize.ShloMosaic.Lib.ValueLayout
import Idealize.ShloMosaic.Lib.Pipeline.Value
import Idealize.ShloMosaic.PureOps.Reduce
import Idealize.ShloMosaic.PureOps.Ideal.Laws

set_option maxRecDepth 16384

noncomputable section

open scoped BigOperators

namespace Cert.KernelIdeal.HostC

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## Words: the comparisons and the conjunction the row test is made of -/

private theorem ofBool_one (b : Bool) : BitVec.ofBool b = 1#1 ↔ b = true := by cases b <;> decide

/-- "Less than zero, read signed" as a bit. -/
theorem cmpi_slt_zero (w : BitVec 32) : IntOp.cmpi .slt w 0#32 = 1#1 ↔ w.toInt < 0 := by
  show BitVec.ofBool (w.slt 0#32) = 1#1 ↔ _
  rw [ofBool_one]
  simp only [BitVec.slt, decide_eq_true_eq]
  rw [show (0#32 : BitVec 32).toInt = 0 from by decide]

/-- "At least zero, read signed" as a bit. -/
theorem cmpi_sge_zero (w : BitVec 32) : IntOp.cmpi .sge w 0#32 = 1#1 ↔ 0 ≤ w.toInt := by
  show BitVec.ofBool ((0#32 : BitVec 32).sle w) = 1#1 ↔ _
  rw [ofBool_one]
  simp only [BitVec.sle, decide_eq_true_eq]
  rw [show (0#32 : BitVec 32).toInt = 0 from by decide]

/-- "At most 49999, read signed" as a bit. -/
theorem cmpi_sle_last (w : BitVec 32) : IntOp.cmpi .sle w 49999#32 = 1#1 ↔ w.toInt ≤ 49999 := by
  show BitVec.ofBool (w.sle 49999#32) = 1#1 ↔ _
  rw [ofBool_one]
  simp only [BitVec.sle, decide_eq_true_eq]
  rw [show (49999#32 : BitVec 32).toInt = 49999 from by decide]

/-- The conjunction of two bits is set exactly when both are. -/
theorem andi_bits (c d : BitVec 1) : IntOp.andi c d = 1#1 ↔ c = 1#1 ∧ d = 1#1 := by revert c d; decide

/-- A select on "the word is negative" is the `if` on its signed reading. -/
theorem select_slt_zero {α : Type} (w : BitVec 32) (a b : α) :
    Scalar.select (IntOp.cmpi .slt w 0#32) a b = if w.toInt < 0 then a else b := by
  by_cases h : w.toInt < 0
  · rw [(cmpi_slt_zero w).2 h, select_one, if_pos h]
  · rw [eq_zero_of_ne_one (fun hc => h ((cmpi_slt_zero w).1 hc)), select_zero, if_neg h]

/-- A conjunction with the set bit changes nothing. -/
theorem andi_one (b : BitVec 1) : IntOp.andi b 1#1 = b := by revert b; decide

/-! ## A reduction by conjunction over an axis of size one -/

/-- Reducing an [n × 1] column of bits by conjunction over its second axis, from the set bit, leaves the column's bit:
    the one index that drops to `e` is `(e, 0)`. -/
theorem reduce_andi_unit_axis {n : Nat} (v : IVec ⟨2, ![n, 1]⟩ 1)
    (h : (⟨2, ![n, 1]⟩ : Shape).ReducesTo [1] ⟨1, ![n]⟩) {u : Shape} (hu : 0 < u.numel) (e : Fin n) :
    Host.reduce IntOp.andi v (constantI u 1 1#1) h hu (ix1 e) = v (ix2 e (0 : Fin 1)) := by
  rw [Host.reduce_eq_fold]
  have hdrop : ∀ i : (⟨2, ![n, 1]⟩ : Shape).Idx, h.drop i = ix1 e ↔ i = ix2 e (0 : Fin 1) := by
    intro i
    have hv : (h.drop i 0 : Nat) = i 0 := Shape.ReducesTo.drop_apply_val h i 0
    constructor
    · intro he
      rw [he] at hv
      have h0 : i 0 = e := Fin.ext hv.symm
      have h1 : i 1 = (0 : Fin 1) := Fin.ext (by have := idx2_lt1 i; show (i 1).val = 0; omega)
      exact (eq_ix2 i).trans (by rw [h0, h1] <;> rfl)
    · rintro rfl
      funext b
      have hb : b = 0 := Subsingleton.elim _ _
      subst hb
      exact Fin.ext hv
  have hset : (Finset.univ.filter fun i : (⟨2, ![n, 1]⟩ : Shape).Idx => h.drop i = ix1 e) = {ix2 e (0 : Fin 1)} := by
    ext i
    rw [Finset.mem_filter, Finset.mem_singleton]
    exact ⟨fun hi => (hdrop i).1 hi.2, fun hi => ⟨Finset.mem_univ _, (hdrop i).2 hi⟩⟩
  rw [hset, Finset.fold_singleton]
  exact andi_one _

/-! ## A vector laid as a column, read at a row -/

/-- A vector as an [n × 1] column reads, at `(r, 0)`, the vector at `r`. -/
theorem column_apply {α : Type} {n : Nat} (h : (⟨1, ![n]⟩ : Shape).BroadcastsInDim ⟨2, ![n, 1]⟩ ![0])
    (v : (⟨1, ![n]⟩ : Shape).Idx → α) (r : Fin n) :
    broadcastInDim ⟨2, ![n, 1]⟩ ![0] h v (ix2 r (0 : Fin 1)) = v (ix1 r) := by
  refine broadcastInDim_apply _ h v _ (ix1 r) (fun a => ?_)
  have ha : a = 0 := Subsingleton.elim _ _
  subst ha
  show r.val = if n = 1 then 0 else r.val
  have := r.isLt
  split <;> omega

/-- A vector laid along the rows of an [n × c] rectangle reads, at `(r, q)`, the vector at `r`. -/
theorem rows_apply {α : Type} {n c : Nat} (h : (⟨1, ![n]⟩ : Shape).BroadcastsInDim ⟨2, ![n, c]⟩ ![0])
    (v : (⟨1, ![n]⟩ : Shape).Idx → α) (r : Fin n) (q : Fin c) :
    broadcastInDim ⟨2, ![n, c]⟩ ![0] h v (ix2 r q) = v (ix1 r) := by
  refine broadcastInDim_apply _ h v _ (ix1 r) (fun a => ?_)
  have ha : a = 0 := Subsingleton.elim _ _
  subst ha
  show r.val = if n = 1 then 0 else r.val
  have := r.isLt
  split <;> omega

/-! ## The printed dimension records are the row gather's and the row scatter's -/

theorem gatherDims_eq : gather_S50000x128_S800000x1_S800000x128_1_0_n_n_0_1_1128
    = rowGatherDims 50000 800000 128 gather_S50000x128_S800000x1_S800000x128_1_0_n_n_0_1_1128_wf := rfl

theorem rowDims_eq : scatter_S50000x128_S800000x1_S800000x128_1_0_0_1
    = rowScatterDims 50000 800000 128 scatter_S50000x128_S800000x1_S800000x128_1_0_0_1_wf := rfl

/-- The accumulating float scatter on the extended reals is the exact one. -/
theorem scatterAdd_exact {s si su : Shape} {w : Nat} (d : ScatterDims s si su) (x : s.Idx → EReal) (idx : IVec si w)
    (upd : su.Idx → EReal) : Host.scatterAdd (F := Ideal) (φ := .f32) d x idx upd = Ideal.hostScatterAdd d x idx upd := rfl

/-! ## The rows taken at index words, a fill value where a word names no row -/

section Take
variable (x : Cert.Spec.Mat 50000 128) (idx : Cert.Spec.IRow 800000)

/-- The index words wrapped: a negative word counted from the end. -/
def wrapV : IVec S800000 32 :=
  select (cmpi .slt idx (broadcastInDim S800000 ![] bcast_S_S800000 (constantI S_ 32 0#32)))
    (addi idx (broadcastInDim S800000 ![] bcast_S_S800000 (constantI S_ 32 50000#32))) idx

/-- The wrapped words as a column. -/
def colV : IVec S800000x1 32 := broadcastInDim S800000x1 ![0] bcast_S800000_S800000x1_0 (wrapV idx)

/-- Whether each wrapped word names a row: the two comparisons conjoined, reduced over the column's unit axis. -/
def maskV : IVec S800000 1 :=
  Host.reduce IntOp.andi
    (andi (cmpi .sge (colV idx) (broadcastInDim S800000x1 ![] bcast_S_S800000x1 (constantI S_ 32 0#32)))
      (cmpi .sle (colV idx) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows gathered at the wrapped words. -/
def gatherV : FVec Ideal S800000x128 .f32 :=
  Host.gather gather_S50000x128_S800000x1_S800000x128_1_0_n_n_0_1_1128 x (colV idx)

/-- The rows of `x` taken at the index words, the quiet-NaN pattern's value where a word names no row. -/
def takeV : FVec Ideal S800000x128 .f32 :=
  select (broadcastInDim S800000x128 ![0] bcast_S800000_S800000x128_0 (maskV idx)) (gatherV x idx)
    (broadcastInDim S800000x128 ![] bcast_S_S800000x128 (constant (F := Ideal) S_ .f32 0x7FC00000#32))

theorem wrapV_apply (e : Fin 800000) : wrapV idx (ix1 e) = Cert.Spec.wrapWord (idx (ix1 e)) := by
  show Scalar.select (IntOp.cmpi .slt (idx (ix1 e)) 0#32) (IntOp.addi (idx (ix1 e)) 50000#32) (idx (ix1 e)) = _
  rw [select_slt_zero]
  rfl

theorem colV_apply (e : Fin 800000) : colV idx (ix2 e (0 : Fin 1)) = Cert.Spec.wrapWord (idx (ix1 e)) :=
  (column_apply bcast_S800000_S800000x1_0 (wrapV idx) e).trans (wrapV_apply idx e)

/-- The row test's bit at `e` is set exactly when the wrapped word names a row. -/
theorem maskV_apply (e : Fin 800000) : maskV idx (ix1 e) = 1#1 ↔ Cert.Spec.inRows (idx (ix1 e)) := by
  have h1 : maskV idx (ix1 e) = IntOp.andi (IntOp.cmpi .sge (colV idx (ix2 e (0 : Fin 1))) 0#32)
      (IntOp.cmpi .sle (colV idx (ix2 e (0 : Fin 1))) 49999#32) :=
    reduce_andi_unit_axis _ reducesTo_S800000x1_S800000_d1 h_S_ e
  rw [h1, colV_apply, andi_bits, cmpi_sge_zero, cmpi_sle_last]
  rfl

/-- The gathered row at `e` is the row the wrapped word names, clamped. -/
theorem gatherV_apply (e : Fin 800000) (j : Fin 128) :
    gatherV x idx (ix2 e j) = x (ix2 (Cert.Spec.wrapRow (idx (ix1 e))) j) := by
  unfold gatherV
  rw [gatherDims_eq, rowGather_apply (by decide : 0 < 50000)]
  have hr : gatherRow (N := 50000) (by decide) (colV idx) e = Cert.Spec.wrapRow (idx (ix1 e)) := by
    refine Fin.ext ?_
    show min (colV idx (ix2 e (0 : Fin 1))).toInt.toNat (50000 - 1) = min (Cert.Spec.wrapWord (idx (ix1 e))).toInt.toNat 49999
    rw [colV_apply]
  rw [hr]

theorem takeV_apply (e : Fin 800000) (j : Fin 128) : takeV x idx (ix2 e j) = Cert.Spec.takeFill x idx e j := by
  show Scalar.select (broadcastInDim S800000x128 ![0] bcast_S800000_S800000x128_0 (maskV idx) (ix2 e j))
      (gatherV x idx (ix2 e j)) (Ideal.ofBits .f32 0x7FC00000#32) = _
  rw [rows_apply bcast_S800000_S800000x128_0 (maskV idx) e j, gatherV_apply x idx e j]
  unfold Cert.Spec.takeFill
  by_cases h : Cert.Spec.inRows (idx (ix1 e))
  · rw [(maskV_apply idx e).2 h, select_one, if_pos h]
  · rw [eq_zero_of_ne_one (fun hc => h ((maskV_apply idx e).1 hc)), select_zero, if_neg h]

end Take

/-! ## The segment sum by an accumulating scatter of rows into zeros -/

/-- The rows `upd` scattered, accumulating, into zeros at the destination words laid as a column. -/
def segV (dst : Cert.Spec.IRow 800000) (upd : Cert.Spec.Mat 800000 128) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst) upd

theorem segV_apply (dst : Cert.Spec.IRow 800000) (upd : Cert.Spec.Mat 800000 128) (n : Fin 50000) (j : Fin 128) :
    segV dst upd (ix2 n j) = Cert.Spec.segSum dst (fun e => upd (ix2 e j)) n := by
  unfold segV
  rw [rowDims_eq, scatterAdd_exact, rowScatterAdd_apply]
  have hz : broadcastInDim S50000x128 ![] bcast_S_S50000x128 (constant (F := Ideal) S_ .f32 0x00000000#32) (ix2 n j) = 0 :=
    Ideal.ofBits_zero_f32
  rw [hz, zero_add]
  unfold Cert.Spec.segSum
  refine Finset.sum_congr rfl (fun e _ => ?_)
  rw [column_apply bcast_S800000_S800000x1_0 dst e]

/-! ## The two host stretches before the second node pass, at any contents they are entered with -/

/-- Contents moved to a buffer's own type and back are the contents. -/
theorem ofBuf_toBuf {T : BufTy} (r : StableHlo.TRef sig T) (v : T.Contents (Elt Ideal)) : r.ofBuf (r.toBuf v) = v := by
  obtain ⟨a, h, _, _⟩ := r
  subst h
  rfl

/-- At a literal buffer the move to its own type, or back, changes nothing. -/
theorem toBuf_v19 (h1 h2 h3) (v : (⟨S800000x128, .f32⟩ : BufTy).Contents (Elt Ideal)) :
    (StableHlo.TRef.of main_v19 h1 h2 h3 : StableHlo.TRef sig ⟨S800000x128, .f32⟩).toBuf v = v := rfl
theorem ofBuf_v18 (h1 h2 h3) (v : (Proc.devRef (τ := τ) .tc main_v18).ty.Contents (Elt Ideal)) :
    (StableHlo.TRef.of main_v18 h1 h2 h3 : StableHlo.TRef sig ⟨S50000x128, .f32⟩).ofBuf v = v := rfl
theorem ofBuf_arg4 (h1 h2 h3) (v : (Proc.devRef (τ := τ) .tc main_arg4).ty.Contents (Elt Ideal)) :
    (StableHlo.TRef.of main_arg4 h1 h2 h3 : StableHlo.TRef sig ⟨S800000, .i32⟩).ofBuf v = v := rfl

/-- The first stretch leaves in its result buffer the rows of the first node pass's output taken at the source words. -/
theorem after_take (X : Valuation τ sig (Elt Ideal)) :
    StableHlo.after hostOps2 X (Proc.devRef .tc main_v19)
      = takeV (X (Proc.devRef .tc main_v18)) (X (Proc.devRef .tc main_arg4)) := by
  dsimp only [hostOps2]
  after_results_simp
  simp only [ofBuf_toBuf, toBuf_v19, ofBuf_v18, ofBuf_arg4]
  unfold takeV gatherV maskV colV wrapV
  rfl

/-- The second stretch leaves in its result buffer the segment sum of those rows over the destination words. -/
theorem after_seg (X : Valuation τ sig (Elt Ideal)) :
    StableHlo.after hostOps2_1 X (Proc.devRef .tc main_v22)
      = segV (X (Proc.devRef .tc main_arg5)) (X (Proc.devRef .tc main_v19)) := by
  dsimp only [hostOps2_1]
  after_results
  rfl

/-! ## An argument array that nothing writes holds its launch contents -/

/-- No operation of a stretch writes the buffer. -/
macro "writes_none" "[" ops:ident "]" : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- A buffer that is no array of the first two passes and that no host operation before the third stretch writes holds,
    after the first node pass, what the launch gave it. -/
theorem W5_launch (c : Dev nD) (b : Ref sig .tc)
    (h1 : ∀ w, Pipeline.arrRef spec1 w ≠ b) (h0 : ∀ w, Pipeline.arrRef spec0 w ≠ b)
    (k1 : ∀ op ∈ (hostOps1 : List (HloOp τ sig (Elt Ideal))), Proc.devRef .tc b ∉ op.writes)
    (k01 : ∀ op ∈ (hostOps0_1 : List (HloOp τ sig (Elt Ideal))), Proc.devRef .tc b ∉ op.writes)
    (k0 : ∀ op ∈ (hostOps0 : List (HloOp τ sig (Elt Ideal))), Proc.devRef .tc b ∉ op.writes) :
    W5 m ρ c (Proc.devRef .tc b) = m ((c : Thread nD τ).loc b) :=
  calc W5 m ρ c (Proc.devRef .tc b)
    _ = W4 m ρ c (Proc.devRef .tc b) := W5_of_ne m ρ c b h1
    _ = W3 m ρ c (Proc.devRef .tc b) := StableHlo.after_of_forall_not_mem _ _ k1
    _ = W2 m ρ c (Proc.devRef .tc b) := W3_of_ne m ρ c b h0
    _ = W1 m ρ c (Proc.devRef .tc b) := StableHlo.after_of_forall_not_mem _ _ k01
    _ = W0 m ρ c (Proc.devRef .tc b) := StableHlo.after_of_forall_not_mem _ _ k0
    _ = m ((c : Thread nD τ).loc b) := rfl

/-- The source words, after the first node pass. -/
theorem W5_src (c : Dev nD) : W5 m ρ c (Proc.devRef .tc main_arg4) = m ((c : Thread nD τ).loc main_arg4) :=
  W5_launch m ρ c main_arg4 (by decide) (by decide) (by writes_none [hostOps1]) (by writes_none [hostOps0_1])
    (by writes_none [hostOps0])

/-- The destination words, after the first of the two stretches. -/
theorem W6_dst (c : Dev nD) : W6 m ρ c (Proc.devRef .tc main_arg5) = m ((c : Thread nD τ).loc main_arg5) :=
  (StableHlo.after_of_forall_not_mem (b := Proc.devRef .tc main_arg5) _ _ (by writes_none [hostOps2])).trans
    (W5_launch m ρ c main_arg5 (by decide) (by decide) (by writes_none [hostOps1]) (by writes_none [hostOps0_1])
      (by writes_none [hostOps0]))

/-! What the second node pass is entered with as its first array: the segment sum, over the destination words, of the first
    node pass's rows taken at the source words in fill mode. -/

theorem V7_v22 (c : Dev nD) :
    V7 m ρ c main_v22 = Cert.Spec.arr2 fun n j => Cert.Spec.segSum (m ((c : Thread nD τ).loc main_arg5))
      (fun e => Cert.Spec.takeFill (W5 m ρ c (Proc.devRef .tc main_v18)) (m ((c : Thread nD τ).loc main_arg4)) e j) n := by
  have e22 : W7 m ρ c (Proc.devRef .tc main_v22)
      = segV (W6 m ρ c (Proc.devRef .tc main_arg5)) (W6 m ρ c (Proc.devRef .tc main_v19)) := after_seg (W6 m ρ c)
  have e19 : W6 m ρ c (Proc.devRef .tc main_v19)
      = takeV (W5 m ρ c (Proc.devRef .tc main_v18)) (W5 m ρ c (Proc.devRef .tc main_arg4)) := after_take (W5 m ρ c)
  show W7 m ρ c (Proc.devRef .tc main_v22) = _
  rw [e22, e19, W6_dst, W5_src]
  funext i
  obtain ⟨n, j, rfl⟩ : ∃ (n : Fin 50000) (j : Fin 128), i = ix2 n j := ⟨i 0, i 1, eq_ix2 i⟩
  rw [segV_apply, Cert.Spec.arr2_apply]
  refine congrArg (fun f => Cert.Spec.segSum (m ((c : Thread nD τ).loc main_arg5)) f n) (funext fun e => ?_)
  exact takeV_apply _ _ e j

end Cert.KernelIdeal.HostC

end
-- ==== Proof.Composed.lean ====
import proofs.«413949_j60988535603571_3_alg».proof.Proof.Gen.KernelIdeal.Frame
import proofs.«413949_j60988535603571_3_alg».proof.Proof.Spec
import proofs.«413949_j60988535603571_3_alg».proof.Proof.EdgeFused
import proofs.«413949_j60988535603571_3_alg».proof.Proof.EdgeNew
import proofs.«413949_j60988535603571_3_alg».proof.Proof.NodeA
import proofs.«413949_j60988535603571_3_alg».proof.Proof.NodeB
import proofs.«413949_j60988535603571_3_alg».proof.Proof.HostA
import proofs.«413949_j60988535603571_3_alg».proof.Proof.HostB
import proofs.«413949_j60988535603571_3_alg».proof.Proof.HostB14
import proofs.«413949_j60988535603571_3_alg».proof.Proof.HostBCW
import proofs.«413949_j60988535603571_3_alg».proof.Proof.HostC

set_option maxRecDepth 16384

noncomputable section

open scoped BigOperators

/-! The idealized kernel's two results as functions of the thirteen argument arrays: each pass's output array is its
    function of the arrays the pass is entered with, and those are the host steps' functions of the arguments and of
    the earlier passes' outputs; composed, the first result is `Spec.hNewK` and the second `Spec.eNewK`. -/

namespace Cert.KernelIdeal.Composed

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The edge pass's fused output, of the arguments. -/
theorem fused_eq (c : Dev nD) :
    W3 m ρ c (Proc.devRef .tc main_v4_0)
      = arr2 (fusedK (m ((c : Thread nD τ).loc main_arg2)) (m ((c : Thread nD τ).loc main_arg1))
          (arr2 (takeFill (m ((c : Thread nD τ).loc main_arg0)) (m ((c : Thread nD τ).loc main_arg5))))
          (m ((c : Thread nD τ).loc main_arg6)) (m ((c : Thread nD τ).loc main_arg7))) := by
  refine (W3_arr m ρ c 7).trans ?_
  rw [EdgeFused.final (V2 m ρ) c, HostA.V2_arg2, HostA.V2_arg1, HostA.V2_v0, HostA.V2_v1, HostA.V2_arg7]

/-- The second result: the edge pass's new edge features, of the arguments; no later step writes that buffer. -/
theorem enew_eq (c : Dev nD) :
    W8 m ρ c (Proc.devRef .tc main_v4_1)
      = arr2 (eNewK (m ((c : Thread nD τ).loc main_arg2)) (m ((c : Thread nD τ).loc main_arg1))
          (m ((c : Thread nD τ).loc main_arg6)) (m ((c : Thread nD τ).loc main_arg7))
          (m ((c : Thread nD τ).loc main_arg10)) (m ((c : Thread nD τ).loc main_arg11))) := by
  refine (HostBCW.W8_v4_1 m ρ c).trans ((W3_arr m ρ c 8).trans ?_)
  rw [EdgeNew.final (V2 m ρ) c, HostA.V2_arg2, HostA.V2_arg1, HostA.V2_v1, HostA.V2_arg7, HostA.V2_v2, HostA.V2_arg11]

/-- The first node pass's output, of the arguments. -/
theorem hsro_eq (c : Dev nD) :
    W5 m ρ c (Proc.devRef .tc main_v18)
      = arr2 (nodeAK
          (arr2 fun n q => segSum (m ((c : Thread nD τ).loc main_arg5)) (fun e =>
            fusedK (m ((c : Thread nD τ).loc main_arg2)) (m ((c : Thread nD τ).loc main_arg1))
              (arr2 (takeFill (m ((c : Thread nD τ).loc main_arg0)) (m ((c : Thread nD τ).loc main_arg5))))
              (m ((c : Thread nD τ).loc main_arg6)) (m ((c : Thread nD τ).loc main_arg7)) e q) n)
          (arr2 fun n (_ : Fin 1) => Ideal.div 1 (denom (m ((c : Thread nD τ).loc main_arg5)) n))
          (m ((c : Thread nD τ).loc main_arg8)) (m ((c : Thread nD τ).loc main_arg9))) := by
  refine (W5_arr m ρ c 4).trans ?_
  rw [NodeA.final (V4 m ρ) c, HostB.V4_v17, HostB14.V4_v14, HostB.V4_v3, HostB.V4_arg9, fused_eq]
  simp only [arr2_apply]

/-- The first result: the second node pass's output, of the arguments. -/
theorem hnew_eq (c : Dev nD) :
    W8 m ρ c (Proc.devRef .tc main_v23)
      = arr2 (hNewK (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg12))) := by
  refine (W8_arr m ρ c 3).trans ?_
  rw [NodeB.final (V7 m ρ) c, HostC.V7_v22, HostBCW.V7_arg3, HostBCW.V7_arg12, hsro_eq]
  rfl

end Cert.KernelIdeal.Composed

end
-- ==== Proof.RefRead.lean ====
/-
  The reference's first result read index by index on the extended reals: each stage of the reference at an index is
  the specification's function of the argument arrays at that index. A row scatter-add into zeros along the destination
  words is the segment sum; a scatter-add of ones is the in-degree; a row gather at the wrapped index word reads the
  wrapped row; two arrays laid side by side are read by the column's half.
-/
import proofs.«413949_j60988535603571_3_alg».proof.Proof.Gen.ReferenceIdeal.Read
import proofs.«413949_j60988535603571_3_alg».proof.Proof.Spec
import proofs.«413949_j60988535603571_3_alg».proof.Proof.LibRowScatterAdd
import proofs.«413949_j60988535603571_3_alg».proof.Proof.LibRowGather
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

noncomputable section

open scoped BigOperators

namespace Cert.ReferenceIdeal.RefRead

open Cert.ReferenceIdeal Cert.ReferenceIdeal.Gen Cert.ReferenceIdeal.Read
open Idealize.ShloMosaic Idealize.ShloMosaic.ValueIdx

/-! ## Indices by coordinates -/

/-- Two rank-2 indices with the same coordinates are equal. -/
theorem idx2_ext {n0 n1 : Nat} (f g : (⟨2, ![n0, n1]⟩ : Shape).Idx)
    (h0 : (f 0).val = (g 0).val) (h1 : (f 1).val = (g 1).val) : f = g :=
  funext fun a => Fin.ext (by match a with | ⟨0, _⟩ => exact h0 | ⟨1, _⟩ => exact h1)

/-- Two rank-1 indices with the same coordinate are equal. -/
theorem idx1_ext {n : Nat} (f g : (⟨1, ![n]⟩ : Shape).Idx) (h0 : (f 0).val = (g 0).val) : f = g :=
  funext fun a => Fin.ext (by match a with | ⟨0, _⟩ => exact h0)

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The text projection (stage 3) -/

/-- Stage 3 at (e, j): row e of s_h times column j of W_text, plus the bias. -/
theorem v3_at (x2 : (⟨S800000x128, .f32⟩ : BufTy).Contents (Elt Ideal)) (x6 : (⟨S128x128, .f32⟩ : BufTy).Contents (Elt Ideal))
    (x7 : (⟨S128, .f32⟩ : BufTy).Contents (Elt Ideal)) (e : Fin 800000) (j : Fin 128) :
    val_main_v3 (F := Ideal) x2 x6 x7 (ix2 e j) = Cert.Spec.sLin x2 x6 x7 e j := by
  rw [val_main_v3_apply, val_main_v0_apply, val_main_v2_apply, val_main_v1_apply]
  have hl : ∀ k : Fin 128, lidx_main_v0 (ix2 e j) k = ix2 e k := fun k => idx2_ext _ _ rfl rfl
  have hr : ∀ k : Fin 128, ridx_main_v0 (ix2 e j) k = ix2 k j := fun k => idx2_ext _ _ rfl rfl
  have hb : idx_main_v1 (idx_main_v2 (ix2 e j)) = ix1 j := idx1_ext _ _ rfl
  simp only [hl, hr, hb, Ideal.addf_def]
  rfl

/-! ## An accumulating scatter of scalars into a vector, read at an index

  Update element r lands on operand element idx[r, 0] (read signed, not clamped; dropped outside [0, N)). So
  element n of the result is the operand's plus the sum of the updates whose index is n. -/

/-- The dimension numbers of a scatter of scalars: operand [N], scatter indices [R, 1], updates [R]. -/
abbrev countDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The operand's one axis is the inserted window axis. -/
theorem cd_not_mem_sKept {N R : Nat}
    (wf : ScatterDims.WF ⟨1, ![N]⟩ ⟨2, ![R, 1]⟩ ⟨1, ![R]⟩ [] [0] [0] 1) :
    (0 : Fin 1) ∉ (countDims N R wf).sKept := by
  show (0 : Fin 1) ∉ (List.finRange 1).filter (fun a => a ∉ [(0 : Fin 1)])
  decide

/-- The window coordinate on the operand's axis is 0. -/
theorem cd_window0 {N R : Nat}
    (wf : ScatterDims.WF ⟨1, ![N]⟩ ⟨2, ![R, 1]⟩ ⟨1, ![R]⟩ [] [0] [0] 1) (r : Fin R) :
    (countDims N R wf).window (ix1 r) 0 = 0 := by
  unfold ScatterDims.window
  rw [dif_neg (cd_not_mem_sKept wf)]

/-- The window starts at update r's index idx[r, 0], read signed. -/
theorem cd_start0 {N R w : Nat}
    (wf : ScatterDims.WF ⟨1, ![N]⟩ ⟨2, ![R, 1]⟩ ⟨1, ![R]⟩ [] [0] [0] 1)
    (idx : IVec ⟨2, ![R, 1]⟩ w) (r : Fin R) :
    (countDims N R wf).start (ix1 r) idx 0 = (idx (ix2 r (0 : Fin 1))).toInt := by
  unfold ScatterDims.start
  rw [dif_pos (show (0 : Fin 1) ∈ (countDims N R wf).scatterDimsToOperandDims from List.mem_singleton.mpr rfl)]
  have hsi : (countDims N R wf).siIdx (ix1 r) ⟨List.idxOf (0 : Fin 1) (countDims N R wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update r lands on n iff its index, read signed, is n. -/
theorem count_resultIdx_iff {N R w : Nat}
    (wf : ScatterDims.WF ⟨1, ![N]⟩ ⟨2, ![R, 1]⟩ ⟨1, ![R]⟩ [] [0] [0] 1)
    (idx : IVec ⟨2, ![R, 1]⟩ w) (r : Fin R) (n : Fin N) :
    (countDims N R wf).resultIdx? (ix1 r) idx = some (ix1 n)
      ↔ (idx (ix2 r (0 : Fin 1))).toInt = (n.val : Int) := by
  unfold ScatterDims.resultIdx?
  have hN : (![N] 0 : Nat) = N := rfl
  have hn := n.isLt
  simp only [Fin.forall_fin_one, cd_start0, cd_window0]
  split
  · rw [Option.some.injEq]
    constructor
    · intro he
      have e0 : ((countDims N R wf).start (ix1 r) idx 0
          + ((countDims N R wf).window (ix1 r) 0 : Nat)).toNat = n.val :=
        congrArg (fun f => (f 0).val) he
      rw [cd_start0, cd_window0] at e0
      omega
    · intro e0
      funext a
      refine Fin.ext ?_
      match a with
      | ⟨0, _⟩ =>
        show ((countDims N R wf).start (ix1 r) idx 0
          + ((countDims N R wf).window (ix1 r) 0 : Nat)).toNat = n.val
        rw [cd_start0, cd_window0]; omega
  · rename_i h
    constructor
    · intro he; cases he
    · intro e0
      exact absurd ⟨by omega, by omega⟩ h

/-- The scatter-add of scalars read at n on the extended reals: the operand's element plus the sum of the updates
    whose index is n. -/
theorem countScatterAdd_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Ideal.hostScatterAdd (countDims N R wf) x idx upd (ix1 n)
      = x (ix1 n) + ∑ r : Fin R, if (idx (ix2 r (0 : Fin 1))).toInt = (n.val : Int) then upd (ix1 r) else 0 := by
  show x (ix1 n) + ∑ j ∈ Finset.univ.filter
      (fun j => (countDims N R wf).resultIdx? j idx = some (ix1 n)), upd j = _
  congr 1
  rw [Finset.sum_filter, sum_idx1]
  refine Finset.sum_congr rfl (fun r _ => ?_)
  simp only [count_resultIdx_iff]

/-! ## The host's operations at the ideal values, and the printed dimension numbers -/

/-- At the ideal values the host's accumulating float scatter is the exact sum. -/
theorem scatterAdd_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- The printed scalar scatter's dimension numbers. -/
theorem countDims_eq : scatter_S50000_S800000x1_S800000_n_0_0_1
    = countDims 50000 800000 scatter_S50000_S800000x1_S800000_n_0_0_1_wf := rfl

/-- The printed row scatter's dimension numbers. -/
theorem rowDims_eq : scatter_S50000x128_S800000x1_S800000x128_1_0_0_1
    = rowScatterDims 50000 800000 128 scatter_S50000x128_S800000x1_S800000x128_1_0_0_1_wf := rfl

/-- The printed row gather's dimension numbers. -/
theorem gatherDims_eq : gather_S50000x128_S800000x1_S800000x128_1_0_n_n_0_1_1128
    = rowGatherDims 50000 800000 128 gather_S50000x128_S800000x1_S800000x128_1_0_n_n_0_1_1128_wf := rfl

/-! ## The in-degree and the divisor (stages 7, 10) -/

/-- Stage 7 at n: the number of edges that land at n. -/
theorem v7_at (x5 : (⟨S800000, .i32⟩ : BufTy).Contents (Elt Ideal)) (n : Fin 50000) :
    val_main_v7 (F := Ideal) x5 (ix1 n) = Cert.Spec.deg x5 n := by
  unfold val_main_v7
  rw [countDims_eq, scatterAdd_ideal, countScatterAdd_apply, val_main_v5_apply, val_main_cst_0_apply]
  have h6 : ∀ r : Fin 800000, idx_main_v6 (ix2 r (0 : Fin 1)) = ix1 r := fun r => idx1_ext _ _ rfl
  simp only [val_main_v6_apply, val_main_v4_apply, val_main_cst_apply, h6, Ideal.ofBits_def, Ideal.ofBits_zero_f32,
    Cert.Spec.ofBits_one, zero_add]
  rfl

/-- Stage 10 at (n, 0): the in-degree, at least one. -/
theorem v10_at (x5 : (⟨S800000, .i32⟩ : BufTy).Contents (Elt Ideal)) (n : Fin 50000) :
    val_main_v10 (F := Ideal) x5 (ix2 n (0 : Fin 1)) = Cert.Spec.denom x5 n := by
  rw [val_main_v10_apply, val_main_v9_apply, val_main_v8_apply, val_main_cst_1_apply]
  have h : idx_main_v10 (ix2 n (0 : Fin 1)) = ix1 n := idx1_ext _ _ rfl
  rw [h, v7_at, Ideal.maximumf_def, Ideal.ofBits_def, Cert.Spec.ofBits_one]
  rfl

/-! ## The wrapped index word and the first row gather (stages 15–18) -/

/-- select(w < 0, w + 50000, w), the comparison signed, is the wrapped word. -/
theorem wrap_eq (w : BitVec 32) :
    Scalar.select (IntOp.cmpi .slt w 0#32) (IntOp.addi w 50000#32) w = Cert.Spec.wrapWord w := by
  unfold Cert.Spec.wrapWord
  by_cases h : w.toInt < 0
  · have hc : IntOp.cmpi .slt w 0#32 = 1#1 := IntOp.cmpi_slt.mpr (by simpa using h)
    rw [hc, select_one, if_pos h]
    rfl
  · have hc : ¬ IntOp.cmpi .slt w 0#32 = 1#1 := fun hc => h (by simpa using IntOp.cmpi_slt.mp hc)
    rw [eq_zero_of_ne_one hc, select_zero, if_neg h]

/-- Stage 15 at e: the wrapped destination word. -/
theorem v15_at (x5 : (⟨S800000, .i32⟩ : BufTy).Contents (Elt Ideal)) (e : Fin 800000) :
    val_main_v15 (F := Ideal) x5 (ix1 e) = Cert.Spec.wrapWord (x5 (ix1 e)) := by
  rw [val_main_v15_apply, val_main_v12_apply, val_main_v14_apply, val_main_v11_apply, val_main_v13_apply,
    val_main_c_apply, val_main_c_2_apply, wrap_eq]

/-- The row the first gather reads for edge e: the destination's wrapped row. -/
theorem gatherRow_v16 (x5 : (⟨S800000, .i32⟩ : BufTy).Contents (Elt Ideal)) (e : Fin 800000) :
    gatherRow (N := 50000) (by decide) (val_main_v16 (F := Ideal) x5) e = Cert.Spec.wrapRow (x5 (ix1 e)) := by
  have h : idx_main_v16 (ix2 e (0 : Fin 1)) = ix1 e := idx1_ext _ _ rfl
  unfold gatherRow Cert.Spec.wrapRow
  refine Fin.ext ?_
  show min (val_main_v16 (F := Ideal) x5 (ix2 e (0 : Fin 1))).toInt.toNat (50000 - 1)
    = min (Cert.Spec.wrapWord (x5 (ix1 e))).toInt.toNat 49999
  rw [val_main_v16_apply, h, v15_at]

/-- Stage 17 at (e, j): the node features of the destination's wrapped row. -/
theorem v17_at (x0 : (⟨S50000x128, .f32⟩ : BufTy).Contents (Elt Ideal)) (x5 : (⟨S800000, .i32⟩ : BufTy).Contents (Elt Ideal))
    (e : Fin 800000) (j : Fin 128) :
    val_main_v17 (F := Ideal) x0 x5 (ix2 e j) = x0 (ix2 (Cert.Spec.wrapRow (x5 (ix1 e))) j) := by
  unfold val_main_v17
  rw [gatherDims_eq, rowGather_apply (by decide : 0 < 50000), gatherRow_v16]

/-- Stage 18 at (e, j): the message, the destination's row times the edge's features. -/
theorem v18_at (x0 : (⟨S50000x128, .f32⟩ : BufTy).Contents (Elt Ideal)) (x1 : (⟨S800000x128, .f32⟩ : BufTy).Contents (Elt Ideal))
    (x5 : (⟨S800000, .i32⟩ : BufTy).Contents (Elt Ideal)) (e : Fin 800000) (j : Fin 128) :
    val_main_v18 (F := Ideal) x0 x1 x5 (ix2 e j)
      = x0 (ix2 (Cert.Spec.wrapRow (x5 (ix1 e))) j) * x1 (ix2 e j) := by
  rw [val_main_v18_apply, v17_at, Ideal.mulf_def]

/-! ## The two means over incoming edges (stages 21–28) -/

/-- A row scatter-add into zeros along the destination words, read at (n, j): the segment sum. -/
theorem rowScatter_zero_at (x5 : (⟨S800000, .i32⟩ : BufTy).Contents (Elt Ideal))
    (z : (⟨S50000x128, .f32⟩ : BufTy).Contents (Elt Ideal)) (idx : (⟨S800000x1, .i32⟩ : BufTy).Contents (Elt Ideal))
    (upd : (⟨S800000x128, .f32⟩ : BufTy).Contents (Elt Ideal)) (f : Fin 800000 → Fin 128 → EReal)
    (hz : ∀ n j, z (ix2 n j) = 0) (hidx : ∀ r : Fin 800000, idx (ix2 r (0 : Fin 1)) = x5 (ix1 r))
    (hupd : ∀ r j, upd (ix2 r j) = f r j) (n : Fin 50000) (j : Fin 128) :
    Host.scatterAdd (F := Ideal) (φ := .f32) scatter_S50000x128_S800000x1_S800000x128_1_0_0_1 z idx upd (ix2 n j)
      = Cert.Spec.segSum x5 (fun e => f e j) n := by
  rw [rowDims_eq, scatterAdd_ideal, rowScatterAdd_apply, hz, zero_add]
  unfold Cert.Spec.segSum
  simp only [hidx, hupd]

/-- The zero matrix the scatters accumulate into. -/
theorem zeros_at (n : Fin 50000) (j : Fin 128) :
    val_main_v19 (F := Ideal) (ix2 n j) = 0 ∧ val_main_v24 (F := Ideal) (ix2 n j) = 0
      ∧ val_main_v41 (F := Ideal) (ix2 n j) = 0 := by
  rw [val_main_v19_apply, val_main_v24_apply, val_main_v41_apply, val_main_cst_3_apply, val_main_cst_4_apply,
    val_main_cst_7_apply, Ideal.ofBits_def, Ideal.ofBits_zero_f32]
  exact ⟨rfl, rfl, rfl⟩

/-- The destination words as a column (stages 20, 25, 42). -/
theorem dstcol_at (x5 : (⟨S800000, .i32⟩ : BufTy).Contents (Elt Ideal)) (r : Fin 800000) :
    val_main_v20 (F := Ideal) x5 (ix2 r (0 : Fin 1)) = x5 (ix1 r)
      ∧ val_main_v25 (F := Ideal) x5 (ix2 r (0 : Fin 1)) = x5 (ix1 r)
      ∧ val_main_v42 (F := Ideal) x5 (ix2 r (0 : Fin 1)) = x5 (ix1 r) := by
  rw [val_main_v20_apply, val_main_v25_apply, val_main_v42_apply]
  exact ⟨congrArg x5 (idx1_ext _ _ rfl), congrArg x5 (idx1_ext _ _ rfl), congrArg x5 (idx1_ext _ _ rfl)⟩

/-- The divisor spread over the columns (stages 22, 27). -/
theorem denomrow_at (x5 : (⟨S800000, .i32⟩ : BufTy).Contents (Elt Ideal)) (n : Fin 50000) (j : Fin 128) :
    val_main_v22 (F := Ideal) x5 (ix2 n j) = Cert.Spec.denom x5 n
      ∧ val_main_v27 (F := Ideal) x5 (ix2 n j) = Cert.Spec.denom x5 n := by
  have h22 : idx_main_v22 (ix2 n j) = ix2 n (0 : Fin 1) := idx2_ext _ _ rfl rfl
  have h27 : idx_main_v27 (ix2 n j) = ix2 n (0 : Fin 1) := idx2_ext _ _ rfl rfl
  rw [val_main_v22_apply, val_main_v27_apply, h22, h27, v10_at]
  exact ⟨rfl, rfl⟩

/-- Stage 23 at (n, j): the mean over incoming edges of the messages. -/
theorem v23_at (x0 : (⟨S50000x128, .f32⟩ : BufTy).Contents (Elt Ideal)) (x1 : (⟨S800000x128, .f32⟩ : BufTy).Contents (Elt Ideal))
    (x5 : (⟨S800000, .i32⟩ : BufTy).Contents (Elt Ideal)) (n : Fin 50000) (j : Fin 128) :
    val_main_v23 (F := Ideal) x0 x1 x5 (ix2 n j) = Cert.Spec.hOR x0 x1 x5 n j := by
  rw [val_main_v23_apply, (denomrow_at x5 n j).1, Ideal.hostDivf_def]
  unfold val_main_v21
  rw [rowScatter_zero_at x5 _ _ _ (fun e j => x0 (ix2 (Cert.Spec.wrapRow (x5 (ix1 e))) j) * x1 (ix2 e j))
    (fun n j => (zeros_at n j).1) (fun r => (dstcol_at x5 r).1) (fun r j => v18_at x0 x1 x5 r j)]
  rfl

/-- Stage 28 at (n, j): the mean over incoming edges of the text projections. -/
theorem v28_at (x2 : (⟨S800000x128, .f32⟩ : BufTy).Contents (Elt Ideal)) (x5 : (⟨S800000, .i32⟩ : BufTy).Contents (Elt Ideal))
    (x6 : (⟨S128x128, .f32⟩ : BufTy).Contents (Elt Ideal)) (x7 : (⟨S128, .f32⟩ : BufTy).Contents (Elt Ideal))
    (n : Fin 50000) (j : Fin 128) :
    val_main_v28 (F := Ideal) x2 x5 x6 x7 (ix2 n j) = Cert.Spec.hOS x2 x6 x7 x5 n j := by
  rw [val_main_v28_apply, (denomrow_at x5 n j).2, Ideal.hostDivf_def]
  unfold val_main_v26
  rw [rowScatter_zero_at x5 _ _ _ (fun e j => Cert.Spec.sLin x2 x6 x7 e j)
    (fun n j => (zeros_at n j).2.1) (fun r => (dstcol_at x5 r).2.1) (fun r j => v3_at x2 x6 x7 r j)]
  rfl

/-! ## The node update before propagation (stages 29–33) -/

/-- Stage 29 at (n, k), k below 128: the mean of the text projections at column k. -/
theorem v29_left (x0 : (⟨S50000x128, .f32⟩ : BufTy).Contents (Elt Ideal)) (x1 x2 : (⟨S800000x128, .f32⟩ : BufTy).Contents (Elt Ideal))
    (x5 : (⟨S800000, .i32⟩ : BufTy).Contents (Elt Ideal)) (x6 : (⟨S128x128, .f32⟩ : BufTy).Contents (Elt Ideal))
    (x7 : (⟨S128, .f32⟩ : BufTy).Contents (Elt Ideal)) (n : Fin 50000) (k : Fin 256) (hk : k.val < 128) :
    val_main_v29 (F := Ideal) x0 x1 x2 x5 x6 x7 (ix2 n k)
      = val_main_v28 (F := Ideal) x2 x5 x6 x7 (ix2 n (⟨k.val, hk⟩ : Fin 128)) := by
  unfold val_main_v29
  exact concatenate_pair_apply_left (t := S50000x256) (s₁ := S50000x128) (s₂ := S50000x128) _ _ _ _ (ix2 n k) rfl
    (ix2 n (⟨k.val, hk⟩ : Fin 128))
    (fun b => by match b with | ⟨0, _⟩ => rfl | ⟨1, _⟩ => rfl)

/-- Stage 29 at (n, k), k from 128: the mean of the messages at column k − 128. -/
theorem v29_right (x0 : (⟨S50000x128, .f32⟩ : BufTy).Contents (Elt Ideal)) (x1 x2 : (⟨S800000x128, .f32⟩ : BufTy).Contents (Elt Ideal))
    (x5 : (⟨S800000, .i32⟩ : BufTy).Contents (Elt Ideal)) (x6 : (⟨S128x128, .f32⟩ : BufTy).Contents (Elt Ideal))
    (x7 : (⟨S128, .f32⟩ : BufTy).Contents (Elt Ideal)) (n : Fin 50000) (k : Fin 256) (hk : ¬ k.val < 128) :
    val_main_v29 (F := Ideal) x0 x1 x2 x5 x6 x7 (ix2 n k)
      = val_main_v23 (F := Ideal) x0 x1 x5 (ix2 n (⟨k.val - 128, by omega⟩ : Fin 128)) := by
  unfold val_main_v29
  refine concatenate_pair_apply_right (t := S50000x256) (s₁ := S50000x128) (s₂ := S50000x128) _ _ _ _ (ix2 n k) rfl rfl
    (ix2 n (⟨k.val - 128, by omega⟩ : Fin 128))
    (fun b hb => ?_) ?_
  · match b, hb with
    | ⟨0, _⟩, _ => rfl
    | ⟨1, _⟩, hb => exact absurd rfl hb
  · show (k.val - 128) + 128 = k.val
    omega

/-- Stage 33 at (n, j): the two means side by side, times W_inv, plus the bias. -/
theorem v33_at (x0 : (⟨S50000x128, .f32⟩ : BufTy).Contents (Elt Ideal)) (x1 x2 : (⟨S800000x128, .f32⟩ : BufTy).Contents (Elt Ideal))
    (x5 : (⟨S800000, .i32⟩ : BufTy).Contents (Elt Ideal)) (x6 : (⟨S128x128, .f32⟩ : BufTy).Contents (Elt Ideal))
    (x7 : (⟨S128, .f32⟩ : BufTy).Contents (Elt Ideal)) (x8 : (⟨S256x128, .f32⟩ : BufTy).Contents (Elt Ideal))
    (x9 : (⟨S128, .f32⟩ : BufTy).Contents (Elt Ideal)) (n : Fin 50000) (j : Fin 128) :
    val_main_v33 (F := Ideal) x0 x1 x2 x5 x6 x7 x8 x9 (ix2 n j) = Cert.Spec.hsroR x0 x1 x2 x5 x6 x7 x8 x9 n j := by
  have hl : ∀ k : Fin 256, lidx_main_v30 (ix2 n j) k = ix2 n k := fun k => idx2_ext _ _ rfl rfl
  have hr : ∀ k : Fin 256, ridx_main_v30 (ix2 n j) k = ix2 k j := fun k => idx2_ext _ _ rfl rfl
  have hb : idx_main_v31 (idx_main_v32 (ix2 n j)) = ix1 j := idx1_ext _ _ rfl
  rw [val_main_v33_apply, val_main_v30_apply, val_main_v32_apply, val_main_v31_apply, Ideal.addf_def, hb]
  unfold Cert.Spec.hsroR
  refine congrArg₂ (· + ·) (Finset.sum_congr rfl fun k _ => ?_) rfl
  rw [hl, hr]
  by_cases hk : k.val < 128
  · rw [dif_pos hk, v29_left x0 x1 x2 x5 x6 x7 n k hk, v28_at]
  · rw [dif_neg hk, v29_right x0 x1 x2 x5 x6 x7 n k hk, v23_at]

/-! ## Propagation along the edges (stages 38–48) -/

/-- Stage 38 at e: the wrapped source word. -/
theorem v38_at (x4 : (⟨S800000, .i32⟩ : BufTy).Contents (Elt Ideal)) (e : Fin 800000) :
    val_main_v38 (F := Ideal) x4 (ix1 e) = Cert.Spec.wrapWord (x4 (ix1 e)) := by
  rw [val_main_v38_apply, val_main_v35_apply, val_main_v37_apply, val_main_v34_apply, val_main_v36_apply,
    val_main_c_5_apply, val_main_c_6_apply, wrap_eq]

/-- The row the second gather reads for edge e: the source's wrapped row. -/
theorem gatherRow_v39 (x4 : (⟨S800000, .i32⟩ : BufTy).Contents (Elt Ideal)) (e : Fin 800000) :
    gatherRow (N := 50000) (by decide) (val_main_v39 (F := Ideal) x4) e = Cert.Spec.wrapRow (x4 (ix1 e)) := by
  have h : idx_main_v39 (ix2 e (0 : Fin 1)) = ix1 e := idx1_ext _ _ rfl
  unfold gatherRow Cert.Spec.wrapRow
  refine Fin.ext ?_
  show min (val_main_v39 (F := Ideal) x4 (ix2 e (0 : Fin 1))).toInt.toNat (50000 - 1)
    = min (Cert.Spec.wrapWord (x4 (ix1 e))).toInt.toNat 49999
  rw [val_main_v39_apply, h, v38_at]

/-- Stage 40 at (e, j): the node update of the source's wrapped row. -/
theorem v40_at (x0 : (⟨S50000x128, .f32⟩ : BufTy).Contents (Elt Ideal)) (x1 x2 : (⟨S800000x128, .f32⟩ : BufTy).Contents (Elt Ideal))
    (x4 x5 : (⟨S800000, .i32⟩ : BufTy).Contents (Elt Ideal)) (x6 : (⟨S128x128, .f32⟩ : BufTy).Contents (Elt Ideal))
    (x7 : (⟨S128, .f32⟩ : BufTy).Contents (Elt Ideal)) (x8 : (⟨S256x128, .f32⟩ : BufTy).Contents (Elt Ideal))
    (x9 : (⟨S128, .f32⟩ : BufTy).Contents (Elt Ideal)) (e : Fin 800000) (j : Fin 128) :
    val_main_v40 (F := Ideal) x0 x1 x2 x4 x5 x6 x7 x8 x9 (ix2 e j)
      = Cert.Spec.hsroR x0 x1 x2 x5 x6 x7 x8 x9 (Cert.Spec.wrapRow (x4 (ix1 e))) j := by
  unfold val_main_v40
  rw [gatherDims_eq, rowGather_apply (by decide : 0 < 50000), gatherRow_v39, v33_at]

/-- Stage 43 at (n, j): the node updates of the source nodes summed over incoming edges. -/
theorem v43_at (x0 : (⟨S50000x128, .f32⟩ : BufTy).Contents (Elt Ideal)) (x1 x2 : (⟨S800000x128, .f32⟩ : BufTy).Contents (Elt Ideal))
    (x4 x5 : (⟨S800000, .i32⟩ : BufTy).Contents (Elt Ideal)) (x6 : (⟨S128x128, .f32⟩ : BufTy).Contents (Elt Ideal))
    (x7 : (⟨S128, .f32⟩ : BufTy).Contents (Elt Ideal)) (x8 : (⟨S256x128, .f32⟩ : BufTy).Contents (Elt Ideal))
    (x9 : (⟨S128, .f32⟩ : BufTy).Contents (Elt Ideal)) (n : Fin 50000) (j : Fin 128) :
    val_main_v43 (F := Ideal) x0 x1 x2 x4 x5 x6 x7 x8 x9 (ix2 n j)
      = Cert.Spec.segSum x5 (fun e => Cert.Spec.hsroR x0 x1 x2 x5 x6 x7 x8 x9 (Cert.Spec.wrapRow (x4 (ix1 e))) j) n := by
  unfold val_main_v43
  exact rowScatter_zero_at x5 _ _ _
    (fun e j => Cert.Spec.hsroR x0 x1 x2 x5 x6 x7 x8 x9 (Cert.Spec.wrapRow (x4 (ix1 e))) j)
    (fun n j => (zeros_at n j).2.2) (fun r => (dstcol_at x5 r).2.2)
    (fun r j => v40_at x0 x1 x2 x4 x5 x6 x7 x8 x9 r j) n j

/-- The reference's first result, read index by index. -/
theorem v48_eq (x0 : (⟨S50000x128, .f32⟩ : BufTy).Contents (Elt Ideal)) (x1 x2 : (⟨S800000x128, .f32⟩ : BufTy).Contents (Elt Ideal))
    (x3 : (⟨S50000x1, .f32⟩ : BufTy).Contents (Elt Ideal)) (x4 x5 : (⟨S800000, .i32⟩ : BufTy).Contents (Elt Ideal))
    (x6 : (⟨S128x128, .f32⟩ : BufTy).Contents (Elt Ideal)) (x7 : (⟨S128, .f32⟩ : BufTy).Contents (Elt Ideal))
    (x8 : (⟨S256x128, .f32⟩ : BufTy).Contents (Elt Ideal)) (x9 x12 : (⟨S128, .f32⟩ : BufTy).Contents (Elt Ideal)) :
    val_main_v48 (F := Ideal) x0 x1 x2 x3 x4 x5 x6 x7 x8 x9 x12
      = Cert.Spec.arr2 (Cert.Spec.hNewR x0 x1 x2 x3 x4 x5 x6 x7 x8 x9 x12) := by
  funext i
  obtain ⟨n, j, rfl⟩ : ∃ (n : Fin 50000) (j : Fin 128), i = ix2 n j := ⟨i 0, i 1, eq_ix2 i⟩
  have h44 : idx_main_v44 (ix2 n j) = ix2 n (0 : Fin 1) := idx2_ext _ _ rfl rfl
  have h46 : idx_main_v46 (idx_main_v47 (ix2 n j)) = ix1 j := idx1_ext _ _ rfl
  rw [val_main_v48_apply, val_main_v45_apply, val_main_v47_apply, val_main_v46_apply, val_main_v44_apply, v43_at,
    Ideal.addf_def, Ideal.mulf_def, h44, h46]
  rfl

end Cert.ReferenceIdeal.RefRead

end
-- ==== Proof.RefReadE.lean ====
import proofs.«413949_j60988535603571_3_alg».proof.Proof.Gen.ReferenceIdeal.Read
import proofs.«413949_j60988535603571_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefReadE

open Cert.ReferenceIdeal Cert.ReferenceIdeal.Gen Cert.ReferenceIdeal.Read
open Idealize.ShloMosaic Idealize.ShloMosaic.ValueIdx

/-- The text projection, read at edge `e` and feature `q`: the matrix product's sum over the 128 contracted
    columns plus the bias broadcast along the edges. -/
private theorem v3_eq (x2 : (⟨S800000x128, .f32⟩ : BufTy).Contents (Elt Ideal))
    (x6 : (⟨S128x128, .f32⟩ : BufTy).Contents (Elt Ideal)) (x7 : (⟨S128, .f32⟩ : BufTy).Contents (Elt Ideal))
    (e : Fin 800000) (q : Fin 128) :
    val_main_v3 (F := Ideal) x2 x6 x7 (ix2 e q) = Cert.Spec.sLin x2 x6 x7 e q := by
  have e1 : ∀ k : Fin 128, lidx_main_v0 (ix2 e q) k = ix2 e k := fun k =>
    funext fun a => Fin.ext (by match a with | ⟨0, _⟩ => rfl | ⟨1, _⟩ => rfl)
  have e2 : ∀ k : Fin 128, ridx_main_v0 (ix2 e q) k = ix2 k q := fun k =>
    funext fun a => Fin.ext (by match a with | ⟨0, _⟩ => rfl | ⟨1, _⟩ => rfl)
  have e3 : idx_main_v1 (idx_main_v2 (ix2 e q)) = ix1 q :=
    funext fun a => Fin.ext (by match a with | ⟨0, _⟩ => rfl)
  rw [val_main_v3_apply, val_main_v0_apply, val_main_v2_apply, val_main_v1_apply, e3, Ideal.addf_def]
  unfold Cert.Spec.sLin
  refine congrArg (fun s => s + x7 (ix1 q)) (Finset.sum_congr rfl fun k _ => ?_)
  rw [e1, e2]

/-- The two pieces side by side, read at edge `e` and column `k`: the first piece at a column below 128, the text
    projection at the column less 128 otherwise. -/
private theorem v49_eq (x1 x2 : (⟨S800000x128, .f32⟩ : BufTy).Contents (Elt Ideal))
    (x6 : (⟨S128x128, .f32⟩ : BufTy).Contents (Elt Ideal)) (x7 : (⟨S128, .f32⟩ : BufTy).Contents (Elt Ideal))
    (e : Fin 800000) (j : Fin 128) (k : Fin 256) :
    val_main_v49 (F := Ideal) x1 x2 x6 x7 (lidx_main_v50 (ix2 e j) k)
      = if hk : k.val < 128 then x1 (ix2 e ⟨k.val, hk⟩)
        else Cert.Spec.sLin x2 x6 x7 e ⟨k.val - 128, by omega⟩ := by
  unfold val_main_v49
  by_cases hk : k.val < 128
  · rw [dif_pos hk]
    exact concatenate_pair_apply_left (1 : Fin S800000x256.rank) x1 (val_main_v3 (F := Ideal) x2 x6 x7)
      concatenates_S800000x128_S800000x128_S800000x256_d1 (lidx_main_v50 (ix2 e j) k) rfl (ix2 e ⟨k.val, hk⟩)
      (fun b => match b with | ⟨0, _⟩ => rfl | ⟨1, _⟩ => rfl)
  · rw [dif_neg hk, ← v3_eq]
    exact concatenate_pair_apply_right (1 : Fin S800000x256.rank) x1 (val_main_v3 (F := Ideal) x2 x6 x7)
      concatenates_S800000x128_S800000x128_S800000x256_d1 (lidx_main_v50 (ix2 e j) k) rfl rfl
      (ix2 e ⟨k.val - 128, by omega⟩)
      (fun b => match b with
        | ⟨0, _⟩ => fun _ => rfl
        | ⟨1, _⟩ => fun hb => absurd rfl hb)
      (by show k.val - 128 + 128 = k.val; omega)

/-- The reference's second result, read index by index. -/
theorem v53_eq (x1 x2 : (⟨S800000x128, .f32⟩ : BufTy).Contents (Elt Ideal))
    (x6 : (⟨S128x128, .f32⟩ : BufTy).Contents (Elt Ideal)) (x7 : (⟨S128, .f32⟩ : BufTy).Contents (Elt Ideal))
    (x10 : (⟨S256x128, .f32⟩ : BufTy).Contents (Elt Ideal)) (x11 : (⟨S128, .f32⟩ : BufTy).Contents (Elt Ideal)) :
    val_main_v53 (F := Ideal) x1 x2 x6 x7 x10 x11
      = Cert.Spec.arr2 (Cert.Spec.eNewR x1 x2 x6 x7 x10 x11) := by
  funext i
  obtain ⟨e, j, rfl⟩ : ∃ (e : Fin 800000) (j : Fin 128), i = ix2 e j := ⟨i 0, i 1, eq_ix2 i⟩
  have e1 : ∀ k : Fin 256, ridx_main_v50 (ix2 e j) k = ix2 k j := fun k =>
    funext fun a => Fin.ext (by match a with | ⟨0, _⟩ => rfl | ⟨1, _⟩ => rfl)
  have e2 : idx_main_v51 (idx_main_v52 (ix2 e j)) = ix1 j :=
    funext fun a => Fin.ext (by match a with | ⟨0, _⟩ => rfl)
  rw [Cert.Spec.arr2_apply, val_main_v53_apply, val_main_v50_apply, val_main_v52_apply, val_main_v51_apply, e2,
    Ideal.addf_def]
  unfold Cert.Spec.eNewR
  refine congrArg (fun s => s + x11 (ix1 j)) (Finset.sum_congr rfl fun k _ => ?_)
  rw [v49_eq, e1]

end Cert.ReferenceIdeal.RefReadE

end
-- ==== Proof.LibERealCoe.lean ====
/-
  Reals inside the extended reals: the coercion goes through finite sums and maxima, and the ideal division
  of a real by a real clamped below by one is the real quotient.
-/
import Idealize.ShloMosaic.PureOps.Ideal
import Mathlib.Data.EReal.Basic
import Mathlib.Data.EReal.Operations
import Mathlib.Algebra.BigOperators.Group.Finset.Basic
import Mathlib.Tactic.Linarith

noncomputable section

open scoped BigOperators

namespace Cert.ERealCoe

open Idealize.ShloMosaic

/-- The coercion of a finite sum of reals is the sum of the coercions (induction on the index set, the
coercion being additive). -/
theorem coe_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The coercion of a maximum of reals is the maximum of the coercions (the coercion is monotone). -/
theorem coe_max (a b : ℝ) : ((max a b : ℝ) : EReal) = max (a : EReal) (b : EReal) :=
  EReal.coe_strictMono.monotone.map_max

/-- The ideal division of a real by a real clamped below by one (so not zero) is the real quotient. -/
theorem div_coe_max_one (a n : ℝ) :
    Ideal.div (a : EReal) ((max n 1 : ℝ) : EReal) = ((a * (1 / max n 1) : ℝ) : EReal) := by
  have h : max n 1 ≠ 0 := by
    have := le_max_right n 1
    linarith
  rw [Ideal.div_coe h, ← EReal.coe_mul]

end Cert.ERealCoe

end
-- ==== Proof.Bridge.lean ====
import proofs.«413949_j60988535603571_3_alg».proof.Proof.Spec
import proofs.«413949_j60988535603571_3_alg».proof.Proof.LibERealCoe
import Mathlib.Algebra.BigOperators.Fin

noncomputable section

open scoped BigOperators

namespace Cert.Spec

open Idealize.ShloMosaic Idealize.ShloMosaic.ValueIdx

/-- A sum over 256 columns is the sum over the first 128 plus the sum over the last 128
    (256 = 128 + 128, the first block embedded by keeping the value, the second by adding 128). -/
private theorem sum_split (F : Fin 256 → EReal) :
    ∑ k : Fin 256, F k
      = (∑ k : Fin 128, F ⟨k.val, by omega⟩) + ∑ k : Fin 128, F ⟨128 + k.val, by omega⟩ :=
  Fin.sum_univ_add (a := 128) (b := 128) F

/-- The kernel's new edge features are the reference's: a sum over 256 columns is the sum over the first 128 plus
    the sum over the last 128. -/
theorem eNew_eq (e_h s_h : Mat 800000 128) (Wt : Mat 128 128) (bt : Row 128) (Wr : Mat 256 128) (br : Row 128)
    (e : Fin 800000) (j : Fin 128) :
    eNewK s_h e_h Wt bt Wr br e j = eNewR e_h s_h Wt bt Wr br e j := by
  unfold eNewK eNewR
  rw [sum_split]
  refine congrArg (fun s => s + br (ix1 j)) ?_
  refine congrArg₂ (fun s t => s + t) (Finset.sum_congr rfl fun k _ => ?_) (Finset.sum_congr rfl fun k _ => ?_)
  · rw [dif_pos (show (⟨k.val, by omega⟩ : Fin 256).val < 128 from k.isLt)]
  · have hk : (⟨(⟨128 + k.val, by omega⟩ : Fin 256).val - 128, by simp⟩ : Fin 128) = k :=
      Fin.ext (by simp)
    rw [dif_neg (show ¬ (⟨128 + k.val, by omega⟩ : Fin 256).val < 128 from by simp), hk]

/-- A word that reads signed as a nonnegative number is its own wrapped word. -/
private theorem wrapWord_of_nonneg {w : BitVec 32} (hw : 0 ≤ w.toInt) : wrapWord w = w := by
  unfold wrapWord
  rw [if_neg (by omega)]

/-- A word that reads signed as a number in [0, 50000) names a row. -/
private theorem inRows_of_range {w : BitVec 32} (h0 : 0 ≤ w.toInt) (h1 : w.toInt < 50000) : inRows w := by
  unfold inRows
  rw [wrapWord_of_nonneg h0]
  exact ⟨h0, by omega⟩

/-- A fill-mode take at an index word in [0, 50000) reads the row the word names. -/
private theorem takeFill_of_range (x : Mat 50000 128) (idx : IRow 800000) (e : Fin 800000) (j : Fin 128)
    (h0 : 0 ≤ (idx (ix1 e)).toInt) (h1 : (idx (ix1 e)).toInt < 50000) :
    takeFill x idx e j = x (ix2 (wrapRow (idx (ix1 e))) j) := by
  unfold takeFill
  rw [if_pos (inRows_of_range h0 h1)]

/-- Two segment sums at a node agree when their summands agree on the edges that land at the node. -/
private theorem segSum_congr (dst : IRow 800000) (f g : Fin 800000 → EReal) (n : Fin 50000)
    (hfg : ∀ e, (dst (ix1 e)).toInt = (n.val : Int) → f e = g e) : segSum dst f n = segSum dst g n := by
  unfold segSum
  refine Finset.sum_congr rfl fun e _ => ?_
  by_cases hc : (dst (ix1 e)).toInt = (n.val : Int)
  · rw [if_pos hc, if_pos hc, hfg e hc]
  · rw [if_neg hc, if_neg hc]

/-- The mean's divisor is a nonzero real: the in-degree is a finite sum of ones and zeros, so a real, and
    its maximum with one is at least one. -/
private theorem denom_real (dst : IRow 800000) (n : Fin 50000) :
    ∃ r : ℝ, r ≠ 0 ∧ denom dst n = (r : EReal) := by
  refine ⟨max (∑ e : Fin 800000, if (dst (ix1 e)).toInt = (n.val : Int) then (1 : ℝ) else 0) 1, ?_, ?_⟩
  · exact (lt_of_lt_of_le one_pos (le_max_right _ _)).ne'
  · unfold denom deg segSum
    rw [Cert.ERealCoe.coe_max, Cert.ERealCoe.coe_sum, EReal.coe_one]
    refine congrArg (fun s => max s (1 : EReal)) (Finset.sum_congr rfl fun e _ => ?_)
    by_cases hc : (dst (ix1 e)).toInt = (n.val : Int)
    · rw [if_pos hc, if_pos hc, EReal.coe_one]
    · rw [if_neg hc, if_neg hc, EReal.coe_zero]

/-- Scaling by the reciprocal of a nonzero real is dividing by it, for every extended real. -/
private theorem mul_div_one (x : EReal) {r : ℝ} (hr : r ≠ 0) :
    x * Ideal.div 1 (r : EReal) = Ideal.div x (r : EReal) := by
  rw [Ideal.div_coe hr, Ideal.div_coe hr, one_mul]

/-- The kernel's node update (segment sum of the 256 fused columns, scaled by the reciprocal of the divisor, times
    `W_inv`, plus the bias) is the reference's (the two means side by side, times `W_inv`, plus the bias). -/
private theorem node_eq (h : Mat 50000 128) (e_h s_h : Mat 800000 128) (dst : IRow 800000)
    (Wt : Mat 128 128) (bt : Row 128) (Wi : Mat 256 128) (bi : Row 128) (m : Fin 50000) (j : Fin 128) :
    nodeAK (arr2 fun n'' q => segSum dst (fun e' => fusedK s_h e_h (arr2 (takeFill h dst)) Wt bt e' q) n'')
      (arr2 fun n'' (_ : Fin 1) => Ideal.div 1 (denom dst n'')) Wi bi m j
    = hsroR h e_h s_h dst Wt bt Wi bi m j := by
  unfold nodeAK hsroR
  refine congrArg (fun s => s + bi (ix1 j)) (Finset.sum_congr rfl fun k _ => ?_)
  refine congrArg (fun s => s * Wi (ix2 k j)) ?_
  rw [arr2_apply, arr2_apply]
  obtain ⟨r, hr, hd⟩ := denom_real dst m
  by_cases hk : k.val < 128
  · rw [dif_pos hk]
    unfold hOS
    rw [hd, mul_div_one _ hr]
    refine congrArg (fun s => Ideal.div s (r : EReal)) ?_
    refine segSum_congr dst _ _ m fun e' _ => ?_
    unfold fusedK
    rw [dif_pos hk]
  · rw [dif_neg hk]
    unfold hOR
    rw [hd, mul_div_one _ hr]
    refine congrArg (fun s => Ideal.div s (r : EReal)) ?_
    refine segSum_congr dst _ _ m fun e' he' => ?_
    unfold fusedK
    rw [dif_neg hk, arr2_apply, takeFill_of_range h dst e' _ (by omega) (by omega)]

/-- With every source word a node number, the kernel's new node features are the reference's. -/
theorem hNew_eq (h : Mat 50000 128) (e_h s_h : Mat 800000 128) (nm : Mat 50000 1) (src dst : IRow 800000)
    (Wt : Mat 128 128) (bt : Row 128) (Wi : Mat 256 128) (bi : Row 128) (bv : Row 128)
    (hsrc : ∀ e : Fin 800000, 0 ≤ (src (ix1 e)).toInt ∧ (src (ix1 e)).toInt < 50000)
    (n : Fin 50000) (j : Fin 128) :
    hNewK h e_h s_h nm src dst Wt bt Wi bi bv n j = hNewR h e_h s_h nm src dst Wt bt Wi bi bv n j := by
  unfold hNewK hNewR nodeBK
  rw [arr2_apply]
  refine congrArg (fun s => s * nm (ix2 n (0 : Fin 1)) + bv (ix1 j)) ?_
  refine segSum_congr dst _ _ n fun e _ => ?_
  rw [takeFill_of_range _ src e j (hsrc e).1 (hsrc e).2, arr2_apply, node_eq]

end Cert.Spec

end
-- ==== Proof.PreRead.lean ====
import proofs.«413949_j60988535603571_3_alg».proof.Defs
import proofs.«413949_j60988535603571_3_alg».proof.Proof.Gen.Pre_finite_inputs
import Idealize.ShloMosaic.Lib.ValueIdx
import Idealize.ShloMosaic.Lib.ReduceAll
import Idealize.ShloMosaic.Lib.StableHlo.Predicate

noncomputable section

namespace Cert.PreRead

open Idealize.ShloMosaic Idealize.ShloMosaic.ValueIdx Idealize.SL.Sem

/-- The rank-0 shape has exactly one index. -/
instance subsingleton_S_Idx : Subsingleton Cert.Pre_finite_inputs.S_.Idx :=
  ⟨fun a b => funext fun d => d.elim0⟩

/-- The last part of the precondition function, at its one result index: when it is 1, every source word lies in
    [0, 50000) read signed. The result is the `and` of the earlier conjuncts with the all-reduction of
    (w ≥ 0) ∧ (w < 50000) over the 800000 words; a conjunction that is 1 has both sides 1, an all-reduction
    that is 1 had a 1 at every element, and the two signed comparisons against the broadcast constants 0 and
    50000 are the two bounds. -/
theorem part3_last {F : FTy → Type} [FloatOps F] [Cert.Pre_finite_inputs.Facts]
    (a4 : IVec Cert.Pre_finite_inputs.S800000 32) (v48 : IVec Cert.Pre_finite_inputs.S_ 1)
    (v49 v50 : FVec F Cert.Pre_finite_inputs.S128 .f32) (j : Cert.Pre_finite_inputs.S_.Idx)
    (h : Cert.Pre_finite_inputs.fn_part3 (F := F) a4 v48 v49 v50 j = 1#1)
    (i : Cert.Pre_finite_inputs.S800000.Idx) :
    0 ≤ (a4 i).toInt ∧ (a4 i).toInt < 50000 := by
  unfold Cert.Pre_finite_inputs.fn_part3 at h
  dsimp only at h
  have h2 := (IntOp.andi_eq_one.1 h).2
  have h3 := Host.reduce_andi_all _ _ _ _ j h2 i
  obtain ⟨hge, hlt⟩ := IntOp.andi_eq_one.1 h3
  have hge' : (0#32 : BitVec 32).toInt ≤ (a4 i).toInt := IntOp.cmpi_sge.1 hge
  have hlt' : (a4 i).toInt < (50000#32 : BitVec 32).toInt := IntOp.cmpi_slt.1 hlt
  have e0 : (0#32 : BitVec 32).toInt = 0 := by decide
  have e5 : (50000#32 : BitVec 32).toInt = 50000 := by decide
  rw [e0] at hge'
  rw [e5] at hlt'
  exact ⟨hge', hlt'⟩

/-- The precondition's last conjunct, decoded: every source word, read signed, is a node number. -/
theorem src_in_range [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (e : Fin 800000) :
    0 ≤ (m ((c.tc : Thread Cert.KernelIdeal.nD Cert.KernelIdeal.τ).loc Cert.KernelIdeal.main_arg4) (ix1 e)).toInt
      ∧ (m ((c.tc : Thread Cert.KernelIdeal.nD Cert.KernelIdeal.τ).loc Cert.KernelIdeal.main_arg4) (ix1 e)).toInt < 50000 := by
  have e1 := congrFun (h c) ValueIdx.ix0
  unfold Cert.Pre_finite_inputs.fn at e1
  dsimp only at e1
  unfold Cert.Pre_finite_inputs.fn_part1 at e1
  dsimp only at e1
  unfold Cert.Pre_finite_inputs.fn_part2 at e1
  dsimp only at e1
  exact part3_last _ _ _ _ _ e1 (ix1 e)

end Cert.PreRead

end
-- ==== Proof.lean ====
/-
  The certificate of a graph message-passing layer on 50000 nodes and 800000 edges (features of width 128): the
  kernel computes it in three passes (an edge pass, two node passes) among host steps (row gathers, segment sums, an
  in-degree count), the reference in plain array operations. On the extended reals, under the precondition (every
  float input finite, every SOURCE word a node number) the two programs end with equal results:

  * the new edge features: the kernel multiplies `e_h` by the top half of `W_rel` and the text projection by the
    bottom half and adds; the reference multiplies the two side by side by all of `W_rel`: a sum over 256 columns
    is the sum over the first 128 plus the sum over the last 128;
  * the new node features: the kernel segment-sums the text projection and the message side by side in ONE array of
    256 columns (columns never mix in a segment sum), counts in-degrees in integer words (the count as a real is the
    sum of ones), multiplies by `1 / max(deg, 1)` where the reference divides by `max(deg, 1)` (a real number, at
    least one, so the two agree on every extended real), and takes rows in fill mode where the reference clamps: for
    the destination rows the two differ only on edges whose destination is outside the nodes, and every segment sum
    drops those edges; for the source rows they agree because the source words are node numbers.

  Finiteness of the float inputs is not used. The frames of the two kernel programs are the generated ones; the
  reference's frame is its generated run with the results dropped.
-/
import proofs.«413949_j60988535603571_3_alg».proof.Defs
import proofs.«413949_j60988535603571_3_alg».proof.Proof.Gen.Kernel
import proofs.«413949_j60988535603571_3_alg».proof.Proof.Gen.Kernel.Skeleton
import proofs.«413949_j60988535603571_3_alg».proof.Proof.Gen.Kernel.Launch
import proofs.«413949_j60988535603571_3_alg».proof.Proof.Gen.Kernel.Points
import proofs.«413949_j60988535603571_3_alg».proof.Proof.Gen.Kernel.Frame
import proofs.«413949_j60988535603571_3_alg».proof.Proof.Gen.KernelIdeal
import proofs.«413949_j60988535603571_3_alg».proof.Proof.Gen.KernelIdeal.Skeleton
import proofs.«413949_j60988535603571_3_alg».proof.Proof.Gen.KernelIdeal.Launch
import proofs.«413949_j60988535603571_3_alg».proof.Proof.Gen.KernelIdeal.Points
import proofs.«413949_j60988535603571_3_alg».proof.Proof.Gen.KernelIdeal.Frame
import proofs.«413949_j60988535603571_3_alg».proof.Proof.Gen.ReferenceIdeal
import proofs.«413949_j60988535603571_3_alg».proof.Proof.Gen.Pre_finite_inputs
import proofs.«413949_j60988535603571_3_alg».proof.Proof.Gen.ReferenceIdeal.Run
import proofs.«413949_j60988535603571_3_alg».proof.Proof.Gen.ReferenceIdeal.Read
import proofs.«413949_j60988535603571_3_alg».proof.Proof.Spec
import proofs.«413949_j60988535603571_3_alg».proof.Proof.KernelRun
import proofs.«413949_j60988535603571_3_alg».proof.Proof.Composed
import proofs.«413949_j60988535603571_3_alg».proof.Proof.RefRead
import proofs.«413949_j60988535603571_3_alg».proof.Proof.RefReadE
import proofs.«413949_j60988535603571_3_alg».proof.Proof.Bridge
import proofs.«413949_j60988535603571_3_alg».proof.Proof.PreRead
import Idealize.ShloMosaic.Adequacy
import Idealize.ShloMosaic.Init

noncomputable section

namespace Cert.Proof

open Idealize.ShloMosaic Idealize.ShloMosaic.TcCoe Idealize.ShloMosaic.ValueIdx Idealize.SL.Sem

section Claims

variable [hK : Cert.Kernel.Facts] [hKI : Cert.KernelIdeal.Facts] [hR : Cert.ReferenceIdeal.Facts]
  [hP : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs run; the kernel's two result arrays are `Spec.hNewK` and `Spec.eNewK` of its arguments, the
    reference's `Spec.hNewR` and `Spec.eNewR` of the same arrays, and those agree entry by entry. -/
theorem algebraic : Cert.algebraic_KernelIdeal_ReferenceIdeal := by
  intro m ρ m' ρ' hpre hagree
  refine ⟨fun c => Cert.KernelIdeal.Gen.W8 m ρ c (Proc.devRef .tc Cert.KernelIdeal.main_v23),
    fun c => Cert.KernelIdeal.Gen.W8 m ρ c (Proc.devRef .tc Cert.KernelIdeal.main_v4_1),
    Cert.KernelIdeal.Results.run_results m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12⟩ := hagree c
    refine Eq.trans ?_ (Cert.KernelIdeal.Composed.hnew_eq m ρ c).symm
    rw [Cert.ReferenceIdeal.Read.val_main_v48_eq, Cert.ReferenceIdeal.RefRead.v48_eq,
      a0, a1, a2, a3, a4, a5, a6, a7, a8, a9, a12]
    funext i
    exact (Cert.Spec.hNew_eq _ _ _ _ _ _ _ _ _ _ _ (Cert.PreRead.src_in_range m hpre c) (i 0) (i 1)).symm
  · obtain ⟨a0, a1, a2, a3, a4, a5, a6, a7, a8, a9, a10, a11, a12⟩ := hagree c
    refine Eq.trans ?_ (Cert.KernelIdeal.Composed.enew_eq m ρ c).symm
    rw [Cert.ReferenceIdeal.Read.val_main_v53_eq, Cert.ReferenceIdeal.RefReadE.v53_eq,
      a1, a2, a6, a7, a10, a11]
    funext i
    exact (Cert.Spec.eNew_eq _ _ _ _ _ _ (i 0) (i 1)).symm

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
